-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x16384 : Shape := ⟨2, ![4096, 16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x16384 : S_.BroadcastsInDim S4096x16384 (![] : Fin 0 → Fin S4096x16384.rank)
  reducesTo_S4096x16384_S_d0_1 : S4096x16384.ReducesTo [0, 1] S_

variable [Facts]

def fn {F : FTy → Type} [FloatOps F] (main_arg0 : FVec F S8192x4096 .f32) (main_arg1 : FVec F S4096x16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  main_v8
-- ==== Kernel.lean ====
abbrev S8192x4096 : Shape := ⟨2, ![8192, 4096]⟩
abbrev S4096x16384 : Shape := ⟨2, ![4096, 16384]⟩
abbrev S8192x1 : Shape := ⟨2, ![8192, 1]⟩
abbrev S512x4096 : Shape := ⟨2, ![512, 4096]⟩
abbrev S512x1 : Shape := ⟨2, ![512, 1]⟩
abbrev S512 : Shape := ⟨1, ![512]⟩
abbrev S1x16384 : Shape := ⟨2, ![1, 16384]⟩
abbrev S4096x512 : Shape := ⟨2, ![4096, 512]⟩
abbrev S1x512 : Shape := ⟨2, ![1, 512]⟩
abbrev S8192x16384 : Shape := ⟨2, ![8192, 16384]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 7
  | .vmem => 23
  | .smem => 0
  | _ => 0

abbrev bufTy : (tb : Table) → Fin (tcTables nBuf tb) → BufTy
  | .hbm, ⟨0, _⟩ => ⟨S8192x4096, .f32⟩
  | .hbm, ⟨1, _⟩ => ⟨S4096x16384, .f32⟩
  | .hbm, ⟨2, _⟩ => ⟨S8192x4096, .bf16⟩
  | .hbm, ⟨3, _⟩ => ⟨S8192x1, .f32⟩
  | .hbm, ⟨4, _⟩ => ⟨S4096x16384, .bf16⟩
  | .hbm, ⟨5, _⟩ => ⟨S1x16384, .f32⟩
  | .hbm, ⟨6, _⟩ => ⟨S8192x16384, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x1, .f32⟩
  | .local _ .vmem, ⟨5, _⟩ => ⟨S512x1, .f32⟩
  | .local _ .vmem, ⟨6, _⟩ => ⟨S4096x512, .f32⟩
  | .local _ .vmem, ⟨7, _⟩ => ⟨S4096x512, .f32⟩
  | .local _ .vmem, ⟨8, _⟩ => ⟨S4096x512, .bf16⟩
  | .local _ .vmem, ⟨9, _⟩ => ⟨S4096x512, .bf16⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1, .f32⟩
  | .local _ .vmem, ⟨17, _⟩ => ⟨S1024x1, .f32⟩
  | .local _ .vmem, ⟨18, _⟩ => ⟨S1x1024, .f32⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![8, 16, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S512x1_S512x1_0_0 : ∀ a, (![0, 0] : Fin 2 → Nat) a + S512x1.size a ≤ S512x1.size a
  h_S512x1 : 0 < S512x1.numel
  inb_S4096x512_S4096x512_0_0 : ∀ a, (![0, 0] : Fin 2 → Nat) a + S4096x512.size a ≤ S4096x512.size a
  h_S4096x512 : 0 < S4096x512.numel
  reduces_S4096x512_S512 : S4096x512.Reduces [0] S512
  shapeCasts_S512_S1x512 : S512.ShapeCasts S1x512
  broadcasts_S1x512_S4096x512 : S1x512.Broadcasts S4096x512
  packedbf16_S4096x512_S4096x512_0_0 : (Rect.unit (s := S4096x512) ![0, 0] S4096x512.size inb_S4096x512_S4096x512_0_0).PackedRows (EltTy.packing .bf16)
  inb_S1x512_S1x512_0_0 : ∀ a, (![0, 0] : Fin 2 → Nat) a + S1x512.size a ≤ S1x512.size a
  h_S1x512 : 0 < S1x512.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S4096x16384.size a
  hwx1_0 : ∀ i : grid1.Coords, EltTy.bits .f32 = 32 ∨ (Rect.block (s := S4096x16384) S4096x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x16384.size a
  hwx1_1 : ∀ i : grid1.Coords, EltTy.bits .bf16 = 32 ∨ (Rect.block (s := S4096x16384) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x16384.size a
  hwx1_2 : ∀ i : grid1.Coords, EltTy.bits .f32 = 32 ∨ (Rect.block (s := S1x16384) S1x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x4096.size a
  hwx2_0 : ∀ i : grid2.Coords, EltTy.bits .bf16 = 32 ∨ (Rect.block (s := S8192x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x16384.size a
  hwx2_1 : ∀ i : grid2.Coords, EltTy.bits .bf16 = 32 ∨ (Rect.block (s := S4096x16384) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x16384.size a
  hwx2_3 : ∀ i : grid2.Coords, EltTy.bits .f32 = 32 ∨ (Rect.block (s := S1x16384) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x16384.size a
  hwx2_4 : ∀ i : grid2.Coords, EltTy.bits .f32 = 32 ∨ (Rect.block (s := S8192x16384) S1024x1024.size (cc2_transform_4 i) (hinb2_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S4096x512.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S1x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1_1) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x16384 : Shape := ⟨2, ![4096, 16384]⟩
abbrev S_ : Shape := ⟨0, ![]⟩
abbrev S8192 : Shape := ⟨1, ![8192]⟩
abbrev S8192x1 : Shape := ⟨2, ![8192, 1]⟩
abbrev S16384 : Shape := ⟨1, ![16384]⟩
abbrev S1x16384 : Shape := ⟨2, ![1, 16384]⟩
abbrev S8192x16384 : Shape := ⟨2, ![8192, 16384]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x16384, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .i1⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S4096x16384, .f32⟩
  | .hbm, ⟨29, _⟩ => ⟨S_, .f32⟩
  | .hbm, ⟨30, _⟩ => ⟨S16384, .f32⟩
  | .hbm, ⟨31, _⟩ => ⟨S1x16384, .f32⟩
  | .hbm, ⟨32, _⟩ => ⟨S_, .f32⟩
  | .hbm, ⟨33, _⟩ => ⟨S1x16384, .f32⟩
  | .hbm, ⟨34, _⟩ => ⟨S1x16384, .i1⟩
  | .hbm, ⟨35, _⟩ => ⟨S_, .f32⟩
  | .hbm, ⟨36, _⟩ => ⟨S1x16384, .f32⟩
  | .hbm, ⟨37, _⟩ => ⟨S1x16384, .f32⟩
  | .hbm, ⟨38, _⟩ => ⟨S_, .f32⟩
  | .hbm, ⟨39, _⟩ => ⟨S1x16384, .f32⟩
  | .hbm, ⟨40, _⟩ => ⟨S1x16384, .f32⟩
  | .hbm, ⟨41, _⟩ => ⟨S4096x16384, .f32⟩
  | .hbm, ⟨42, _⟩ => ⟨S4096x16384, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x16384, .f32⟩
  | .hbm, ⟨47, _⟩ => ⟨S4096x16384, .f32⟩
  | .hbm, ⟨48, _⟩ => ⟨S_, .f32⟩
  | .hbm, ⟨49, _⟩ => ⟨S4096x16384, .f32⟩
  | .hbm, ⟨50, _⟩ => ⟨S4096x16384, .f32⟩
  | .hbm, ⟨51, _⟩ => ⟨S4096x16384, .f32⟩
  | .hbm, ⟨52, _⟩ => ⟨S4096x16384, .f32⟩
  | .hbm, ⟨53, _⟩ => ⟨S4096x16384, .f32⟩
  | .hbm, ⟨54, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_9 : Ref sig .tc := ⟨.hbm, 43, rfl⟩
abbrev main_cst_10 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  reducesTo_S4096x16384_S16384_d0 : S4096x16384.ReducesTo [0] S16384
  bcast_S16384_S1x16384_1 : S16384.BroadcastsInDim S1x16384 (![1] : Fin 1 → Fin S1x16384.rank)
  bcast_S_S1x16384 : S_.BroadcastsInDim S1x16384 (![] : Fin 0 → Fin S1x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.K.Main.lean ====
import proofs.«147511_j60069412602522_1_alg».proof.Proof.Gen.Kernel.Launch
import proofs.«147511_j60069412602522_1_alg».proof.Proof.Gen.Kernel.Skeleton
import proofs.«147511_j60069412602522_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: three kernel regions in a row, every boundary's buffer contents named

@main is three pallas_calls and nothing between them. The thread state at a boundary is "every unscoped buffer at
that boundary's contents, the generator register at some state, nothing owed". A region splits its windows' arrays
out of the unscoped buffers at its entry and puts them back at its exit, at the contents its write-backs leave.
The contents are a fold from the launch memory: W0 (launch), W1 (after region 0), W2 (after region 1), W3 (after
region 2). One launch theorem reads EVERY unscoped buffer of a final state at W3: the frame (the arguments end as
launched) and the value (the result array is region 2's folded write-backs) are both read off it.

The three regions' proof data enter as PARAMETERS of this module, with the facts the run needs of them: the entry
contents are read off the valuation, the input arrays are held at the full share, nothing is owed to another core,
and the region invariant is the class invariant (regions 0 and 1) or is entered from it and gives it back
(region 2, whose invariant carries the accumulator between points). -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The TensorCore's buffer contents, core by core: what a region's proof data are stated at. -/
abbrev RunBufs (F : FTy → Type) : Type := (c : Dev nD) → (b : Ref sig .tc) → Buf (Elt F) ((c : Thread nD τ).loc b)

variable (m : (ℓ : Loc nD τ sig) → Buf (Elt F) ℓ) (ρ : Dev nD → PrngReg)

section Run

-- the three regions' proof data, each at the contents its region is entered from
variable
  (dat0 : RunBufs F → (c : Dev nD) → Dat τ (Elt F) Unit ℕ (UR sig nD τ) ℕ cfg0 c)
  (dat1 : RunBufs F → (c : Dev nD) → Dat τ (Elt F) Unit ℕ (UR sig nD τ) ℕ cfg1 c)
  (dat2 : RunBufs F → (c : Dev nD) → Dat τ (Elt F) Unit ℕ (UR sig nD τ) ℕ cfg2 c)

/-! ## The buffer contents at each boundary: a fold through @main -/

/-- Core c's buffers at launch (region 0's entry: no host operation comes before it). -/
abbrev W0 : Dev nD → Valuation τ sig (Elt F) := fun c b => m ((c : Dev nD), b)
/-- The same read at the TensorCore's references (what region 0's proof data take). -/
abbrev V0 : RunBufs F := fun c b => W0 m c b

/-- At region 0's exit (region 1's entry): its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m dat0 c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m dat0 c (Proc.devRef .tc b) = W0 m c (Proc.devRef .tc b) := by
  unfold W1; exact Pipeline.withArrays_of_ne spec0 c _ _ b hb
/-- The same read at the TensorCore's references (what region 1's proof data take). -/
abbrev V1 : RunBufs F := fun c b => W1 m dat0 c b
theorem hF0 (c : Dev nD) (w : Fin cfg0.W) : (dat0 (V0 m) c).arrAt w cfg0.N = V1 m dat0 c (Pipeline.arrRef spec0 w) :=
  (W1_arr m dat0 c w).symm
theorem hrest0 (c : Dev nD) : ∀ b, b ∉ Finset.univ.image (Pipeline.arrRef spec0) → V1 m dat0 c b = V0 m c b :=
  fun b hb => W1_of_ne m dat0 c b fun w e => hb (Finset.mem_image.mpr ⟨w, Finset.mem_univ _, e⟩)

/-- At region 1's exit (region 2's entry). -/
def W2 (c : Dev nD) : Valuation τ sig (Elt F) :=
  Pipeline.withArrays spec1 c (W1 m dat0 c) fun w => (dat1 (V1 m dat0) c).arrAt w cfg1.N
theorem W2_arr (c : Dev nD) (w : Fin cfg1.W) :
    W2 m dat0 dat1 c (Proc.devRef .tc (Pipeline.arrRef spec1 w)) = (dat1 (V1 m dat0) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m dat0 dat1 c (Proc.devRef .tc b) = W1 m dat0 c (Proc.devRef .tc b) := by
  unfold W2; exact Pipeline.withArrays_of_ne spec1 c _ _ b hb
/-- The same read at the TensorCore's references (what region 2's proof data take). -/
abbrev V2 : RunBufs F := fun c b => W2 m dat0 dat1 c b
theorem hF1 (c : Dev nD) (w : Fin cfg1.W) : (dat1 (V1 m dat0) c).arrAt w cfg1.N = V2 m dat0 dat1 c (Pipeline.arrRef spec1 w) :=
  (W2_arr m dat0 dat1 c w).symm
theorem hrest1 (c : Dev nD) : ∀ b, b ∉ Finset.univ.image (Pipeline.arrRef spec1) → V2 m dat0 dat1 c b = V1 m dat0 c b :=
  fun b hb => W2_of_ne m dat0 dat1 c b fun w e => hb (Finset.mem_image.mpr ⟨w, Finset.mem_univ _, e⟩)

/-- At region 2's exit: what the launch reads at the end. -/
def W3 (c : Dev nD) : Valuation τ sig (Elt F) :=
  Pipeline.withArrays spec2 c (W2 m dat0 dat1 c) fun w => (dat2 (V2 m dat0 dat1) c).arrAt w cfg2.N
theorem W3_arr (c : Dev nD) (w : Fin cfg2.W) :
    W3 m dat0 dat1 dat2 c (Proc.devRef .tc (Pipeline.arrRef spec2 w)) = (dat2 (V2 m dat0 dat1) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m dat0 dat1 dat2 c (Proc.devRef .tc b) = W2 m dat0 dat1 c (Proc.devRef .tc b) := by
  unfold W3; exact Pipeline.withArrays_of_ne spec2 c _ _ b hb
/-- The same read at the TensorCore's references. -/
abbrev V3 : RunBufs F := fun c b => W3 m dat0 dat1 dat2 c b
theorem hF2 (c : Dev nD) (w : Fin cfg2.W) :
    (dat2 (V2 m dat0 dat1) c).arrAt w cfg2.N = V3 m dat0 dat1 dat2 c (Pipeline.arrRef spec2 w) :=
  (W3_arr m dat0 dat1 dat2 c w).symm
theorem hrest2 (c : Dev nD) : ∀ b, b ∉ Finset.univ.image (Pipeline.arrRef spec2) → V3 m dat0 dat1 dat2 c b = V2 m dat0 dat1 c b :=
  fun b hb => W3_of_ne m dat0 dat1 dat2 c b fun w e => hb (Finset.mem_image.mpr ⟨w, Finset.mem_univ _, e⟩)

/-! ### What region 2 is entered from and what it leaves, array by array

Region 2's windows read region 0's two results and region 1's two results; no later region writes them before
region 2 is entered. The result array is region 2's fifth window. -/

theorem W3_main_v2 (c : Dev nD) :
    W3 m dat0 dat1 dat2 c (Proc.devRef .tc main_v2) = (dat2 (V2 m dat0 dat1) c).arrAt 4 cfg2.N :=
  W3_arr m dat0 dat1 dat2 c 4
theorem V2_main_v0_0 (c : Dev nD) : V2 m dat0 dat1 c main_v0_0 = (dat0 (V0 m) c).arrAt 1 cfg0.N :=
  (W2_of_ne m dat0 dat1 c main_v0_0 (by decide)).trans (W1_arr m dat0 c 1)
theorem V2_main_v0_1 (c : Dev nD) : V2 m dat0 dat1 c main_v0_1 = (dat0 (V0 m) c).arrAt 2 cfg0.N :=
  (W2_of_ne m dat0 dat1 c main_v0_1 (by decide)).trans (W1_arr m dat0 c 2)
theorem V2_main_v1_0 (c : Dev nD) : V2 m dat0 dat1 c main_v1_0 = (dat1 (V1 m dat0) c).arrAt 1 cfg1.N :=
  W2_arr m dat0 dat1 c 1
theorem V2_main_v1_1 (c : Dev nD) : V2 m dat0 dat1 c main_v1_1 = (dat1 (V1 m dat0) c).arrAt 2 cfg1.N :=
  W2_arr m dat0 dat1 c 2
theorem V0_main_arg0 (c : Dev nD) : V0 m c main_arg0 = m ((c : Thread nD τ).loc main_arg0) := rfl
theorem V1_main_arg1 (c : Dev nD) : V1 m dat0 c main_arg1 = m ((c : Thread nD τ).loc main_arg1) :=
  W1_of_ne m dat0 c main_arg1 (by decide)

/-! ## The proof data family and the thread state -/

/-- The prefetched tables' admissible contents: no pipeline has a table. -/
abbrev runAdm : (p : Fin 3) → (pcfgs (F := F) p).Adm := fun p => (cfgs p).toPCfg_adm
/-- Every pipeline's proof data, each at its region's entry contents. -/
def runDats : (p : Fin 3) → (c : Dev nD) → Dat τ (Elt F) Unit ℕ (UR sig nD τ) ℕ (Pipeline.pin (pcfgs (F := F)) runAdm p) c
  | ⟨0, _⟩ => fun c => dat0 (V0 m) c
  | ⟨1, _⟩ => fun c => dat1 (V1 m dat0) c
  | ⟨2, _⟩ => fun c => dat2 (V2 m dat0 dat1) c
abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every region: the core's generator register at some state and its
    owes, at nothing. -/
abbrev runR (c : Dev nD) : sProp 𝕄 := iprop((∃ r, prngReg c r) ∗ ∃ W, owes (c : Thread nD τ) (0 : CellTallies nD τ sig Unit) W)
/-- An unscoped TensorCore reference is among those the thread state holds. -/
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents W3, the
    generator register at some state. -/
abbrev runTn (c : Dev nD) : sProp 𝕄 :=
  iprop(StableHlo.held (c : Thread nD τ) (Pipeline.ucRefs τ sig) (W3 m dat0 dat1 dat2 c) ∗ ∃ r, prngReg c r)

section Facts

variable
  (hA0 : ∀ (V : RunBufs F) (c : Dev nD) (w : Fin cfg0.W), (dat0 V c).A w = V c (Pipeline.arrRef spec0 w))
  (hA1 : ∀ (V : RunBufs F) (c : Dev nD) (w : Fin cfg1.W), (dat1 V c).A w = V c (Pipeline.arrRef spec1 w))
  (hA2 : ∀ (V : RunBufs F) (c : Dev nD) (w : Fin cfg2.W), (dat2 V c).A w = V c (Pipeline.arrRef spec2 w))
  (hq0 : ∀ (V : RunBufs F) (c : Dev nD) (w : Fin cfg0.W), (dat0 V c).q w = fullShare)
  (hq1 : ∀ (V : RunBufs F) (c : Dev nD) (w : Fin cfg1.W), (dat1 V c).q w = fullShare)
  (hq2 : ∀ (V : RunBufs F) (c : Dev nD) (w : Fin cfg2.W), (dat2 V c).q w = fullShare)
  (ho0 : ∀ (V : RunBufs F) (c : Dev nD) (t : Fin (cfg0.N + 1)), (dat0 V c).owed t = 0)
  (ho1 : ∀ (V : RunBufs F) (c : Dev nD) (t : Fin (cfg1.N + 1)), (dat1 V c).owed t = 0)
  (ho2 : ∀ (V : RunBufs F) (c : Dev nD) (t : Fin (cfg2.N + 1)), (dat2 V c).owed t = 0)
  (hr0 : ∀ (V : RunBufs F) (c : Dev nD), (dat0 V c).recorded 0 = Set.univ)
  (hr1 : ∀ (V : RunBufs F) (c : Dev nD), (dat1 V c).recorded 0 = Set.univ)
  (hr2 : ∀ (V : RunBufs F) (c : Dev nD), (dat2 V c).recorded 0 = Set.univ)
  (hΦ0 : ∀ (V : RunBufs F) (c : Dev nD) (t : Fin (cfg0.N + 1)), (dat0 V c).Φ t = Pipeline.ΦA spec0 c)
  (hΦ1 : ∀ (V : RunBufs F) (c : Dev nD) (t : Fin (cfg1.N + 1)), (dat1 V c).Φ t = Pipeline.ΦA spec1 c)
  (hin2 : ∀ (V : RunBufs F) (c : Dev nD), (Pipeline.ΦA spec2 c : sProp (MT nD τ sig Unit (Elt F) ℕ (UR sig nD τ) ℕ)) ⊢ (dat2 V c).Φ 0)
  (hout2 : ∀ (V : RunBufs F) (c : Dev nD), (dat2 V c).Φ (Fin.last cfg2.N) ⊢ (Pipeline.ΦA spec2 c : sProp (MT nD τ sig Unit (Elt F) ℕ (UR sig nD τ) ℕ)))
  (hb0 : ∀ (V : RunBufs F) (c : Dev nD), BodyObligation (dat0 V c) (defs₀ (F := F)) Variants.none () Set.univ)
  (hb1 : ∀ (V : RunBufs F) (c : Dev nD), BodyObligation (dat1 V c) (defs₀ (F := F)) Variants.none () Set.univ)
  (hb2 : ∀ (V : RunBufs F) (c : Dev nD), BodyObligation (dat2 V c) (defs₀ (F := F)) Variants.none () Set.univ)

/-! ### The arguments end as launched: a region reads an argument through an input window or bypasses it, so the
    fold at an argument's buffer walks back to the launch memory -/

include hA0 in
theorem W3_main_arg0 (c : Dev nD) : W3 m dat0 dat1 dat2 c (Proc.devRef .tc main_arg0) = m ((c : Thread nD τ).loc main_arg0) :=
  calc W3 m dat0 dat1 dat2 c (Proc.devRef .tc main_arg0)
    _ = W2 m dat0 dat1 c (Proc.devRef .tc main_arg0) := W3_of_ne m dat0 dat1 dat2 c main_arg0 (by decide)
    _ = W1 m dat0 c (Proc.devRef .tc main_arg0) := W2_of_ne m dat0 dat1 c main_arg0 (by decide)
    _ = W0 m c (Proc.devRef .tc main_arg0) := (W1_arr m dat0 c 0).trans (((dat0 (V0 m) c).arrAt_in 0 rfl _).trans (hA0 (V0 m) c 0))
    _ = m ((c : Thread nD τ).loc main_arg0) := rfl

include hA1 in
theorem W3_main_arg1 (c : Dev nD) : W3 m dat0 dat1 dat2 c (Proc.devRef .tc main_arg1) = m ((c : Thread nD τ).loc main_arg1) :=
  calc W3 m dat0 dat1 dat2 c (Proc.devRef .tc main_arg1)
    _ = W2 m dat0 dat1 c (Proc.devRef .tc main_arg1) := W3_of_ne m dat0 dat1 dat2 c main_arg1 (by decide)
    _ = W1 m dat0 c (Proc.devRef .tc main_arg1) := (W2_arr m dat0 dat1 c 0).trans (((dat1 (V1 m dat0) c).arrAt_in 0 rfl _).trans (hA1 (V1 m dat0) c 0))
    _ = W0 m c (Proc.devRef .tc main_arg1) := W1_of_ne m dat0 c main_arg1 (by decide)
    _ = m ((c : Thread nD τ).loc main_arg1) := rfl

/-! ## The regions as segments -/

-- an entailment of the library stated over the pinned configuration unifies with the printed one only when
-- unification may unfold plain definitions in a metavariable's type
set_option backward.isDefEq.respectTransparency.types false in
/-- REGION 0 over the thread state: entered from every unscoped buffer at W0, left at W1. Its arrays split
    out of the unscoped buffers and put back at the exit contents; the generator register into the region
    invariant and out; nothing owed; no semaphore of the kernel's own. -/
def rseg0 : Pipeline.RegionSeg (pcfgs (F := F)) runAdm (runDats m dat0 dat1 dat2) () defs₀ run𝒱 runL runLv 0 where
  win := launch0.win.to₀
  block_pos := launch0.block_pos
  stage_whole := launch0.stage_whole
  K := PEmpty
  osem k := k.elim
  ho := Pipeline.OwnSemFacts.none _
  hbody c := (hb0 (V0 m) c).loose
  hwaits := Pipeline.hwaits_of_owed_zero _ _ _ _ runL runLv 0 fun c t => ho0 _ c t
  pre c := iprop(StableHlo.held (c : Thread nD τ) (Pipeline.ucRefs τ sig) (W0 m c) ∗ runR c)
  post c := iprop(StableHlo.held (c : Thread nD τ) (Pipeline.ucRefs τ sig) (W1 m dat0 c) ∗ runR c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) runAdm (runDats m dat0 dat1 dat2) launch0.win launch0.arr_whole c
      ((runDats m dat0 dat1 dat2 0 c).share_full fun w => hq0 _ c w) (V0 m c) fun w => hA0 _ c w
    rw [Pipeline.unscopedBufs_held] at hsplit
    have hO : (runDats m dat0 dat1 dat2 0 c).owed = fun _ => 0 := funext fun t => ho0 _ c t
    unfold Pipeline.Dat.owesAt Pipeline.owesWithin
    rw [hO]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [show (runDats m dat0 dat1 dat2 0 c).recorded 0 = Set.univ from hr0 _ c]; trivial)
      iexact HO
    isplitl [Hp]; · iexact Hp
    iexact Hrest
  hin c := by
    rw [show (runDats m dat0 dat1 dat2 0 c).Φ 0 = Pipeline.ΦA spec0 c from hΦ0 _ c 0]; unfold Pipeline.ΦA
    iintro ⟨Hp, -, Hr⟩
    isplitl [Hr]; · iexact Hr
    iexact Hp
  hout c := by
    rw [Pipeline.ownSems0_none, show (runDats m dat0 dat1 dat2 0 c).Φ (Fin.last _) = Pipeline.ΦA spec0 c from hΦ0 _ c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) runAdm (Ix := Unit) (Name := ℕ) (U := UR sig nD τ) (Lvl := ℕ)
      launch0.win launch0.arr_whole c (runDats m dat0 dat1 dat2) ((runDats m dat0 dat1 dat2 0 c).share_full fun w => hq0 _ c w)
      (V0 m c) (V1 m dat0 c) ((runDats m dat0 dat1 dat2 0 c).arrAt · cfg0.N) (hF0 m dat0 c) (hrest0 m dat0 c)
    rw [Pipeline.unscopedBufs_held] at hjoin
    have hO : (runDats m dat0 dat1 dat2 0 c).owed = fun _ => 0 := funext fun t => ho0 _ c t
    unfold Pipeline.Dat.owesAt Pipeline.owesWithin
    rw [hO]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

-- an entailment of the library stated over the pinned configuration unifies with the printed one only when
-- unification may unfold plain definitions in a metavariable's type
set_option backward.isDefEq.respectTransparency.types false in
/-- REGION 1 over the thread state: entered from every unscoped buffer at W1, left at W2. Its arrays split
    out of the unscoped buffers and put back at the exit contents; the generator register into the region
    invariant and out; nothing owed; no semaphore of the kernel's own. -/
def rseg1 : Pipeline.RegionSeg (pcfgs (F := F)) runAdm (runDats m dat0 dat1 dat2) () defs₀ run𝒱 runL runLv 1 where
  win := launch1.win.to₀
  block_pos := launch1.block_pos
  stage_whole := launch1.stage_whole
  K := PEmpty
  osem k := k.elim
  ho := Pipeline.OwnSemFacts.none _
  hbody c := (hb1 (V1 m dat0) c).loose
  hwaits := Pipeline.hwaits_of_owed_zero _ _ _ _ runL runLv 1 fun c t => ho1 _ c t
  pre c := iprop(StableHlo.held (c : Thread nD τ) (Pipeline.ucRefs τ sig) (W1 m dat0 c) ∗ runR c)
  post c := iprop(StableHlo.held (c : Thread nD τ) (Pipeline.ucRefs τ sig) (W2 m dat0 dat1 c) ∗ runR c)
  X c := iprop(∃ r, prngReg c r)
  Y c := iprop(∃ r, prngReg c r)
  Z c := Pipeline.unscopedRest (Ix := Unit) (Name := ℕ) (U := UR sig nD τ) (Lvl := ℕ) spec1 c (V1 m dat0 c)
  hentry c := by
    rw [Pipeline.ownSems0_none]
    have hsplit := Pipeline.arrays_of_unscopedBufs (p := 1) (pcfgs (F := F)) runAdm (runDats m dat0 dat1 dat2) launch1.win launch1.arr_whole c
      ((runDats m dat0 dat1 dat2 1 c).share_full fun w => hq1 _ c w) (V1 m dat0 c) fun w => hA1 _ c w
    rw [Pipeline.unscopedBufs_held] at hsplit
    have hO : (runDats m dat0 dat1 dat2 1 c).owed = fun _ => 0 := funext fun t => ho1 _ c t
    unfold Pipeline.Dat.owesAt Pipeline.owesWithin
    rw [hO]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [show (runDats m dat0 dat1 dat2 1 c).recorded 0 = Set.univ from hr1 _ c]; trivial)
      iexact HO
    isplitl [Hp]; · iexact Hp
    iexact Hrest
  hin c := by
    rw [show (runDats m dat0 dat1 dat2 1 c).Φ 0 = Pipeline.ΦA spec1 c from hΦ1 _ c 0]; unfold Pipeline.ΦA
    iintro ⟨Hp, -, Hr⟩
    isplitl [Hr]; · iexact Hr
    iexact Hp
  hout c := by
    rw [Pipeline.ownSems0_none, show (runDats m dat0 dat1 dat2 1 c).Φ (Fin.last _) = Pipeline.ΦA spec1 c from hΦ1 _ c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) runAdm (Ix := Unit) (Name := ℕ) (U := UR sig nD τ) (Lvl := ℕ)
      launch1.win launch1.arr_whole c (runDats m dat0 dat1 dat2) ((runDats m dat0 dat1 dat2 1 c).share_full fun w => hq1 _ c w)
      (V1 m dat0 c) (V2 m dat0 dat1 c) ((runDats m dat0 dat1 dat2 1 c).arrAt · cfg1.N) (hF1 m dat0 dat1 c) (hrest1 m dat0 dat1 c)
    rw [Pipeline.unscopedBufs_held] at hjoin
    have hO : (runDats m dat0 dat1 dat2 1 c).owed = fun _ => 0 := funext fun t => ho1 _ c t
    unfold Pipeline.Dat.owesAt Pipeline.owesWithin
    rw [hO]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

-- an entailment of the library stated over the pinned configuration unifies with the printed one only when
-- unification may unfold plain definitions in a metavariable's type
set_option backward.isDefEq.respectTransparency.types false in
/-- REGION 2 over the thread state: entered from every unscoped buffer at W2, left at W3. Its arrays split
    out of the unscoped buffers and put back at the exit contents; the generator register into the region
    invariant and out; nothing owed; no semaphore of the kernel's own. -/
def rseg2 : Pipeline.RegionSeg (pcfgs (F := F)) runAdm (runDats m dat0 dat1 dat2) () defs₀ run𝒱 runL runLv 2 where
  win := launch2.win.to₀
  block_pos := launch2.block_pos
  stage_whole := launch2.stage_whole
  K := PEmpty
  osem k := k.elim
  ho := Pipeline.OwnSemFacts.none _
  hbody c := (hb2 (V2 m dat0 dat1) c).loose
  hwaits := Pipeline.hwaits_of_owed_zero _ _ _ _ runL runLv 2 fun c t => ho2 _ c t
  pre c := iprop(StableHlo.held (c : Thread nD τ) (Pipeline.ucRefs τ sig) (W2 m dat0 dat1 c) ∗ runR c)
  post c := iprop(runTn m dat0 dat1 dat2 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m dat0 dat1 c)
  hentry c := by
    rw [Pipeline.ownSems0_none]
    have hsplit := Pipeline.arrays_of_unscopedBufs (p := 2) (pcfgs (F := F)) runAdm (runDats m dat0 dat1 dat2) launch2.win launch2.arr_whole c
      ((runDats m dat0 dat1 dat2 2 c).share_full fun w => hq2 _ c w) (V2 m dat0 dat1 c) fun w => hA2 _ c w
    rw [Pipeline.unscopedBufs_held] at hsplit
    have hO : (runDats m dat0 dat1 dat2 2 c).owed = fun _ => 0 := funext fun t => ho2 _ c t
    unfold Pipeline.Dat.owesAt Pipeline.owesWithin
    rw [hO]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [show (runDats m dat0 dat1 dat2 2 c).recorded 0 = Set.univ from hr2 _ c]; trivial)
      iexact HO
    isplitl [Hp]; · iexact Hp
    iexact Hrest
  hin c := by
    refine BIBase.Entails.trans ?_ (show (Pipeline.ΦA spec2 c : sProp 𝕄) ⊢ (runDats m dat0 dat1 dat2 2 c).Φ 0 from hin2 _ c)
    unfold Pipeline.ΦA
    iintro ⟨Hp, -, Hr⟩
    isplitl [Hr]; · iexact Hr
    iexact Hp
  hout c := by
    rw [Pipeline.ownSems0_none]
    refine BIBase.Entails.trans (show (runDats m dat0 dat1 dat2 2 c).Φ (Fin.last _) ⊢ (Pipeline.ΦA spec2 c : sProp 𝕄) from hout2 _ c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) runAdm (Ix := Unit) (Name := ℕ) (U := UR sig nD τ) (Lvl := ℕ)
      launch2.win launch2.arr_whole c (runDats m dat0 dat1 dat2) ((runDats m dat0 dat1 dat2 2 c).share_full fun w => hq2 _ c w)
      (V2 m dat0 dat1 c) (V3 m dat0 dat1 dat2 c) ((runDats m dat0 dat1 dat2 2 c).arrAt · cfg2.N) (hF2 m dat0 dat1 dat2 c) (hrest2 m dat0 dat1 dat2 c)
    rw [Pipeline.unscopedBufs_held] at hjoin
    have hO : (runDats m dat0 dat1 dat2 2 c).owed = fun _ => 0 := funext fun t => ho2 _ c t
    unfold Pipeline.Dat.owesAt Pipeline.owesWithin
    rw [hO]
    iintro ⟨Ha, HO, HY, Hrest⟩
    imodintro
    isplitl [Ha Hrest HY]
    · isplitl [Ha Hrest]
      · iapply hjoin; isplitl [Ha] <;> iassumption
      iexact HY
    icases HO with ⟨%W, -, HO⟩; iexists W; iexact HO

/-! ## @main as segments, and the launch -/

include hA0 hA1 hA2 hq0 hq1 hq2 ho0 ho1 ho2 hr0 hr1 hr2 hΦ0 hΦ1 hin2 hout2 hb0 hb1 hb2

/-- @main's 3 segments in order: a region per pallas_call, nothing between them. -/
abbrev runSegs : List (Pipeline.Seg (pcfgs (F := F)) runAdm (runDats m dat0 dat1 dat2) () defs₀ run𝒱 runL runLv) :=
  [ .region (rseg0 m dat0 dat1 dat2 hA0 hq0 ho0 hr0 hΦ0 hb0),
    .region (rseg1 m dat0 dat1 dat2 hA1 hq1 ho1 hr1 hΦ1 hb1),
    .region (rseg2 m dat0 dat1 dat2 hA2 hq2 ho2 hr2 hin2 hout2 hb2) ]
/-- @main IS the run of the segments. -/
theorem main_run (c : Dev nD) : main (F := F) c = Pipeline.Seg.run (runSegs m dat0 dat1 dat2 hA0 hA1 hA2 hq0 hq1 hq2 ho0 ho1 ho2 hr0 hr1 hr2 hΦ0 hΦ1 hin2 hout2 hb0 hb1 hb2) :=
  main_segs runAdm (runDats m dat0 dat1 dat2) () run𝒱 runL runLv (rseg0 m dat0 dat1 dat2 hA0 hq0 ho0 hr0 hΦ0 hb0) (rseg1 m dat0 dat1 dat2 hA1 hq1 ho1 hr1 hΦ1 hb1) (rseg2 m dat0 dat1 dat2 hA2 hq2 ho2 hr2 hin2 hout2 hb2) c

-- the launch theorem's implicit arguments are found by unifying its conclusion with this one, which takes unfolding
-- plain definitions in a metavariable's type
set_option backward.isDefEq.respectTransparency.types false in
/-- THE RUN, at any post that follows from reading every unscoped buffer at W3: at the compiled mesh, from any memory
    with zero counters, every weakly fair execution of @main on the TensorCores terminates, nothing faulting, and
    every final state has every unscoped buffer at the last boundary's contents. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W3 m dat0 dat1 dat2 c b) → Q (⟨⟩, s)) :
    θ_run defs (onTc (τ := τ) (main (F := F))) ⟨m, fun _ => 0, ρ⟩ Q :=
  Pipeline.θ_run_regions_kit (pcfgs (F := F)) runAdm (runDats m dat0 dat1 dat2) () cellOf_inj emb₁ defs₀ run𝒱 runL runLv m ρ main
    (runSegs m dat0 dat1 dat2 hA0 hA1 hA2 hq0 hq1 hq2 ho0 ho1 ho2 hr0 hr1 hr2 hΦ0 hΦ1 hin2 hout2 hb0 hb1 hb2)
    (fun c Q => by rw [main_run m dat0 dat1 dat2 hA0 hA1 hA2 hq0 hq1 hq2 ho0 ho1 ho2 hr0 hr1 hr2 hΦ0 hΦ1 hin2 hout2 hb0 hb1 hb2 c])
    (by simp only [runSegs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ runR c)) (Tₙ := runTn m dat0 dat1 dat2)
    (hch := ⟨fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m dat0 dat1 dat2 c b)
    (hfin := fun c s' => by
      iintro ⟨⟨Hh, -⟩, HSI⟩
      unfold StableHlo.held
      imodintro
      iapply (pointsTo_read_all (Pipeline.ucRefs τ sig) (fun b => (((c : Thread nD τ)).1, b)) (W3 m dat0 dat1 dat2 c) s')
      isplitl [Hh] <;> iassumption)
    (hQ := hQ)

/-- THE RUN, every unscoped buffer named: a final state holds W3 at every unscoped buffer of every core. -/
theorem run_named : θ_run defs (onTc (τ := τ) (main (F := F))) ⟨m, fun _ => 0, ρ⟩
    (fun r => ∀ c : Dev nD, ∀ b ∈ Pipeline.ucRefs τ sig, r.2.mem (((c : Thread nD τ)).1, b) = W3 m dat0 dat1 dat2 c b) :=
  run_post m ρ dat0 dat1 dat2 hA0 hA1 hA2 hq0 hq1 hq2 ho0 ho1 ho2 hr0 hr1 hr2 hΦ0 hΦ1 hin2 hout2 hb0 hb1 hb2 fun _ h => h

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  run_post m ρ dat0 dat1 dat2 hA0 hA1 hA2 hq0 hq1 hq2 ho0 ho1 ho2 hr0 hr1 hr2 hΦ0 hΦ1 hin2 hout2 hb0 hb1 hb2 fun s h c =>
    ⟨(h c _ (mem_ucRefs main_arg0 (by decide))).trans (W3_main_arg0 m dat0 dat1 dat2 hA0 c),
     (h c _ (mem_ucRefs main_arg1 (by decide))).trans (W3_main_arg1 m dat0 dat1 dat2 hA1 c)⟩

/-- THE VALUE: the result array ends at region 2's folded write-backs, from the contents region 2 is entered at;
    the argument arrays end as launched. -/
theorem value_run : θ_run defs (onTc (τ := τ) (main (F := F))) ⟨m, fun _ => 0, ρ⟩ (fun r => ∀ c : Dev nD,
      r.2.mem ((c.tc : Thread nD τ).loc main_v2) = (dat2 (V2 m dat0 dat1) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_post m ρ dat0 dat1 dat2 hA0 hA1 hA2 hq0 hq1 hq2 ho0 ho1 ho2 hr0 hr1 hr2 hΦ0 hΦ1 hin2 hout2 hb0 hb1 hb2 fun s h c =>
    ⟨(h c _ (mem_ucRefs main_v2 (by decide))).trans (W3_main_v2 m dat0 dat1 dat2 c),
     (h c _ (mem_ucRefs main_arg0 (by decide))).trans (W3_main_arg0 m dat0 dat1 dat2 hA0 c),
     (h c _ (mem_ucRefs main_arg1 (by decide))).trans (W3_main_arg1 m dat0 dat1 dat2 hA1 c)⟩

end Facts

end Run

end Cert.Kernel.Fr

end
-- ==== Proof.K.Reg0.lean ====
/- Region 0: the row quantisation of the left matrix.
   The 8192×4096 left matrix is cut into 16 blocks of 512 whole rows; grid point t works on block t, held in a staging
   buffer. From its block x the body leaves in the second output buffer one scale per row (the largest absolute value
   of the row divided by 127, or 1 where that maximum is not positive) and in the first the quantised block (each
   entry divided by its row's scale, clamped to [-127, 127], rounded to the nearest integer, ties to even, and narrowed
   to the 16-bit format). Both are functions of x alone, each one store that covers its whole buffer. The proof data
   records per grid point the input block as read off the array at region entry and the two outputs as those
   functions of it. The body is run symbolically once, on whole buffers at arbitrary contents, and that one triple
   serves every grid point. -/
import proofs.«147511_j60069412602522_1_alg».proof.Proof.Gen.Kernel.Launch
import proofs.«147511_j60069412602522_1_alg».proof.Proof.Gen.Kernel.Skeleton
import proofs.«147511_j60069412602522_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0: custom_call 0, pipeline 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): an unfetched window's
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_a : Rect S512x4096 := Rect.unit (s := S512x4096) ![0, 0] S512x4096.size inb_S512x4096_S512x4096_0_0
abbrev r0_b : Rect S512x1 := Rect.unit (s := S512x1) ![0, 0] S512x1.size inb_S512x1_S512x1_0_0

/-! ## What the body leaves in each output window's buffer -/

/-- Window 1's staging buffer after the body, from the input window's block: its one store (the quantised block)
    as a piece over the whole buffer. -/
def out0_1 (x0 : Vec F S512x4096 .f32) : Vec F S512x4096 .bf16 :=
  View.canon [⟨r0_a, k0_pay2 (View.ld x0 r0_a)⟩]

/-- Window 2's staging buffer after the body: its one store (the scales) as a piece over the whole buffer. -/
def out0_2 (x0 : Vec F S512x4096 .f32) : Vec F S512x1 .f32 :=
  View.canon [⟨r0_b, k0_pay1 (View.ld x0 r0_a)⟩]

/-- Each store tiles its buffer (checked by evaluation), so it covers it. -/
theorem cover0_1 (p0 : Vec F S512x4096 .bf16) (y : S512x4096.Idx) :
    ∃ pc ∈ ([⟨r0_a, p0⟩] : List (View.Piece (Elt F) S512x4096 .bf16)), y ∈ pc.1.set :=
  View.cover_of_tiled [⟨r0_a, p0⟩] S512x4096.size (by rfl) y

theorem cover0_2 (p0 : Vec F S512x1 .f32) (y : S512x1.Idx) :
    ∃ pc ∈ ([⟨r0_b, p0⟩] : List (View.Piece (Elt F) S512x1 .f32)), y ∈ pc.1.set :=
  View.cover_of_tiled [⟨r0_b, p0⟩] S512x1.size (by rfl) y

/-! ## The body's triple -/

set_option maxHeartbeats 1000000 in
/-- The kernel body on whole staging memrefs, the input's at read contents `x0` and the outputs' at anything, runs to
    the continuation holding the input's as it was and each output's at `out0_W` of the input's: the printed function
    is its skeleton, run operation by operation; the two loads of the output buffers read values nothing uses. -/
theorem sound_kernel0 (c : Dev nD) (E : Set ℕ) (i : grid0.Coords) (arg1 : Memref sig .tc .vmem S512x4096 .f32) (harg1 : arg1.IsWhole)
    (arg2 : Memref sig .tc .vmem S512x4096 .bf16) (harg2 : arg2.IsWhole) (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quant_lhs_kernel i arg1 harg1 arg2 harg2 arg3 harg3) K := by
  simp only [cc0__quant_lhs_kernel_eq_skeleton]; unfold cc0__quant_lhs_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pipeline 0 on core `c`: the arrays as the region finds them (`V`); after the body at
    point `t` the input's buffer at its block and each output's at `out0_W` of the input block; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block (`before0_0`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
/- Region 1: the column quantisation of the right matrix.
   The 4096×16384 right matrix is cut into 32 blocks of 512 whole columns; grid point t works on block t, held in a
   staging buffer. From its block x the body leaves in the second output buffer one scale per column (the largest
   absolute value of the column divided by 127, or 1 where that maximum is not positive) and in the first the
   quantised block (each entry divided by its column's scale, clamped to [-127, 127], rounded to the nearest integer,
   ties to even, and narrowed to the 16-bit format). Both are functions of x alone, each one store that covers its
   whole buffer. The proof data records per grid point the input block as read off the array at region entry and the
   two outputs as those functions of it. The body is run symbolically once, on whole buffers at arbitrary contents,
   and that one triple serves every grid point. -/
import proofs.«147511_j60069412602522_1_alg».proof.Proof.Gen.Kernel.Launch
import proofs.«147511_j60069412602522_1_alg».proof.Proof.Gen.Kernel.Skeleton
import proofs.«147511_j60069412602522_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1: custom_call 1, pipeline 1, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched window's
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_a : Rect S4096x512 := Rect.unit (s := S4096x512) ![0, 0] S4096x512.size inb_S4096x512_S4096x512_0_0
abbrev r1_b : Rect S1x512 := Rect.unit (s := S1x512) ![0, 0] S1x512.size inb_S1x512_S1x512_0_0

/-! ## What the body leaves in each output window's buffer -/

/-- Window 1's staging buffer after the body, from the input window's block: its one store (the quantised block)
    as a piece over the whole buffer. -/
def out1_1 (x0 : Vec F S4096x512 .f32) : Vec F S4096x512 .bf16 :=
  View.canon [⟨r1_a, k1_pay2 (View.ld x0 r1_a)⟩]

/-- Window 2's staging buffer after the body: its one store (the scales) as a piece over the whole buffer. -/
def out1_2 (x0 : Vec F S4096x512 .f32) : Vec F S1x512 .f32 :=
  View.canon [⟨r1_b, k1_pay1 (View.ld x0 r1_a)⟩]

/-- Each store tiles its buffer (checked by evaluation), so it covers it. -/
theorem cover1_1 (p0 : Vec F S4096x512 .bf16) (y : S4096x512.Idx) :
    ∃ pc ∈ ([⟨r1_a, p0⟩] : List (View.Piece (Elt F) S4096x512 .bf16)), y ∈ pc.1.set :=
  View.cover_of_tiled [⟨r1_a, p0⟩] S4096x512.size (by rfl) y

theorem cover1_2 (p0 : Vec F S1x512 .f32) (y : S1x512.Idx) :
    ∃ pc ∈ ([⟨r1_b, p0⟩] : List (View.Piece (Elt F) S1x512 .f32)), y ∈ pc.1.set :=
  View.cover_of_tiled [⟨r1_b, p0⟩] S1x512.size (by rfl) y

/-! ## The body's triple -/

set_option maxHeartbeats 1000000 in
/-- The kernel body on whole staging memrefs, the input's at read contents `x0` and the outputs' at anything, runs to
    the continuation holding the input's as it was and each output's at `out1_W` of the input's: the printed function
    is its skeleton, run operation by operation; the two loads of the output buffers read values nothing uses. -/
theorem sound_kernel1 (c : Dev nD) (E : Set ℕ) (i : grid1.Coords) (arg1 : Memref sig .tc .vmem S4096x512 .f32) (harg1 : arg1.IsWhole)
    (arg2 : Memref sig .tc .vmem S4096x512 .bf16) (harg2 : arg2.IsWhole) (arg3 : Memref sig .tc .vmem S1x512 .f32) (harg3 : arg3.IsWhole)
    (x0 : Vec F S4096x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0) ∗ owns (c : Thread nD τ) arg3 fullShare (out1_2 x0)) -∗ K ⟨⟩))
      ⊢ wp frame (wpE (defs₀ (F := F)) Variants.none c none) E (cc1__quant_rhs_kernel i arg1 harg1 arg2 harg2 arg3 harg3) K := by
  simp only [cc1__quant_rhs_kernel_eq_skeleton]; unfold cc1__quant_rhs_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-! ## The pipeline's proof data -/

/-- The proof data of pipeline 1 on core `c`: the arrays as the region finds them (`V`); after the body at
    point `t` the input's buffer at its block and each output's at `out1_W` of the input block; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]

/-- The input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input's memref holds its block (`before1_0`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2Base.lean ====
/- Region 2 multiplies the two quantised matrices block by block. Its grid has 8 × 16 × 4 = 512 points, read as
   (row block, column block, contraction block); the point at position t has contraction index t mod 4. A scratch
   block carries the running sum of the products over the four contraction blocks of one (row, column) pair: the points
   of contraction index 0 reset it to zero before adding, every point adds its product, and the points of contraction
   index 3 store the sum, scaled by the row scales and the column scales, into the output block (the output window is
   idle at the other points and written back only there). This module holds what the three cases of the body share:
   the windows' blocks read off the entry contents, the closed forms of the two branch conditions over the grid, where
   the output window is idle, the staging and scratch memrefs, and the class invariant split at the call's own scratch. -/
import proofs.«147511_j60069412602522_1_alg».proof.Proof.Gen.Kernel.Launch
import proofs.«147511_j60069412602522_1_alg».proof.Proof.Gen.Kernel.Skeleton
import proofs.«147511_j60069412602522_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2 (the matmul call) at the entry contents `V`: what its runs share -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (the reset of the accumulator), from the grid coordinates. -/
abbrev cond2_0 (i : grid2.Coords) : Prop := (Scalar.cmpi .ne (Scalar.extui (Scalar.cmpi .eq (BitVec.ofNat 32 (i 2).val) 0#32)) 0#32) = 1#1
/-- It holds at the points ≡ 0 (mod 4): decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second `scf.if` (the store of the output block), from the grid coordinates. -/
abbrev cond2_1 (i : grid2.Coords) : Prop := k2_cond2 i = 1#1
/-- It holds at the points ≡ 3 (mod 4): decided over the grid. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
/-- Where the second condition fails the output window is idle: the body stores nothing into it. -/
theorem idleAt2_4 : ∀ t : Fin cfg2.N, ¬cond2_1 (grid2.coords t) → cfg2.idle 4 (grid2.coords t) = true := by decide +kernel
/-- and the pipeline does not write its block back. -/
theorem noFlush2_4 : ∀ t : Fin cfg2.N, ¬cond2_1 (grid2.coords t) → (cfg2.win 4).flush t = false := by decide +kernel
/-- Where it holds the window is live: the body stores into it. -/
theorem liveAt2_4 : ∀ t : Fin cfg2.N, cond2_1 (grid2.coords t) → cfg2.idle 4 (grid2.coords t) = false := by decide +kernel

/-! ## The staging and scratch memrefs -/

/-- One staging buffer of output window 4, through which its contents are stated (the choice does not matter). -/
abbrev VO2_4 : View sig .tc .vmem S1024x1024 .f32 := (Memref.whole cc2_stg4_0 : Memref sig .tc .vmem S1024x1024 .f32).view
/-- Each window's current staging memref at point `t`, spelled as the pipeline passes it, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
/-- The scratch operand: a whole scoped buffer of the kernel's own, passed beside the windows. -/
abbrev scM2_0 : Memref sig .tc .vmem S1024x1024 .f32 := Memref.whole cc2_scratch0
/-- The scratch the kernel carries between points, as a view: what it holds is stated through it. -/
abbrev VS2_0 : View sig .tc .vmem S1024x1024 .f32 := scM2_0.view

/-- The region's scoped buffers other than its own scratch (the other calls' staging buffers), at some contents each,
    carried unopened. -/
abbrev others2 (c : Dev nD) : sProp 𝕄 :=
  Pipeline.scopedRestBut (Ix := Unit) (Name := ℕ) (U := UR sig nD τ) (Lvl := ℕ) (Val := Elt F) spec2 c [cc2_scratch0]

/-- The class's invariant with the scratch operand as a memref owned at some contents (the scoped rest split at the
    call's own scratch): what the body obligation hands the run and takes back. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA
  rw [Pipeline.scopedRest_split_of_list spec2 c [cc2_scratch0] (by decide) (by decide)]
  simp only [scM2_0, owns_whole, bigSepL_singleton]; try rfl

end Cert.Kernel.Fr

end
-- ==== Proof.K.Run2A.lean ====
/- Region 2, the blocked matrix product: each 1024×1024 output block is a running sum over the 4 blocks of the
   contraction axis, kept in a scratch buffer from one grid point to the next.
   This case: the FIRST block of the contraction axis. The body resets the running sum to zero, then adds the product
   of the two quantised input blocks to it; the output block is not stored and its buffer is handed back untouched.
   The body is run symbolically on whole buffers, both branch conditions decided by the case's hypotheses; the pieces
   it stores into the scratch (the zero block, then zero plus the product) are found by that run and returned as the
   witness beside the triple. -/
import proofs.«147511_j60069412602522_1_alg».proof.Proof.K.Reg2Base

-- membership in a rectangle of production extents: the structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the whole-body run of the kernel in case A -/

-- (the run's proof term is large: the definition's epilogue walks it past the default budget)
set_option maxHeartbeats 1000000 in
/-- What the body's stores leave in the output's staging memref and in the scratch, as pieces (last first), IN THE CASE
    where the first `scf.if` is taken and the second is not, WITH the proof that on whole staging memrefs — the inputs'
    at their contents, the output's (no store: idle there) at contents `xi4` handed back untouched, the scratch at
    anything — the body runs to the continuation holding the inputs' as they were and the scratch with its pieces written.
    The printed function is its skeleton, which the executor runs, each `scf.if` decided by the case's hypotheses; the
    pieces are the witness that run finds. -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x1024 .bf16) (x1 : Vec F S1024x1024 .bf16) (x2 : Vec F S1024x1 .f32) (x3 : Vec F S1x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__matmul_kernel i arg3 harg3 arg4 harg4 arg5 harg5 arg6 harg6 arg7 harg7 arg8 harg8) K } := by
  refine ⟨[], ?_, fun xi4 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.K.Run2B.lean ====
/- Region 2, the blocked matrix product: each 1024×1024 output block is a running sum over the 4 blocks of the
   contraction axis, kept in a scratch buffer from one grid point to the next.
   This case: a MIDDLE block of the contraction axis, neither branch taken: plain accumulation. The scratch is entered
   at what the point before left and ends at that plus the product of the two quantised input blocks; the output
   block is not stored and its buffer is handed back untouched. The body is run symbolically on whole buffers, both
   branch conditions decided by the case's hypotheses; the piece it stores into the scratch is found by that run and
   returned as the witness beside the triple. -/
import proofs.«147511_j60069412602522_1_alg».proof.Proof.K.Run2A

-- membership in a rectangle of production extents: the structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the whole-body run of the kernel in case B -/

-- (the run's proof term is large: the definition's epilogue walks it past the default budget)
set_option maxHeartbeats 1000000 in
/-- The same IN THE CASE where neither `scf.if` is taken: the scratch is entered at the contents `xs0` the point before
    left, the output's staging memref handed back untouched. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1024x1024 .bf16) (x1 : Vec F S1024x1024 .bf16) (x2 : Vec F S1024x1 .f32) (x3 : Vec F S1x1024 .f32) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__matmul_kernel i arg3 harg3 arg4 harg4 arg5 harg5 arg6 harg6 arg7 harg7 arg8 harg8) K } := by
  refine ⟨[], ?_, fun xi4 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.K.Run2C.lean ====
/- Region 2, the blocked matrix product: each 1024×1024 output block is a running sum over the 4 blocks of the
   contraction axis, kept in a scratch buffer from one grid point to the next.
   This case: the LAST block of the contraction axis. No reset: the product of the two quantised input blocks is added
   to what the point before left in the scratch, and then the second branch stores to the output block that sum with
   each entry multiplied by its row's scale and by its column's scale. The body is run symbolically on whole buffers,
   both branch conditions decided by the case's hypotheses; the pieces it stores into the scratch and into the output
   buffer are found by that run and returned as the witness beside the triple. -/
import proofs.«147511_j60069412602522_1_alg».proof.Proof.K.Run2B

-- membership in a rectangle of production extents: the structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the whole-body run of the kernel in case C -/

-- (the run's proof term is large: the definition's epilogue walks it past the default budget)
set_option maxHeartbeats 1000000 in
/-- The same IN THE CASE where the first `scf.if` is not taken and the second is: the scratch is entered at `xs0`, the
    output's staging memref at anything, and it ends with its pieces written. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__matmul_kernel i arg3 harg3 arg4 harg4 arg5 harg5 arg6 harg6 arg7 harg7 arg8 harg8) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.K.Reg2.lean ====
/- The accumulation of region 2, point by point. After the body at position n, `outsAt2` records what the output
   window's staging buffer holds and what the scratch holds: at a point of contraction index 0 the scratch is the product
   of the two input blocks added to the zero block, at any other point the product added to what position n − 1 left;
   at contraction index 3 the output block is that sum scaled by the two scale blocks. The invariant is the class's
   before the first point; before any later point it says that the scratch holds the sum position n − 1 left, the other
   scoped buffers and the generator register being untouched, and the body takes it to the same statement one position
   later. From these: the proof data, the body obligation at every point through the three cases' runs, the entry and
   exit entailments, and the found pieces restated over the payloads. -/
import proofs.«147511_j60069412602522_1_alg».proof.Proof.K.Run2C
import Idealize.ShloMosaic.Lib.Pipeline.Value

-- membership in a rectangle of production extents: the structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2 (the matmul call) at the entry contents `V`: the accumulation, the proof data, the obligation -/

/-- What case A leaves in output 4's staging buffer: its pieces read back over junk (no piece: the window is idle there, a placeholder nothing consults). -/
def out2_A_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x1024 .bf16) (x1 : Vec F S1024x1024 .bf16) (x2 : Vec F S1024x1 .f32) (x3 : Vec F S1x1024 .f32) : Vec F S1024x1024 .f32 :=
  VO2_4.read (Elt F) (VO2_4.writes (Elt F) VO2_4.junk (kernelRun2_A c i arg3 harg3 arg4 harg4 arg5 harg5 arg6 harg6 arg7 harg7 arg8 harg8 hc0 hc1 x0 x1 x2 x3).1)

/-- Case A's pieces for the scratch the kernel carries between points cover it. -/
theorem scover2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x1024 .bf16) (x1 : Vec F S1024x1024 .bf16) (x2 : Vec F S1024x1 .f32) (x3 : Vec F S1x1024 .f32) (y : S1024x1024.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S1024x1024.size (by sl_kernel_rfl) y

/-- What case A leaves in the scratch: its pieces read back over junk. -/
def sout2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x1024 .bf16) (x1 : Vec F S1024x1024 .bf16) (x2 : Vec F S1024x1 .f32) (x3 : Vec F S1x1024 .f32) : Vec F S1024x1024 .f32 :=
  VS2_0.read (Elt F) (VS2_0.writes (Elt F) VS2_0.junk (kernelRun2_A c i arg3 harg3 arg4 harg4 arg5 harg5 arg6 harg6 arg7 harg7 arg8 harg8 hc0 hc1 x0 x1 x2 x3).2.1)

/-- What case B leaves in output 4's staging buffer: its pieces read back over junk (no piece: the window is idle there, a placeholder nothing consults). -/
def out2_B_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1024x1024 .bf16) (x1 : Vec F S1024x1024 .bf16) (x2 : Vec F S1024x1 .f32) (x3 : Vec F S1x1024 .f32) (xs0 : Vec F S1024x1024 .f32) : Vec F S1024x1024 .f32 :=
  VO2_4.read (Elt F) (VO2_4.writes (Elt F) VO2_4.junk (kernelRun2_B c i arg3 harg3 arg4 harg4 arg5 harg5 arg6 harg6 arg7 harg7 arg8 harg8 hc0 hc1 x0 x1 x2 x3 xs0).1)

/-- Case B's pieces for the scratch the kernel carries between points cover it. -/
theorem scover2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1024x1024 .bf16) (x1 : Vec F S1024x1024 .bf16) (x2 : Vec F S1024x1 .f32) (x3 : Vec F S1x1024 .f32) (xs0 : Vec F S1024x1024 .f32) (y : S1024x1024.Idx) :
    ∃ pc ∈ (kernelRun2_B c i arg3 harg3 arg4 harg4 arg5 harg5 arg6 harg6 arg7 harg7 arg8 harg8 hc0 hc1 x0 x1 x2 x3 xs0).2.1, y ∈ pc.1.set :=
  View.cover_of_tiledL (kernelRun2_B c i arg3 harg3 arg4 harg4 arg5 harg5 arg6 harg6 arg7 harg7 arg8 harg8 hc0 hc1 x0 x1 x2 x3 xs0).2.1 S1024x1024.size (by sl_kernel_rfl) y

/-- What case B leaves in the scratch: its pieces read back over junk. -/
def sout2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1024x1024 .bf16) (x1 : Vec F S1024x1024 .bf16) (x2 : Vec F S1024x1 .f32) (x3 : Vec F S1x1024 .f32) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 arg8 harg8 hc0 hc1 x0 x1 x2 x3 xs0).2.1)

/-- Case C's pieces for output 4 tile its block (one store of the whole block), so they cover it. -/
theorem cover2_C_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs0 : Vec F S1024x1024 .f32) (y : S1024x1024.Idx) :
    ∃ pc ∈ (kernelRun2_C c i arg3 harg3 arg4 harg4 arg5 harg5 arg6 harg6 arg7 harg7 arg8 harg8 hc0 hc1 x0 x1 x2 x3 xs0).1, y ∈ pc.1.set :=
  View.cover_of_tiledL (kernelRun2_C c i arg3 harg3 arg4 harg4 arg5 harg5 arg6 harg6 arg7 harg7 arg8 harg8 hc0 hc1 x0 x1 x2 x3 xs0).1 S1024x1024.size (by sl_kernel_rfl) y

/-- What case C leaves in output 4's staging buffer: its pieces read back over junk. -/
def out2_C_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs0 : Vec F S1024x1024 .f32) : Vec F S1024x1024 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs0).1)

/-- Case C's pieces for the scratch the kernel carries between points cover it. -/
theorem scover2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs0 : Vec F S1024x1024 .f32) (y : S1024x1024.Idx) :
    ∃ pc ∈ (kernelRun2_C c i arg3 harg3 arg4 harg4 arg5 harg5 arg6 harg6 arg7 harg7 arg8 harg8 hc0 hc1 x0 x1 x2 x3 xs0).2.1, y ∈ pc.1.set :=
  View.cover_of_tiledL (kernelRun2_C c i arg3 harg3 arg4 harg4 arg5 harg5 arg6 harg6 arg7 harg7 arg8 harg8 hc0 hc1 x0 x1 x2 x3 xs0).2.1 S1024x1024.size (by sl_kernel_rfl) y

/-- What case C leaves in the scratch: its pieces read back over junk. -/
def sout2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs0 : Vec F S1024x1024 .f32) : Vec F S1024x1024 .f32 :=
  VS2_0.read (Elt F) (VS2_0.writes (Elt F) VS2_0.junk (kernelRun2_C c i arg3 harg3 arg4 harg4 arg5 harg5 arg6 harg6 arg7 harg7 arg8 harg8 hc0 hc1 x0 x1 x2 x3 xs0).2.1)

/-! ## What the output and the scratch hold after each point -/

/-- THE ACCUMULATION. What output window 4's staging buffer and the scratch the kernel carries between points hold after
    the body at position `n` (the output, then the scratch): the case the closed forms select at `n`, run at the
    point's memrefs and input blocks, the scratch it reads at what position `n - 1` left. An assignment of the
    conditions no point meets is no case. -/
def outsAt2 (c : Dev nD) : (n : ℕ) → n < cfg2.N → Vec F S1024x1024 .f32 × Vec F S1024x1024 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 4 = 0 then
      if h1 : (n + 1) % 4 = 3 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 4 = 3 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- `outsAt2` at a point of case A: that case's contents. -/
theorem outsAt2_A (c : Dev nD) (t : Fin cfg2.N) (h0 : t.val % 4 = 0) (h1 : ¬t.val % 4 = 3) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 4 = 0) (h1 : ¬t.val % 4 = 3) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 4 = 0) (h1 : t.val % 4 = 3) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the carried scratch at what the point before left in it, the other scoped buffers unopened, and the
    generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(owns (c : Thread nD τ) scM2_0 fullShare ((outsAt2 V c n hn).2) ∗ others2 (F := F) c) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 (F := F) c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt2`; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks; the closed forms say which case the point is in; so that
    case's run applies; the invariant hands the body the carried scratch at what the point before left (at anything at the
    first point) and takes it back at this point's contents, the other scoped buffers and the generator register passing
    through untouched; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 512 := lt_of_lt_of_eq t.isLt (show cfg2.N = 512 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 4 = 0
  · by_cases h1 : t.val % 4 = 3
    · exfalso; omega
    · rw [Dat.leavesExact_idle (dat2 V c) 4 t (idleAt2_4 t (fun h => h1 ((hcond2_1 t).mp h))) (noFlush2_4 t (fun h => h1 ((hcond2_1 t).mp h)))]
      rw [outsAt2_A V c t h0 h1]
      unfold sout2_A_0; (try dsimp only)
      by_cases hz : t.val = 0
      ·
        rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      ·
        rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_4 sout2_C_0; (try dsimp only)
      by_cases hz : t.val = 0
      · exfalso; omega
      ·
        rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    · rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B_0; (try dsimp only)
      by_cases hz : t.val = 0
      · exfalso; omega
      ·
        rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 512 := N_2; omega)

/-! ## The found pieces over the payloads -/

theorem hz2 : (![0, 0] : Fin 2 → Nat) = fun _ => 0 := funext fun a => by fin_cases a <;> rfl

/-- The case of the first kind leaves, in the scratch, the product of the two input blocks added to the zero block: the
    reset's store read back (a covered load of the first store), then the update's store, which covers. -/
theorem sout2_A_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x1024 .bf16) (x1 : Vec F S1024x1024 .bf16) (x2 : Vec F S1024x1 .f32) (x3 : Vec F S1x1024 .f32) :
    sout2_A_0 c i arg3 harg3 arg4 harg4 arg5 harg5 arg6 harg6 arg7 harg7 arg8 harg8 hc0 hc1 x0 x1 x2 x3 = k2_pay2 (k2_pay1 (F := F)) x0 x1 := by
  unfold sout2_A_0
  rw [View.read_writes_eq_canon _ _ _ (scover2_A_0 c i arg3 harg3 arg4 harg4 arg5 harg5 arg6 harg6 arg7 harg7 arg8 harg8 hc0 hc1 x0 x1 x2 x3)]
  unfold kernelRun2_A
  dsimp only
  sl_unfold_words
  rw [View.canon_cons_unit_zero (S := S1024x1024) hz2, View.readCov_unit_zero (S := S1024x1024) _ hz2]
  simp only [View.readAt_eq_ld, harg3.read_unread, harg4.read_unread, View.ld_unit_zero (S := S1024x1024) hz2]

/-- The case of the middle kind leaves, in the scratch, the product added to what it held. -/
theorem sout2_B_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1024x1024 .bf16) (x1 : Vec F S1024x1024 .bf16) (x2 : Vec F S1024x1 .f32) (x3 : Vec F S1x1024 .f32) (xs0 : Vec F S1024x1024 .f32) :
    sout2_B_0 c i arg3 harg3 arg4 harg4 arg5 harg5 arg6 harg6 arg7 harg7 arg8 harg8 hc0 hc1 x0 x1 x2 x3 xs0 = k2_pay2 xs0 x0 x1 := by
  unfold sout2_B_0
  rw [View.read_writes_eq_canon _ _ _ (scover2_B_0 c i arg3 harg3 arg4 harg4 arg5 harg5 arg6 harg6 arg7 harg7 arg8 harg8 hc0 hc1 x0 x1 x2 x3 xs0)]
  unfold kernelRun2_B
  dsimp only
  sl_unfold_words
  rw [View.canon_unit_zero (S := S1024x1024) hz2]
  simp only [View.readAt_eq_ld, harg3.read_unread, harg4.read_unread, harg8.read_unread, View.ld_unit_zero (S := S1024x1024) hz2]

/-- The case of the last kind leaves the same in the scratch, -/
theorem sout2_C_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs0 : Vec F S1024x1024 .f32) :
    sout2_C_0 c i arg3 harg3 arg4 harg4 arg5 harg5 arg6 harg6 arg7 harg7 arg8 harg8 hc0 hc1 x0 x1 x2 x3 xs0 = k2_pay2 xs0 x0 x1 := by
  unfold sout2_C_0
  rw [View.read_writes_eq_canon _ _ _ (scover2_C_0 c i arg3 harg3 arg4 harg4 arg5 harg5 arg6 harg6 arg7 harg7 arg8 harg8 hc0 hc1 x0 x1 x2 x3 xs0)]
  unfold kernelRun2_C
  dsimp only
  sl_unfold_words
  rw [View.canon_unit_zero (S := S1024x1024) hz2]
  simp only [View.readAt_eq_ld, harg3.read_unread, harg4.read_unread, harg8.read_unread, View.ld_unit_zero (S := S1024x1024) hz2]

/-- and, in the output's staging buffer, that scratch (read back: a covered load of the update's store) scaled by the
    two scale blocks. -/
theorem out2_C_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs0 : Vec F S1024x1024 .f32) :
    out2_C_4 c i arg3 harg3 arg4 harg4 arg5 harg5 arg6 harg6 arg7 harg7 arg8 harg8 hc0 hc1 x0 x1 x2 x3 xs0 = k2_pay3 (k2_pay2 xs0 x0 x1) x2 x3 := by
  unfold out2_C_4
  rw [View.read_writes_eq_canon _ _ _ (cover2_C_4 c i arg3 harg3 arg4 harg4 arg5 harg5 arg6 harg6 arg7 harg7 arg8 harg8 hc0 hc1 x0 x1 x2 x3 xs0)]
  unfold kernelRun2_C
  dsimp only
  sl_unfold_words
  rw [View.canon_unit_zero (S := S1024x1024) hz2]
  simp only [View.readAt_eq_ld, harg3.read_unread, harg4.read_unread, harg5.read_unread, harg6.read_unread, harg8.read_unread, View.ld_unit_zero (S := S1024x1024) hz2, View.ld_unit_zero (S := S1024x1) hz2, View.ld_unit_zero (S := S1x1024) hz2, View.readCov_unit_zero (S := S1024x1024) _ hz2]

/-! ## The value-facing facts: what the scratch and the output hold, over the payloads -/

/-- At a point of the first kind the scratch ends at the product of the two input blocks added to the zero block. -/
theorem acc2_first (c : Dev nD) (t : Fin cfg2.N) (h : t.val % 4 = 0) :
    (outsAt2 V c t.val t.isLt).2 = k2_pay2 (k2_pay1 (F := F)) (iblk2 V c 0 t) (iblk2 V c 1 t) := by
  have h0 : t.val % 4 = 0 := h
  have h1 : ¬t.val % 4 = 3 := by omega
  rw [outsAt2_A V c t h0 h1]; dsimp only
  exact sout2_A_eq c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)

/-- At any other point it ends at the product added to what the point before left. -/
theorem acc2_next (c : Dev nD) (t : Fin cfg2.N) (h : ¬ t.val % 4 = 0) :
    (outsAt2 V c t.val t.isLt).2 = k2_pay2 (outsAt2 V c (t.val - 1) (Nat.lt_of_le_of_lt (Nat.sub_le _ _) t.isLt)).2 (iblk2 V c 0 t) (iblk2 V c 1 t) := by
  have h0 : ¬t.val % 4 = 0 := h
  by_cases h1 : t.val % 4 = 3
  · rw [outsAt2_C V c t h0 h1]; dsimp only
    exact sout2_C_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2
  · rw [outsAt2_B V c t h0 h1]; dsimp only
    exact sout2_B_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2

/-- At a point of the last kind the output block is the scratch scaled by the two scale blocks. -/
theorem out2_last (c : Dev nD) (t : Fin cfg2.N) (h : t.val % 4 = 3) :
    (outsAt2 V c t.val t.isLt).1 = k2_pay3 (outsAt2 V c t.val t.isLt).2 (iblk2 V c 2 t) (iblk2 V c 3 t) := by
  have h1 : t.val % 4 = 3 := h
  have h0 : ¬t.val % 4 = 0 := by omega
  rw [outsAt2_C V c t h0 h1]; dsimp only
  rw [sout2_C_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2]
  exact out2_C_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2

end Cert.Kernel.Fr

end
-- ==== Proof.K.Inst.lean ====
/-
  The three regions' records put into the run of the whole program. Each region's proof data (the arrays it finds, what
  its body leaves in every staging buffer at every grid point, its invariant) satisfies what the run asks of it: the
  arrays are the contents at the region's entry, every share is whole, nothing is owed, the first two regions keep the
  plain invariant, the third enters and leaves its running-sum invariant from and to the plain one, and each body meets
  its obligation at every point. Two consequences are stated: every execution ends with the two argument arrays as
  launched (the frame), and with the result array at what the third region's write-backs leave, the third region having
  found the first two regions' outputs in its input arrays (the value run).
-/
import proofs.«147511_j60069412602522_1_alg».proof.Proof.K.Main
import proofs.«147511_j60069412602522_1_alg».proof.Proof.K.Reg0
import proofs.«147511_j60069412602522_1_alg».proof.Proof.K.Reg1
import proofs.«147511_j60069412602522_1_alg».proof.Proof.K.Reg2

noncomputable section

namespace Cert.Kernel.Fr

open Cert.Kernel Cert.Kernel.Gen
open Idealize.ShloMosaic Idealize.ShloMosaic.TcCoe
open Idealize.SL Idealize.SL.Sem
open Idealize.ShloMosaic.Pipeline (Dat BodyObligation)

variable {F : FTy → Type} [FloatOps F]
variable (m : (ℓ : Loc nD τ sig) → Buf (Elt F) ℓ) (ρ : Dev nD → PrngReg)

/-- The buffers' contents when the third region is entered: the launch contents with the first two regions' output
    arrays at what their write-backs leave. -/
abbrev entry2 : RunBufs F := V2 m (fun V c => dat0 V c) (fun V c => dat1 V c)

/-- The frame: every weakly fair execution terminates, nothing faults, and both argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame m ρ (fun V c => dat0 V c) (fun V c => dat1 V c) (fun V c => dat2 V c)
    (fun V c w => A_eq0 V c w) (fun V c w => A_eq1 V c w) (fun V c w => A_eq2 V c w)
    (fun V c w => by dsimp only [dat0]) (fun V c w => by dsimp only [dat1]) (fun V c w => by dsimp only [dat2])
    (fun V c t => by dsimp only [dat0]) (fun V c t => by dsimp only [dat1]) (fun V c t => by dsimp only [dat2])
    (fun V c => rfl) (fun V c => rfl) (fun V c => rfl)
    (fun V c t => by dsimp only [dat0]) (fun V c t => by dsimp only [dat1])
    (fun V c => hin2 V c) (fun V c => hout2 V c)
    (fun V c => body_obligation0 V c) (fun V c => body_obligation1 V c) (fun V c => body_obligation2 V c)

/-- The value run: besides the frame, the result array ends at what the third region's write-backs leave, the region
    having been entered at `entry2`. -/
theorem value_all : θ_run defs (onTc (τ := τ) (main (F := F))) ⟨m, fun _ => 0, ρ⟩ (fun r => ∀ c : Dev nD,
      r.2.mem ((c.tc : Thread nD τ).loc main_v2) = (dat2 (entry2 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  value_run m ρ (fun V c => dat0 V c) (fun V c => dat1 V c) (fun V c => dat2 V c)
    (fun V c w => A_eq0 V c w) (fun V c w => A_eq1 V c w) (fun V c w => A_eq2 V c w)
    (fun V c w => by dsimp only [dat0]) (fun V c w => by dsimp only [dat1]) (fun V c w => by dsimp only [dat2])
    (fun V c t => by dsimp only [dat0]) (fun V c t => by dsimp only [dat1]) (fun V c t => by dsimp only [dat2])
    (fun V c => rfl) (fun V c => rfl) (fun V c => rfl)
    (fun V c t => by dsimp only [dat0]) (fun V c t => by dsimp only [dat1])
    (fun V c => hin2 V c) (fun V c => hout2 V c)
    (fun V c => body_obligation0 V c) (fun V c => body_obligation1 V c) (fun V c => body_obligation2 V c)

/-- What the third region finds in its four input arrays: the first region's two outputs and the second region's two
    outputs, each at what that region's write-backs leave; and the first two regions found the argument arrays as
    launched. -/
theorem entry2_q_lhs (c : Dev nD) : entry2 m c main_v0_0 = (dat0 (V0 m) c).arrAt 1 cfg0.N :=
  V2_main_v0_0 m (fun V c => dat0 V c) (fun V c => dat1 V c) c
theorem entry2_s_lhs (c : Dev nD) : entry2 m c main_v0_1 = (dat0 (V0 m) c).arrAt 2 cfg0.N :=
  V2_main_v0_1 m (fun V c => dat0 V c) (fun V c => dat1 V c) c
theorem entry2_q_rhs (c : Dev nD) : entry2 m c main_v1_0 = (dat1 (V1 m (fun V c => dat0 V c)) c).arrAt 1 cfg1.N :=
  V2_main_v1_0 m (fun V c => dat0 V c) (fun V c => dat1 V c) c
theorem entry2_s_rhs (c : Dev nD) : entry2 m c main_v1_1 = (dat1 (V1 m (fun V c => dat0 V c)) c).arrAt 2 cfg1.N :=
  V2_main_v1_1 m (fun V c => dat0 V c) (fun V c => dat1 V c) c
theorem entry0_arg0 (c : Dev nD) : V0 m c main_arg0 = m ((c : Thread nD τ).loc main_arg0) := rfl
theorem entry1_arg1 (c : Dev nD) : V1 m (fun V c => dat0 V c) c main_arg1 = m ((c : Thread nD τ).loc main_arg1) :=
  V1_main_arg1 m (fun V c => dat0 V c) c

end Cert.Kernel.Fr

end
-- ==== Proof.KI.Main.lean ====
import proofs.«147511_j60069412602522_1_alg».proof.Proof.Gen.KernelIdeal.Launch
import proofs.«147511_j60069412602522_1_alg».proof.Proof.Gen.KernelIdeal.Skeleton
import proofs.«147511_j60069412602522_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: three kernel regions in a row, every boundary's buffer contents named

@main is three pallas_calls and nothing between them. The thread state at a boundary is "every unscoped buffer at
that boundary's contents, the generator register at some state, nothing owed". A region splits its windows' arrays
out of the unscoped buffers at its entry and puts them back at its exit, at the contents its write-backs leave.
The contents are a fold from the launch memory: W0 (launch), W1 (after region 0), W2 (after region 1), W3 (after
region 2). One launch theorem reads EVERY unscoped buffer of a final state at W3: the frame (the arguments end as
launched) and the value (the result array is region 2's folded write-backs) are both read off it.

The three regions' proof data enter as PARAMETERS of this module, with the facts the run needs of them: the entry
contents are read off the valuation, the input arrays are held at the full share, nothing is owed to another core,
and the region invariant is the class invariant (regions 0 and 1) or is entered from it and gives it back
(region 2, whose invariant carries the accumulator between points). -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The TensorCore's buffer contents, core by core: what a region's proof data are stated at. -/
abbrev RunBufs (F : FTy → Type) : Type := (c : Dev nD) → (b : Ref sig .tc) → Buf (Elt F) ((c : Thread nD τ).loc b)

variable (m : (ℓ : Loc nD τ sig) → Buf (Elt F) ℓ) (ρ : Dev nD → PrngReg)

section Run

-- the three regions' proof data, each at the contents its region is entered from
variable
  (dat0 : RunBufs F → (c : Dev nD) → Dat τ (Elt F) Unit ℕ (UR sig nD τ) ℕ cfg0 c)
  (dat1 : RunBufs F → (c : Dev nD) → Dat τ (Elt F) Unit ℕ (UR sig nD τ) ℕ cfg1 c)
  (dat2 : RunBufs F → (c : Dev nD) → Dat τ (Elt F) Unit ℕ (UR sig nD τ) ℕ cfg2 c)

/-! ## The buffer contents at each boundary: a fold through @main -/

/-- Core c's buffers at launch (region 0's entry: no host operation comes before it). -/
abbrev W0 : Dev nD → Valuation τ sig (Elt F) := fun c b => m ((c : Dev nD), b)
/-- The same read at the TensorCore's references (what region 0's proof data take). -/
abbrev V0 : RunBufs F := fun c b => W0 m c b

/-- At region 0's exit (region 1's entry): its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m dat0 c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m dat0 c (Proc.devRef .tc b) = W0 m c (Proc.devRef .tc b) := by
  unfold W1; exact Pipeline.withArrays_of_ne spec0 c _ _ b hb
/-- The same read at the TensorCore's references (what region 1's proof data take). -/
abbrev V1 : RunBufs F := fun c b => W1 m dat0 c b
theorem hF0 (c : Dev nD) (w : Fin cfg0.W) : (dat0 (V0 m) c).arrAt w cfg0.N = V1 m dat0 c (Pipeline.arrRef spec0 w) :=
  (W1_arr m dat0 c w).symm
theorem hrest0 (c : Dev nD) : ∀ b, b ∉ Finset.univ.image (Pipeline.arrRef spec0) → V1 m dat0 c b = V0 m c b :=
  fun b hb => W1_of_ne m dat0 c b fun w e => hb (Finset.mem_image.mpr ⟨w, Finset.mem_univ _, e⟩)

/-- At region 1's exit (region 2's entry). -/
def W2 (c : Dev nD) : Valuation τ sig (Elt F) :=
  Pipeline.withArrays spec1 c (W1 m dat0 c) fun w => (dat1 (V1 m dat0) c).arrAt w cfg1.N
theorem W2_arr (c : Dev nD) (w : Fin cfg1.W) :
    W2 m dat0 dat1 c (Proc.devRef .tc (Pipeline.arrRef spec1 w)) = (dat1 (V1 m dat0) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m dat0 dat1 c (Proc.devRef .tc b) = W1 m dat0 c (Proc.devRef .tc b) := by
  unfold W2; exact Pipeline.withArrays_of_ne spec1 c _ _ b hb
/-- The same read at the TensorCore's references (what region 2's proof data take). -/
abbrev V2 : RunBufs F := fun c b => W2 m dat0 dat1 c b
theorem hF1 (c : Dev nD) (w : Fin cfg1.W) : (dat1 (V1 m dat0) c).arrAt w cfg1.N = V2 m dat0 dat1 c (Pipeline.arrRef spec1 w) :=
  (W2_arr m dat0 dat1 c w).symm
theorem hrest1 (c : Dev nD) : ∀ b, b ∉ Finset.univ.image (Pipeline.arrRef spec1) → V2 m dat0 dat1 c b = V1 m dat0 c b :=
  fun b hb => W2_of_ne m dat0 dat1 c b fun w e => hb (Finset.mem_image.mpr ⟨w, Finset.mem_univ _, e⟩)

/-- At region 2's exit: what the launch reads at the end. -/
def W3 (c : Dev nD) : Valuation τ sig (Elt F) :=
  Pipeline.withArrays spec2 c (W2 m dat0 dat1 c) fun w => (dat2 (V2 m dat0 dat1) c).arrAt w cfg2.N
theorem W3_arr (c : Dev nD) (w : Fin cfg2.W) :
    W3 m dat0 dat1 dat2 c (Proc.devRef .tc (Pipeline.arrRef spec2 w)) = (dat2 (V2 m dat0 dat1) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m dat0 dat1 dat2 c (Proc.devRef .tc b) = W2 m dat0 dat1 c (Proc.devRef .tc b) := by
  unfold W3; exact Pipeline.withArrays_of_ne spec2 c _ _ b hb
/-- The same read at the TensorCore's references. -/
abbrev V3 : RunBufs F := fun c b => W3 m dat0 dat1 dat2 c b
theorem hF2 (c : Dev nD) (w : Fin cfg2.W) :
    (dat2 (V2 m dat0 dat1) c).arrAt w cfg2.N = V3 m dat0 dat1 dat2 c (Pipeline.arrRef spec2 w) :=
  (W3_arr m dat0 dat1 dat2 c w).symm
theorem hrest2 (c : Dev nD) : ∀ b, b ∉ Finset.univ.image (Pipeline.arrRef spec2) → V3 m dat0 dat1 dat2 c b = V2 m dat0 dat1 c b :=
  fun b hb => W3_of_ne m dat0 dat1 dat2 c b fun w e => hb (Finset.mem_image.mpr ⟨w, Finset.mem_univ _, e⟩)

/-! ### What region 2 is entered from and what it leaves, array by array

Region 2's windows read region 0's two results and region 1's two results; no later region writes them before
region 2 is entered. The result array is region 2's fifth window. -/

theorem W3_main_v2 (c : Dev nD) :
    W3 m dat0 dat1 dat2 c (Proc.devRef .tc main_v2) = (dat2 (V2 m dat0 dat1) c).arrAt 4 cfg2.N :=
  W3_arr m dat0 dat1 dat2 c 4
theorem V2_main_v0_0 (c : Dev nD) : V2 m dat0 dat1 c main_v0_0 = (dat0 (V0 m) c).arrAt 1 cfg0.N :=
  (W2_of_ne m dat0 dat1 c main_v0_0 (by decide)).trans (W1_arr m dat0 c 1)
theorem V2_main_v0_1 (c : Dev nD) : V2 m dat0 dat1 c main_v0_1 = (dat0 (V0 m) c).arrAt 2 cfg0.N :=
  (W2_of_ne m dat0 dat1 c main_v0_1 (by decide)).trans (W1_arr m dat0 c 2)
theorem V2_main_v1_0 (c : Dev nD) : V2 m dat0 dat1 c main_v1_0 = (dat1 (V1 m dat0) c).arrAt 1 cfg1.N :=
  W2_arr m dat0 dat1 c 1
theorem V2_main_v1_1 (c : Dev nD) : V2 m dat0 dat1 c main_v1_1 = (dat1 (V1 m dat0) c).arrAt 2 cfg1.N :=
  W2_arr m dat0 dat1 c 2
theorem V0_main_arg0 (c : Dev nD) : V0 m c main_arg0 = m ((c : Thread nD τ).loc main_arg0) := rfl
theorem V1_main_arg1 (c : Dev nD) : V1 m dat0 c main_arg1 = m ((c : Thread nD τ).loc main_arg1) :=
  W1_of_ne m dat0 c main_arg1 (by decide)

/-! ## The proof data family and the thread state -/

/-- The prefetched tables' admissible contents: no pipeline has a table. -/
abbrev runAdm : (p : Fin 3) → (pcfgs (F := F) p).Adm := fun p => (cfgs p).toPCfg_adm
/-- Every pipeline's proof data, each at its region's entry contents. -/
def runDats : (p : Fin 3) → (c : Dev nD) → Dat τ (Elt F) Unit ℕ (UR sig nD τ) ℕ (Pipeline.pin (pcfgs (F := F)) runAdm p) c
  | ⟨0, _⟩ => fun c => dat0 (V0 m) c
  | ⟨1, _⟩ => fun c => dat1 (V1 m dat0) c
  | ⟨2, _⟩ => fun c => dat2 (V2 m dat0 dat1) c
abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every region: the core's generator register at some state and its
    owes, at nothing. -/
abbrev runR (c : Dev nD) : sProp 𝕄 := iprop((∃ r, prngReg c r) ∗ ∃ W, owes (c : Thread nD τ) (0 : CellTallies nD τ sig Unit) W)
/-- An unscoped TensorCore reference is among those the thread state holds. -/
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents W3, the
    generator register at some state. -/
abbrev runTn (c : Dev nD) : sProp 𝕄 :=
  iprop(StableHlo.held (c : Thread nD τ) (Pipeline.ucRefs τ sig) (W3 m dat0 dat1 dat2 c) ∗ ∃ r, prngReg c r)

section Facts

variable
  (hA0 : ∀ (V : RunBufs F) (c : Dev nD) (w : Fin cfg0.W), (dat0 V c).A w = V c (Pipeline.arrRef spec0 w))
  (hA1 : ∀ (V : RunBufs F) (c : Dev nD) (w : Fin cfg1.W), (dat1 V c).A w = V c (Pipeline.arrRef spec1 w))
  (hA2 : ∀ (V : RunBufs F) (c : Dev nD) (w : Fin cfg2.W), (dat2 V c).A w = V c (Pipeline.arrRef spec2 w))
  (hq0 : ∀ (V : RunBufs F) (c : Dev nD) (w : Fin cfg0.W), (dat0 V c).q w = fullShare)
  (hq1 : ∀ (V : RunBufs F) (c : Dev nD) (w : Fin cfg1.W), (dat1 V c).q w = fullShare)
  (hq2 : ∀ (V : RunBufs F) (c : Dev nD) (w : Fin cfg2.W), (dat2 V c).q w = fullShare)
  (ho0 : ∀ (V : RunBufs F) (c : Dev nD) (t : Fin (cfg0.N + 1)), (dat0 V c).owed t = 0)
  (ho1 : ∀ (V : RunBufs F) (c : Dev nD) (t : Fin (cfg1.N + 1)), (dat1 V c).owed t = 0)
  (ho2 : ∀ (V : RunBufs F) (c : Dev nD) (t : Fin (cfg2.N + 1)), (dat2 V c).owed t = 0)
  (hr0 : ∀ (V : RunBufs F) (c : Dev nD), (dat0 V c).recorded 0 = Set.univ)
  (hr1 : ∀ (V : RunBufs F) (c : Dev nD), (dat1 V c).recorded 0 = Set.univ)
  (hr2 : ∀ (V : RunBufs F) (c : Dev nD), (dat2 V c).recorded 0 = Set.univ)
  (hΦ0 : ∀ (V : RunBufs F) (c : Dev nD) (t : Fin (cfg0.N + 1)), (dat0 V c).Φ t = Pipeline.ΦA spec0 c)
  (hΦ1 : ∀ (V : RunBufs F) (c : Dev nD) (t : Fin (cfg1.N + 1)), (dat1 V c).Φ t = Pipeline.ΦA spec1 c)
  (hin2 : ∀ (V : RunBufs F) (c : Dev nD), (Pipeline.ΦA spec2 c : sProp (MT nD τ sig Unit (Elt F) ℕ (UR sig nD τ) ℕ)) ⊢ (dat2 V c).Φ 0)
  (hout2 : ∀ (V : RunBufs F) (c : Dev nD), (dat2 V c).Φ (Fin.last cfg2.N) ⊢ (Pipeline.ΦA spec2 c : sProp (MT nD τ sig Unit (Elt F) ℕ (UR sig nD τ) ℕ)))
  (hb0 : ∀ (V : RunBufs F) (c : Dev nD), BodyObligation (dat0 V c) (defs₀ (F := F)) Variants.none () Set.univ)
  (hb1 : ∀ (V : RunBufs F) (c : Dev nD), BodyObligation (dat1 V c) (defs₀ (F := F)) Variants.none () Set.univ)
  (hb2 : ∀ (V : RunBufs F) (c : Dev nD), BodyObligation (dat2 V c) (defs₀ (F := F)) Variants.none () Set.univ)

/-! ### The arguments end as launched: a region reads an argument through an input window or bypasses it, so the
    fold at an argument's buffer walks back to the launch memory -/

include hA0 in
theorem W3_main_arg0 (c : Dev nD) : W3 m dat0 dat1 dat2 c (Proc.devRef .tc main_arg0) = m ((c : Thread nD τ).loc main_arg0) :=
  calc W3 m dat0 dat1 dat2 c (Proc.devRef .tc main_arg0)
    _ = W2 m dat0 dat1 c (Proc.devRef .tc main_arg0) := W3_of_ne m dat0 dat1 dat2 c main_arg0 (by decide)
    _ = W1 m dat0 c (Proc.devRef .tc main_arg0) := W2_of_ne m dat0 dat1 c main_arg0 (by decide)
    _ = W0 m c (Proc.devRef .tc main_arg0) := (W1_arr m dat0 c 0).trans (((dat0 (V0 m) c).arrAt_in 0 rfl _).trans (hA0 (V0 m) c 0))
    _ = m ((c : Thread nD τ).loc main_arg0) := rfl

include hA1 in
theorem W3_main_arg1 (c : Dev nD) : W3 m dat0 dat1 dat2 c (Proc.devRef .tc main_arg1) = m ((c : Thread nD τ).loc main_arg1) :=
  calc W3 m dat0 dat1 dat2 c (Proc.devRef .tc main_arg1)
    _ = W2 m dat0 dat1 c (Proc.devRef .tc main_arg1) := W3_of_ne m dat0 dat1 dat2 c main_arg1 (by decide)
    _ = W1 m dat0 c (Proc.devRef .tc main_arg1) := (W2_arr m dat0 dat1 c 0).trans (((dat1 (V1 m dat0) c).arrAt_in 0 rfl _).trans (hA1 (V1 m dat0) c 0))
    _ = W0 m c (Proc.devRef .tc main_arg1) := W1_of_ne m dat0 c main_arg1 (by decide)
    _ = m ((c : Thread nD τ).loc main_arg1) := rfl

/-! ## The regions as segments -/

-- an entailment of the library stated over the pinned configuration unifies with the printed one only when
-- unification may unfold plain definitions in a metavariable's type
set_option backward.isDefEq.respectTransparency.types false in
/-- REGION 0 over the thread state: entered from every unscoped buffer at W0, left at W1. Its arrays split
    out of the unscoped buffers and put back at the exit contents; the generator register into the region
    invariant and out; nothing owed; no semaphore of the kernel's own. -/
def rseg0 : Pipeline.RegionSeg (pcfgs (F := F)) runAdm (runDats m dat0 dat1 dat2) () defs₀ run𝒱 runL runLv 0 where
  win := launch0.win.to₀
  block_pos := launch0.block_pos
  stage_whole := launch0.stage_whole
  K := PEmpty
  osem k := k.elim
  ho := Pipeline.OwnSemFacts.none _
  hbody c := (hb0 (V0 m) c).loose
  hwaits := Pipeline.hwaits_of_owed_zero _ _ _ _ runL runLv 0 fun c t => ho0 _ c t
  pre c := iprop(StableHlo.held (c : Thread nD τ) (Pipeline.ucRefs τ sig) (W0 m c) ∗ runR c)
  post c := iprop(StableHlo.held (c : Thread nD τ) (Pipeline.ucRefs τ sig) (W1 m dat0 c) ∗ runR c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) runAdm (runDats m dat0 dat1 dat2) launch0.win launch0.arr_whole c
      ((runDats m dat0 dat1 dat2 0 c).share_full fun w => hq0 _ c w) (V0 m c) fun w => hA0 _ c w
    rw [Pipeline.unscopedBufs_held] at hsplit
    have hO : (runDats m dat0 dat1 dat2 0 c).owed = fun _ => 0 := funext fun t => ho0 _ c t
    unfold Pipeline.Dat.owesAt Pipeline.owesWithin
    rw [hO]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [show (runDats m dat0 dat1 dat2 0 c).recorded 0 = Set.univ from hr0 _ c]; trivial)
      iexact HO
    isplitl [Hp]; · iexact Hp
    iexact Hrest
  hin c := by
    rw [show (runDats m dat0 dat1 dat2 0 c).Φ 0 = Pipeline.ΦA spec0 c from hΦ0 _ c 0]; unfold Pipeline.ΦA
    iintro ⟨Hp, -, Hr⟩
    isplitl [Hr]; · iexact Hr
    iexact Hp
  hout c := by
    rw [Pipeline.ownSems0_none, show (runDats m dat0 dat1 dat2 0 c).Φ (Fin.last _) = Pipeline.ΦA spec0 c from hΦ0 _ c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) runAdm (Ix := Unit) (Name := ℕ) (U := UR sig nD τ) (Lvl := ℕ)
      launch0.win launch0.arr_whole c (runDats m dat0 dat1 dat2) ((runDats m dat0 dat1 dat2 0 c).share_full fun w => hq0 _ c w)
      (V0 m c) (V1 m dat0 c) ((runDats m dat0 dat1 dat2 0 c).arrAt · cfg0.N) (hF0 m dat0 c) (hrest0 m dat0 c)
    rw [Pipeline.unscopedBufs_held] at hjoin
    have hO : (runDats m dat0 dat1 dat2 0 c).owed = fun _ => 0 := funext fun t => ho0 _ c t
    unfold Pipeline.Dat.owesAt Pipeline.owesWithin
    rw [hO]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

-- an entailment of the library stated over the pinned configuration unifies with the printed one only when
-- unification may unfold plain definitions in a metavariable's type
set_option backward.isDefEq.respectTransparency.types false in
/-- REGION 1 over the thread state: entered from every unscoped buffer at W1, left at W2. Its arrays split
    out of the unscoped buffers and put back at the exit contents; the generator register into the region
    invariant and out; nothing owed; no semaphore of the kernel's own. -/
def rseg1 : Pipeline.RegionSeg (pcfgs (F := F)) runAdm (runDats m dat0 dat1 dat2) () defs₀ run𝒱 runL runLv 1 where
  win := launch1.win.to₀
  block_pos := launch1.block_pos
  stage_whole := launch1.stage_whole
  K := PEmpty
  osem k := k.elim
  ho := Pipeline.OwnSemFacts.none _
  hbody c := (hb1 (V1 m dat0) c).loose
  hwaits := Pipeline.hwaits_of_owed_zero _ _ _ _ runL runLv 1 fun c t => ho1 _ c t
  pre c := iprop(StableHlo.held (c : Thread nD τ) (Pipeline.ucRefs τ sig) (W1 m dat0 c) ∗ runR c)
  post c := iprop(StableHlo.held (c : Thread nD τ) (Pipeline.ucRefs τ sig) (W2 m dat0 dat1 c) ∗ runR c)
  X c := iprop(∃ r, prngReg c r)
  Y c := iprop(∃ r, prngReg c r)
  Z c := Pipeline.unscopedRest (Ix := Unit) (Name := ℕ) (U := UR sig nD τ) (Lvl := ℕ) spec1 c (V1 m dat0 c)
  hentry c := by
    rw [Pipeline.ownSems0_none]
    have hsplit := Pipeline.arrays_of_unscopedBufs (p := 1) (pcfgs (F := F)) runAdm (runDats m dat0 dat1 dat2) launch1.win launch1.arr_whole c
      ((runDats m dat0 dat1 dat2 1 c).share_full fun w => hq1 _ c w) (V1 m dat0 c) fun w => hA1 _ c w
    rw [Pipeline.unscopedBufs_held] at hsplit
    have hO : (runDats m dat0 dat1 dat2 1 c).owed = fun _ => 0 := funext fun t => ho1 _ c t
    unfold Pipeline.Dat.owesAt Pipeline.owesWithin
    rw [hO]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [show (runDats m dat0 dat1 dat2 1 c).recorded 0 = Set.univ from hr1 _ c]; trivial)
      iexact HO
    isplitl [Hp]; · iexact Hp
    iexact Hrest
  hin c := by
    rw [show (runDats m dat0 dat1 dat2 1 c).Φ 0 = Pipeline.ΦA spec1 c from hΦ1 _ c 0]; unfold Pipeline.ΦA
    iintro ⟨Hp, -, Hr⟩
    isplitl [Hr]; · iexact Hr
    iexact Hp
  hout c := by
    rw [Pipeline.ownSems0_none, show (runDats m dat0 dat1 dat2 1 c).Φ (Fin.last _) = Pipeline.ΦA spec1 c from hΦ1 _ c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) runAdm (Ix := Unit) (Name := ℕ) (U := UR sig nD τ) (Lvl := ℕ)
      launch1.win launch1.arr_whole c (runDats m dat0 dat1 dat2) ((runDats m dat0 dat1 dat2 1 c).share_full fun w => hq1 _ c w)
      (V1 m dat0 c) (V2 m dat0 dat1 c) ((runDats m dat0 dat1 dat2 1 c).arrAt · cfg1.N) (hF1 m dat0 dat1 c) (hrest1 m dat0 dat1 c)
    rw [Pipeline.unscopedBufs_held] at hjoin
    have hO : (runDats m dat0 dat1 dat2 1 c).owed = fun _ => 0 := funext fun t => ho1 _ c t
    unfold Pipeline.Dat.owesAt Pipeline.owesWithin
    rw [hO]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

-- an entailment of the library stated over the pinned configuration unifies with the printed one only when
-- unification may unfold plain definitions in a metavariable's type
set_option backward.isDefEq.respectTransparency.types false in
/-- REGION 2 over the thread state: entered from every unscoped buffer at W2, left at W3. Its arrays split
    out of the unscoped buffers and put back at the exit contents; the generator register into the region
    invariant and out; nothing owed; no semaphore of the kernel's own. -/
def rseg2 : Pipeline.RegionSeg (pcfgs (F := F)) runAdm (runDats m dat0 dat1 dat2) () defs₀ run𝒱 runL runLv 2 where
  win := launch2.win.to₀
  block_pos := launch2.block_pos
  stage_whole := launch2.stage_whole
  K := PEmpty
  osem k := k.elim
  ho := Pipeline.OwnSemFacts.none _
  hbody c := (hb2 (V2 m dat0 dat1) c).loose
  hwaits := Pipeline.hwaits_of_owed_zero _ _ _ _ runL runLv 2 fun c t => ho2 _ c t
  pre c := iprop(StableHlo.held (c : Thread nD τ) (Pipeline.ucRefs τ sig) (W2 m dat0 dat1 c) ∗ runR c)
  post c := iprop(runTn m dat0 dat1 dat2 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m dat0 dat1 c)
  hentry c := by
    rw [Pipeline.ownSems0_none]
    have hsplit := Pipeline.arrays_of_unscopedBufs (p := 2) (pcfgs (F := F)) runAdm (runDats m dat0 dat1 dat2) launch2.win launch2.arr_whole c
      ((runDats m dat0 dat1 dat2 2 c).share_full fun w => hq2 _ c w) (V2 m dat0 dat1 c) fun w => hA2 _ c w
    rw [Pipeline.unscopedBufs_held] at hsplit
    have hO : (runDats m dat0 dat1 dat2 2 c).owed = fun _ => 0 := funext fun t => ho2 _ c t
    unfold Pipeline.Dat.owesAt Pipeline.owesWithin
    rw [hO]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [show (runDats m dat0 dat1 dat2 2 c).recorded 0 = Set.univ from hr2 _ c]; trivial)
      iexact HO
    isplitl [Hp]; · iexact Hp
    iexact Hrest
  hin c := by
    refine BIBase.Entails.trans ?_ (show (Pipeline.ΦA spec2 c : sProp 𝕄) ⊢ (runDats m dat0 dat1 dat2 2 c).Φ 0 from hin2 _ c)
    unfold Pipeline.ΦA
    iintro ⟨Hp, -, Hr⟩
    isplitl [Hr]; · iexact Hr
    iexact Hp
  hout c := by
    rw [Pipeline.ownSems0_none]
    refine BIBase.Entails.trans (show (runDats m dat0 dat1 dat2 2 c).Φ (Fin.last _) ⊢ (Pipeline.ΦA spec2 c : sProp 𝕄) from hout2 _ c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) runAdm (Ix := Unit) (Name := ℕ) (U := UR sig nD τ) (Lvl := ℕ)
      launch2.win launch2.arr_whole c (runDats m dat0 dat1 dat2) ((runDats m dat0 dat1 dat2 2 c).share_full fun w => hq2 _ c w)
      (V2 m dat0 dat1 c) (V3 m dat0 dat1 dat2 c) ((runDats m dat0 dat1 dat2 2 c).arrAt · cfg2.N) (hF2 m dat0 dat1 dat2 c) (hrest2 m dat0 dat1 dat2 c)
    rw [Pipeline.unscopedBufs_held] at hjoin
    have hO : (runDats m dat0 dat1 dat2 2 c).owed = fun _ => 0 := funext fun t => ho2 _ c t
    unfold Pipeline.Dat.owesAt Pipeline.owesWithin
    rw [hO]
    iintro ⟨Ha, HO, HY, Hrest⟩
    imodintro
    isplitl [Ha Hrest HY]
    · isplitl [Ha Hrest]
      · iapply hjoin; isplitl [Ha] <;> iassumption
      iexact HY
    icases HO with ⟨%W, -, HO⟩; iexists W; iexact HO

/-! ## @main as segments, and the launch -/

include hA0 hA1 hA2 hq0 hq1 hq2 ho0 ho1 ho2 hr0 hr1 hr2 hΦ0 hΦ1 hin2 hout2 hb0 hb1 hb2

/-- @main's 3 segments in order: a region per pallas_call, nothing between them. -/
abbrev runSegs : List (Pipeline.Seg (pcfgs (F := F)) runAdm (runDats m dat0 dat1 dat2) () defs₀ run𝒱 runL runLv) :=
  [ .region (rseg0 m dat0 dat1 dat2 hA0 hq0 ho0 hr0 hΦ0 hb0),
    .region (rseg1 m dat0 dat1 dat2 hA1 hq1 ho1 hr1 hΦ1 hb1),
    .region (rseg2 m dat0 dat1 dat2 hA2 hq2 ho2 hr2 hin2 hout2 hb2) ]
/-- @main IS the run of the segments. -/
theorem main_run (c : Dev nD) : main (F := F) c = Pipeline.Seg.run (runSegs m dat0 dat1 dat2 hA0 hA1 hA2 hq0 hq1 hq2 ho0 ho1 ho2 hr0 hr1 hr2 hΦ0 hΦ1 hin2 hout2 hb0 hb1 hb2) :=
  main_segs runAdm (runDats m dat0 dat1 dat2) () run𝒱 runL runLv (rseg0 m dat0 dat1 dat2 hA0 hq0 ho0 hr0 hΦ0 hb0) (rseg1 m dat0 dat1 dat2 hA1 hq1 ho1 hr1 hΦ1 hb1) (rseg2 m dat0 dat1 dat2 hA2 hq2 ho2 hr2 hin2 hout2 hb2) c

-- the launch theorem's implicit arguments are found by unifying its conclusion with this one, which takes unfolding
-- plain definitions in a metavariable's type
set_option backward.isDefEq.respectTransparency.types false in
/-- THE RUN, at any post that follows from reading every unscoped buffer at W3: at the compiled mesh, from any memory
    with zero counters, every weakly fair execution of @main on the TensorCores terminates, nothing faulting, and
    every final state has every unscoped buffer at the last boundary's contents. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W3 m dat0 dat1 dat2 c b) → Q (⟨⟩, s)) :
    θ_run defs (onTc (τ := τ) (main (F := F))) ⟨m, fun _ => 0, ρ⟩ Q :=
  Pipeline.θ_run_regions_kit (pcfgs (F := F)) runAdm (runDats m dat0 dat1 dat2) () cellOf_inj emb₁ defs₀ run𝒱 runL runLv m ρ main
    (runSegs m dat0 dat1 dat2 hA0 hA1 hA2 hq0 hq1 hq2 ho0 ho1 ho2 hr0 hr1 hr2 hΦ0 hΦ1 hin2 hout2 hb0 hb1 hb2)
    (fun c Q => by rw [main_run m dat0 dat1 dat2 hA0 hA1 hA2 hq0 hq1 hq2 ho0 ho1 ho2 hr0 hr1 hr2 hΦ0 hΦ1 hin2 hout2 hb0 hb1 hb2 c])
    (by simp only [runSegs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ runR c)) (Tₙ := runTn m dat0 dat1 dat2)
    (hch := ⟨fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m dat0 dat1 dat2 c b)
    (hfin := fun c s' => by
      iintro ⟨⟨Hh, -⟩, HSI⟩
      unfold StableHlo.held
      imodintro
      iapply (pointsTo_read_all (Pipeline.ucRefs τ sig) (fun b => (((c : Thread nD τ)).1, b)) (W3 m dat0 dat1 dat2 c) s')
      isplitl [Hh] <;> iassumption)
    (hQ := hQ)

/-- THE RUN, every unscoped buffer named: a final state holds W3 at every unscoped buffer of every core. -/
theorem run_named : θ_run defs (onTc (τ := τ) (main (F := F))) ⟨m, fun _ => 0, ρ⟩
    (fun r => ∀ c : Dev nD, ∀ b ∈ Pipeline.ucRefs τ sig, r.2.mem (((c : Thread nD τ)).1, b) = W3 m dat0 dat1 dat2 c b) :=
  run_post m ρ dat0 dat1 dat2 hA0 hA1 hA2 hq0 hq1 hq2 ho0 ho1 ho2 hr0 hr1 hr2 hΦ0 hΦ1 hin2 hout2 hb0 hb1 hb2 fun _ h => h

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  run_post m ρ dat0 dat1 dat2 hA0 hA1 hA2 hq0 hq1 hq2 ho0 ho1 ho2 hr0 hr1 hr2 hΦ0 hΦ1 hin2 hout2 hb0 hb1 hb2 fun s h c =>
    ⟨(h c _ (mem_ucRefs main_arg0 (by decide))).trans (W3_main_arg0 m dat0 dat1 dat2 hA0 c),
     (h c _ (mem_ucRefs main_arg1 (by decide))).trans (W3_main_arg1 m dat0 dat1 dat2 hA1 c)⟩

/-- THE VALUE: the result array ends at region 2's folded write-backs, from the contents region 2 is entered at;
    the argument arrays end as launched. -/
theorem value_run : θ_run defs (onTc (τ := τ) (main (F := F))) ⟨m, fun _ => 0, ρ⟩ (fun r => ∀ c : Dev nD,
      r.2.mem ((c.tc : Thread nD τ).loc main_v2) = (dat2 (V2 m dat0 dat1) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_post m ρ dat0 dat1 dat2 hA0 hA1 hA2 hq0 hq1 hq2 ho0 ho1 ho2 hr0 hr1 hr2 hΦ0 hΦ1 hin2 hout2 hb0 hb1 hb2 fun s h c =>
    ⟨(h c _ (mem_ucRefs main_v2 (by decide))).trans (W3_main_v2 m dat0 dat1 dat2 c),
     (h c _ (mem_ucRefs main_arg0 (by decide))).trans (W3_main_arg0 m dat0 dat1 dat2 hA0 c),
     (h c _ (mem_ucRefs main_arg1 (by decide))).trans (W3_main_arg1 m dat0 dat1 dat2 hA1 c)⟩

end Facts

end Run

end Cert.KernelIdeal.Fr

end
-- ==== Proof.KI.Reg0.lean ====
/- Region 0: the row quantisation of the left matrix.
   The 8192×4096 left matrix is cut into 16 blocks of 512 whole rows; grid point t works on block t, held in a staging
   buffer. From its block x the body leaves in the second output buffer one scale per row (the largest absolute value
   of the row divided by 127, or 1 where that maximum is not positive) and in the first the quantised block (each
   entry divided by its row's scale, clamped to [-127, 127], rounded to the nearest integer, ties to even, and narrowed
   to the 16-bit format). Both are functions of x alone, each one store that covers its whole buffer. The proof data
   records per grid point the input block as read off the array at region entry and the two outputs as those
   functions of it. The body is run symbolically once, on whole buffers at arbitrary contents, and that one triple
   serves every grid point. -/
import proofs.«147511_j60069412602522_1_alg».proof.Proof.Gen.KernelIdeal.Launch
import proofs.«147511_j60069412602522_1_alg».proof.Proof.Gen.KernelIdeal.Skeleton
import proofs.«147511_j60069412602522_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0: custom_call 0, pipeline 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): an unfetched window's
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_a : Rect S512x4096 := Rect.unit (s := S512x4096) ![0, 0] S512x4096.size inb_S512x4096_S512x4096_0_0
abbrev r0_b : Rect S512x1 := Rect.unit (s := S512x1) ![0, 0] S512x1.size inb_S512x1_S512x1_0_0

/-! ## What the body leaves in each output window's buffer -/

/-- Window 1's staging buffer after the body, from the input window's block: its one store (the quantised block)
    as a piece over the whole buffer. -/
def out0_1 (x0 : Vec F S512x4096 .f32) : Vec F S512x4096 .bf16 :=
  View.canon [⟨r0_a, k0_pay2 (View.ld x0 r0_a)⟩]

/-- Window 2's staging buffer after the body: its one store (the scales) as a piece over the whole buffer. -/
def out0_2 (x0 : Vec F S512x4096 .f32) : Vec F S512x1 .f32 :=
  View.canon [⟨r0_b, k0_pay1 (View.ld x0 r0_a)⟩]

/-- Each store tiles its buffer (checked by evaluation), so it covers it. -/
theorem cover0_1 (p0 : Vec F S512x4096 .bf16) (y : S512x4096.Idx) :
    ∃ pc ∈ ([⟨r0_a, p0⟩] : List (View.Piece (Elt F) S512x4096 .bf16)), y ∈ pc.1.set :=
  View.cover_of_tiled [⟨r0_a, p0⟩] S512x4096.size (by rfl) y

theorem cover0_2 (p0 : Vec F S512x1 .f32) (y : S512x1.Idx) :
    ∃ pc ∈ ([⟨r0_b, p0⟩] : List (View.Piece (Elt F) S512x1 .f32)), y ∈ pc.1.set :=
  View.cover_of_tiled [⟨r0_b, p0⟩] S512x1.size (by rfl) y

/-! ## The body's triple -/

set_option maxHeartbeats 1000000 in
/-- The kernel body on whole staging memrefs, the input's at read contents `x0` and the outputs' at anything, runs to
    the continuation holding the input's as it was and each output's at `out0_W` of the input's: the printed function
    is its skeleton, run operation by operation; the two loads of the output buffers read values nothing uses. -/
theorem sound_kernel0 (c : Dev nD) (E : Set ℕ) (i : grid0.Coords) (arg1 : Memref sig .tc .vmem S512x4096 .f32) (harg1 : arg1.IsWhole)
    (arg2 : Memref sig .tc .vmem S512x4096 .bf16) (harg2 : arg2.IsWhole) (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quant_lhs_kernel i arg1 harg1 arg2 harg2 arg3 harg3) K := by
  simp only [cc0__quant_lhs_kernel_eq_skeleton]; unfold cc0__quant_lhs_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pipeline 0 on core `c`: the arrays as the region finds them (`V`); after the body at
    point `t` the input's buffer at its block and each output's at `out0_W` of the input block; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block (`before0_0`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/- Region 1: the column quantisation of the right matrix.
   The 4096×16384 right matrix is cut into 32 blocks of 512 whole columns; grid point t works on block t, held in a
   staging buffer. From its block x the body leaves in the second output buffer one scale per column (the largest
   absolute value of the column divided by 127, or 1 where that maximum is not positive) and in the first the
   quantised block (each entry divided by its column's scale, clamped to [-127, 127], rounded to the nearest integer,
   ties to even, and narrowed to the 16-bit format). Both are functions of x alone, each one store that covers its
   whole buffer. The proof data records per grid point the input block as read off the array at region entry and the
   two outputs as those functions of it. The body is run symbolically once, on whole buffers at arbitrary contents,
   and that one triple serves every grid point. -/
import proofs.«147511_j60069412602522_1_alg».proof.Proof.Gen.KernelIdeal.Launch
import proofs.«147511_j60069412602522_1_alg».proof.Proof.Gen.KernelIdeal.Skeleton
import proofs.«147511_j60069412602522_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1: custom_call 1, pipeline 1, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched window's
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_a : Rect S4096x512 := Rect.unit (s := S4096x512) ![0, 0] S4096x512.size inb_S4096x512_S4096x512_0_0
abbrev r1_b : Rect S1x512 := Rect.unit (s := S1x512) ![0, 0] S1x512.size inb_S1x512_S1x512_0_0

/-! ## What the body leaves in each output window's buffer -/

/-- Window 1's staging buffer after the body, from the input window's block: its one store (the quantised block)
    as a piece over the whole buffer. -/
def out1_1 (x0 : Vec F S4096x512 .f32) : Vec F S4096x512 .bf16 :=
  View.canon [⟨r1_a, k1_pay2 (View.ld x0 r1_a)⟩]

/-- Window 2's staging buffer after the body: its one store (the scales) as a piece over the whole buffer. -/
def out1_2 (x0 : Vec F S4096x512 .f32) : Vec F S1x512 .f32 :=
  View.canon [⟨r1_b, k1_pay1 (View.ld x0 r1_a)⟩]

/-- Each store tiles its buffer (checked by evaluation), so it covers it. -/
theorem cover1_1 (p0 : Vec F S4096x512 .bf16) (y : S4096x512.Idx) :
    ∃ pc ∈ ([⟨r1_a, p0⟩] : List (View.Piece (Elt F) S4096x512 .bf16)), y ∈ pc.1.set :=
  View.cover_of_tiled [⟨r1_a, p0⟩] S4096x512.size (by rfl) y

theorem cover1_2 (p0 : Vec F S1x512 .f32) (y : S1x512.Idx) :
    ∃ pc ∈ ([⟨r1_b, p0⟩] : List (View.Piece (Elt F) S1x512 .f32)), y ∈ pc.1.set :=
  View.cover_of_tiled [⟨r1_b, p0⟩] S1x512.size (by rfl) y

/-! ## The body's triple -/

set_option maxHeartbeats 1000000 in
/-- The kernel body on whole staging memrefs, the input's at read contents `x0` and the outputs' at anything, runs to
    the continuation holding the input's as it was and each output's at `out1_W` of the input's: the printed function
    is its skeleton, run operation by operation; the two loads of the output buffers read values nothing uses. -/
theorem sound_kernel1 (c : Dev nD) (E : Set ℕ) (i : grid1.Coords) (arg1 : Memref sig .tc .vmem S4096x512 .f32) (harg1 : arg1.IsWhole)
    (arg2 : Memref sig .tc .vmem S4096x512 .bf16) (harg2 : arg2.IsWhole) (arg3 : Memref sig .tc .vmem S1x512 .f32) (harg3 : arg3.IsWhole)
    (x0 : Vec F S4096x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0) ∗ owns (c : Thread nD τ) arg3 fullShare (out1_2 x0)) -∗ K ⟨⟩))
      ⊢ wp frame (wpE (defs₀ (F := F)) Variants.none c none) E (cc1__quant_rhs_kernel i arg1 harg1 arg2 harg2 arg3 harg3) K := by
  simp only [cc1__quant_rhs_kernel_eq_skeleton]; unfold cc1__quant_rhs_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-! ## The pipeline's proof data -/

/-- The proof data of pipeline 1 on core `c`: the arrays as the region finds them (`V`); after the body at
    point `t` the input's buffer at its block and each output's at `out1_W` of the input block; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]

/-- The input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input's memref holds its block (`before1_0`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2Base.lean ====
/- Region 2 multiplies the two quantised matrices block by block. Its grid has 8 × 16 × 4 = 512 points, read as
   (row block, column block, contraction block); the point at position t has contraction index t mod 4. A scratch
   block carries the running sum of the products over the four contraction blocks of one (row, column) pair: the points
   of contraction index 0 reset it to zero before adding, every point adds its product, and the points of contraction
   index 3 store the sum, scaled by the row scales and the column scales, into the output block (the output window is
   idle at the other points and written back only there). This module holds what the three cases of the body share:
   the windows' blocks read off the entry contents, the closed forms of the two branch conditions over the grid, where
   the output window is idle, the staging and scratch memrefs, and the class invariant split at the call's own scratch. -/
import proofs.«147511_j60069412602522_1_alg».proof.Proof.Gen.KernelIdeal.Launch
import proofs.«147511_j60069412602522_1_alg».proof.Proof.Gen.KernelIdeal.Skeleton
import proofs.«147511_j60069412602522_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2 (the matmul call) at the entry contents `V`: what its runs share -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (the reset of the accumulator), from the grid coordinates. -/
abbrev cond2_0 (i : grid2.Coords) : Prop := (Scalar.cmpi .ne (Scalar.extui (Scalar.cmpi .eq (BitVec.ofNat 32 (i 2).val) 0#32)) 0#32) = 1#1
/-- It holds at the points ≡ 0 (mod 4): decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second `scf.if` (the store of the output block), from the grid coordinates. -/
abbrev cond2_1 (i : grid2.Coords) : Prop := k2_cond2 i = 1#1
/-- It holds at the points ≡ 3 (mod 4): decided over the grid. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
/-- Where the second condition fails the output window is idle: the body stores nothing into it. -/
theorem idleAt2_4 : ∀ t : Fin cfg2.N, ¬cond2_1 (grid2.coords t) → cfg2.idle 4 (grid2.coords t) = true := by decide +kernel
/-- and the pipeline does not write its block back. -/
theorem noFlush2_4 : ∀ t : Fin cfg2.N, ¬cond2_1 (grid2.coords t) → (cfg2.win 4).flush t = false := by decide +kernel
/-- Where it holds the window is live: the body stores into it. -/
theorem liveAt2_4 : ∀ t : Fin cfg2.N, cond2_1 (grid2.coords t) → cfg2.idle 4 (grid2.coords t) = false := by decide +kernel

/-! ## The staging and scratch memrefs -/

/-- One staging buffer of output window 4, through which its contents are stated (the choice does not matter). -/
abbrev VO2_4 : View sig .tc .vmem S1024x1024 .f32 := (Memref.whole cc2_stg4_0 : Memref sig .tc .vmem S1024x1024 .f32).view
/-- Each window's current staging memref at point `t`, spelled as the pipeline passes it, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
/-- The scratch operand: a whole scoped buffer of the kernel's own, passed beside the windows. -/
abbrev scM2_0 : Memref sig .tc .vmem S1024x1024 .f32 := Memref.whole cc2_scratch0
/-- The scratch the kernel carries between points, as a view: what it holds is stated through it. -/
abbrev VS2_0 : View sig .tc .vmem S1024x1024 .f32 := scM2_0.view

/-- The region's scoped buffers other than its own scratch (the other calls' staging buffers), at some contents each,
    carried unopened. -/
abbrev others2 (c : Dev nD) : sProp 𝕄 :=
  Pipeline.scopedRestBut (Ix := Unit) (Name := ℕ) (U := UR sig nD τ) (Lvl := ℕ) (Val := Elt F) spec2 c [cc2_scratch0]

/-- The class's invariant with the scratch operand as a memref owned at some contents (the scoped rest split at the
    call's own scratch): what the body obligation hands the run and takes back. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA
  rw [Pipeline.scopedRest_split_of_list spec2 c [cc2_scratch0] (by decide) (by decide)]
  simp only [scM2_0, owns_whole, bigSepL_singleton]; try rfl

end Cert.KernelIdeal.Fr

end
-- ==== Proof.KI.Run2A.lean ====
/- Region 2, the blocked matrix product: each 1024×1024 output block is a running sum over the 4 blocks of the
   contraction axis, kept in a scratch buffer from one grid point to the next.
   This case: the FIRST block of the contraction axis. The body resets the running sum to zero, then adds the product
   of the two quantised input blocks to it; the output block is not stored and its buffer is handed back untouched.
   The body is run symbolically on whole buffers, both branch conditions decided by the case's hypotheses; the pieces
   it stores into the scratch (the zero block, then zero plus the product) are found by that run and returned as the
   witness beside the triple. -/
import proofs.«147511_j60069412602522_1_alg».proof.Proof.KI.Reg2Base

-- membership in a rectangle of production extents: the structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the whole-body run of the kernel in case A -/

-- (the run's proof term is large: the definition's epilogue walks it past the default budget)
set_option maxHeartbeats 1000000 in
/-- What the body's stores leave in the output's staging memref and in the scratch, as pieces (last first), IN THE CASE
    where the first `scf.if` is taken and the second is not, WITH the proof that on whole staging memrefs — the inputs'
    at their contents, the output's (no store: idle there) at contents `xi4` handed back untouched, the scratch at
    anything — the body runs to the continuation holding the inputs' as they were and the scratch with its pieces written.
    The printed function is its skeleton, which the executor runs, each `scf.if` decided by the case's hypotheses; the
    pieces are the witness that run finds. -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x1024 .bf16) (x1 : Vec F S1024x1024 .bf16) (x2 : Vec F S1024x1 .f32) (x3 : Vec F S1x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__matmul_kernel i arg3 harg3 arg4 harg4 arg5 harg5 arg6 harg6 arg7 harg7 arg8 harg8) K } := by
  refine ⟨[], ?_, fun xi4 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.Run2B.lean ====
/- Region 2, the blocked matrix product: each 1024×1024 output block is a running sum over the 4 blocks of the
   contraction axis, kept in a scratch buffer from one grid point to the next.
   This case: a MIDDLE block of the contraction axis, neither branch taken: plain accumulation. The scratch is entered
   at what the point before left and ends at that plus the product of the two quantised input blocks; the output
   block is not stored and its buffer is handed back untouched. The body is run symbolically on whole buffers, both
   branch conditions decided by the case's hypotheses; the piece it stores into the scratch is found by that run and
   returned as the witness beside the triple. -/
import proofs.«147511_j60069412602522_1_alg».proof.Proof.KI.Run2A

-- membership in a rectangle of production extents: the structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the whole-body run of the kernel in case B -/

-- (the run's proof term is large: the definition's epilogue walks it past the default budget)
set_option maxHeartbeats 1000000 in
/-- The same IN THE CASE where neither `scf.if` is taken: the scratch is entered at the contents `xs0` the point before
    left, the output's staging memref handed back untouched. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1024x1024 .bf16) (x1 : Vec F S1024x1024 .bf16) (x2 : Vec F S1024x1 .f32) (x3 : Vec F S1x1024 .f32) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__matmul_kernel i arg3 harg3 arg4 harg4 arg5 harg5 arg6 harg6 arg7 harg7 arg8 harg8) K } := by
  refine ⟨[], ?_, fun xi4 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.Run2C.lean ====
/- Region 2, the blocked matrix product: each 1024×1024 output block is a running sum over the 4 blocks of the
   contraction axis, kept in a scratch buffer from one grid point to the next.
   This case: the LAST block of the contraction axis. No reset: the product of the two quantised input blocks is added
   to what the point before left in the scratch, and then the second branch stores to the output block that sum with
   each entry multiplied by its row's scale and by its column's scale. The body is run symbolically on whole buffers,
   both branch conditions decided by the case's hypotheses; the pieces it stores into the scratch and into the output
   buffer are found by that run and returned as the witness beside the triple. -/
import proofs.«147511_j60069412602522_1_alg».proof.Proof.KI.Run2B

-- membership in a rectangle of production extents: the structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the whole-body run of the kernel in case C -/

-- (the run's proof term is large: the definition's epilogue walks it past the default budget)
set_option maxHeartbeats 1000000 in
/-- The same IN THE CASE where the first `scf.if` is not taken and the second is: the scratch is entered at `xs0`, the
    output's staging memref at anything, and it ends with its pieces written. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__matmul_kernel i arg3 harg3 arg4 harg4 arg5 harg5 arg6 harg6 arg7 harg7 arg8 harg8) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KI.Reg2.lean ====
/- The accumulation of region 2, point by point. After the body at position n, `outsAt2` records what the output
   window's staging buffer holds and what the scratch holds: at a point of contraction index 0 the scratch is the product
   of the two input blocks added to the zero block, at any other point the product added to what position n − 1 left;
   at contraction index 3 the output block is that sum scaled by the two scale blocks. The invariant is the class's
   before the first point; before any later point it says that the scratch holds the sum position n − 1 left, the other
   scoped buffers and the generator register being untouched, and the body takes it to the same statement one position
   later. From these: the proof data, the body obligation at every point through the three cases' runs, the entry and
   exit entailments, and the found pieces restated over the payloads. -/
import proofs.«147511_j60069412602522_1_alg».proof.Proof.KI.Run2C
import Idealize.ShloMosaic.Lib.Pipeline.Value

-- membership in a rectangle of production extents: the structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2 (the matmul call) at the entry contents `V`: the accumulation, the proof data, the obligation -/

/-- What case A leaves in output 4's staging buffer: its pieces read back over junk (no piece: the window is idle there, a placeholder nothing consults). -/
def out2_A_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x1024 .bf16) (x1 : Vec F S1024x1024 .bf16) (x2 : Vec F S1024x1 .f32) (x3 : Vec F S1x1024 .f32) : Vec F S1024x1024 .f32 :=
  VO2_4.read (Elt F) (VO2_4.writes (Elt F) VO2_4.junk (kernelRun2_A c i arg3 harg3 arg4 harg4 arg5 harg5 arg6 harg6 arg7 harg7 arg8 harg8 hc0 hc1 x0 x1 x2 x3).1)

/-- Case A's pieces for the scratch the kernel carries between points cover it. -/
theorem scover2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x1024 .bf16) (x1 : Vec F S1024x1024 .bf16) (x2 : Vec F S1024x1 .f32) (x3 : Vec F S1x1024 .f32) (y : S1024x1024.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S1024x1024.size (by sl_kernel_rfl) y

/-- What case A leaves in the scratch: its pieces read back over junk. -/
def sout2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x1024 .bf16) (x1 : Vec F S1024x1024 .bf16) (x2 : Vec F S1024x1 .f32) (x3 : Vec F S1x1024 .f32) : Vec F S1024x1024 .f32 :=
  VS2_0.read (Elt F) (VS2_0.writes (Elt F) VS2_0.junk (kernelRun2_A c i arg3 harg3 arg4 harg4 arg5 harg5 arg6 harg6 arg7 harg7 arg8 harg8 hc0 hc1 x0 x1 x2 x3).2.1)

/-- What case B leaves in output 4's staging buffer: its pieces read back over junk (no piece: the window is idle there, a placeholder nothing consults). -/
def out2_B_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1024x1024 .bf16) (x1 : Vec F S1024x1024 .bf16) (x2 : Vec F S1024x1 .f32) (x3 : Vec F S1x1024 .f32) (xs0 : Vec F S1024x1024 .f32) : Vec F S1024x1024 .f32 :=
  VO2_4.read (Elt F) (VO2_4.writes (Elt F) VO2_4.junk (kernelRun2_B c i arg3 harg3 arg4 harg4 arg5 harg5 arg6 harg6 arg7 harg7 arg8 harg8 hc0 hc1 x0 x1 x2 x3 xs0).1)

/-- Case B's pieces for the scratch the kernel carries between points cover it. -/
theorem scover2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1024x1024 .bf16) (x1 : Vec F S1024x1024 .bf16) (x2 : Vec F S1024x1 .f32) (x3 : Vec F S1x1024 .f32) (xs0 : Vec F S1024x1024 .f32) (y : S1024x1024.Idx) :
    ∃ pc ∈ (kernelRun2_B c i arg3 harg3 arg4 harg4 arg5 harg5 arg6 harg6 arg7 harg7 arg8 harg8 hc0 hc1 x0 x1 x2 x3 xs0).2.1, y ∈ pc.1.set :=
  View.cover_of_tiledL (kernelRun2_B c i arg3 harg3 arg4 harg4 arg5 harg5 arg6 harg6 arg7 harg7 arg8 harg8 hc0 hc1 x0 x1 x2 x3 xs0).2.1 S1024x1024.size (by sl_kernel_rfl) y

/-- What case B leaves in the scratch: its pieces read back over junk. -/
def sout2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1024x1024 .bf16) (x1 : Vec F S1024x1024 .bf16) (x2 : Vec F S1024x1 .f32) (x3 : Vec F S1x1024 .f32) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 arg8 harg8 hc0 hc1 x0 x1 x2 x3 xs0).2.1)

/-- Case C's pieces for output 4 tile its block (one store of the whole block), so they cover it. -/
theorem cover2_C_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs0 : Vec F S1024x1024 .f32) (y : S1024x1024.Idx) :
    ∃ pc ∈ (kernelRun2_C c i arg3 harg3 arg4 harg4 arg5 harg5 arg6 harg6 arg7 harg7 arg8 harg8 hc0 hc1 x0 x1 x2 x3 xs0).1, y ∈ pc.1.set :=
  View.cover_of_tiledL (kernelRun2_C c i arg3 harg3 arg4 harg4 arg5 harg5 arg6 harg6 arg7 harg7 arg8 harg8 hc0 hc1 x0 x1 x2 x3 xs0).1 S1024x1024.size (by sl_kernel_rfl) y

/-- What case C leaves in output 4's staging buffer: its pieces read back over junk. -/
def out2_C_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs0 : Vec F S1024x1024 .f32) : Vec F S1024x1024 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs0).1)

/-- Case C's pieces for the scratch the kernel carries between points cover it. -/
theorem scover2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs0 : Vec F S1024x1024 .f32) (y : S1024x1024.Idx) :
    ∃ pc ∈ (kernelRun2_C c i arg3 harg3 arg4 harg4 arg5 harg5 arg6 harg6 arg7 harg7 arg8 harg8 hc0 hc1 x0 x1 x2 x3 xs0).2.1, y ∈ pc.1.set :=
  View.cover_of_tiledL (kernelRun2_C c i arg3 harg3 arg4 harg4 arg5 harg5 arg6 harg6 arg7 harg7 arg8 harg8 hc0 hc1 x0 x1 x2 x3 xs0).2.1 S1024x1024.size (by sl_kernel_rfl) y

/-- What case C leaves in the scratch: its pieces read back over junk. -/
def sout2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs0 : Vec F S1024x1024 .f32) : Vec F S1024x1024 .f32 :=
  VS2_0.read (Elt F) (VS2_0.writes (Elt F) VS2_0.junk (kernelRun2_C c i arg3 harg3 arg4 harg4 arg5 harg5 arg6 harg6 arg7 harg7 arg8 harg8 hc0 hc1 x0 x1 x2 x3 xs0).2.1)

/-! ## What the output and the scratch hold after each point -/

/-- THE ACCUMULATION. What output window 4's staging buffer and the scratch the kernel carries between points hold after
    the body at position `n` (the output, then the scratch): the case the closed forms select at `n`, run at the
    point's memrefs and input blocks, the scratch it reads at what position `n - 1` left. An assignment of the
    conditions no point meets is no case. -/
def outsAt2 (c : Dev nD) : (n : ℕ) → n < cfg2.N → Vec F S1024x1024 .f32 × Vec F S1024x1024 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 4 = 0 then
      if h1 : (n + 1) % 4 = 3 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 4 = 3 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- `outsAt2` at a point of case A: that case's contents. -/
theorem outsAt2_A (c : Dev nD) (t : Fin cfg2.N) (h0 : t.val % 4 = 0) (h1 : ¬t.val % 4 = 3) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 4 = 0) (h1 : ¬t.val % 4 = 3) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 4 = 0) (h1 : t.val % 4 = 3) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the carried scratch at what the point before left in it, the other scoped buffers unopened, and the
    generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(owns (c : Thread nD τ) scM2_0 fullShare ((outsAt2 V c n hn).2) ∗ others2 (F := F) c) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 (F := F) c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt2`; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks; the closed forms say which case the point is in; so that
    case's run applies; the invariant hands the body the carried scratch at what the point before left (at anything at the
    first point) and takes it back at this point's contents, the other scoped buffers and the generator register passing
    through untouched; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 512 := lt_of_lt_of_eq t.isLt (show cfg2.N = 512 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 4 = 0
  · by_cases h1 : t.val % 4 = 3
    · exfalso; omega
    · rw [Dat.leavesExact_idle (dat2 V c) 4 t (idleAt2_4 t (fun h => h1 ((hcond2_1 t).mp h))) (noFlush2_4 t (fun h => h1 ((hcond2_1 t).mp h)))]
      rw [outsAt2_A V c t h0 h1]
      unfold sout2_A_0; (try dsimp only)
      by_cases hz : t.val = 0
      ·
        rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      ·
        rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_4 sout2_C_0; (try dsimp only)
      by_cases hz : t.val = 0
      · exfalso; omega
      ·
        rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    · rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B_0; (try dsimp only)
      by_cases hz : t.val = 0
      · exfalso; omega
      ·
        rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 512 := N_2; omega)

/-! ## The found pieces over the payloads -/

theorem hz2 : (![0, 0] : Fin 2 → Nat) = fun _ => 0 := funext fun a => by fin_cases a <;> rfl

/-- The case of the first kind leaves, in the scratch, the product of the two input blocks added to the zero block: the
    reset's store read back (a covered load of the first store), then the update's store, which covers. -/
theorem sout2_A_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x1024 .bf16) (x1 : Vec F S1024x1024 .bf16) (x2 : Vec F S1024x1 .f32) (x3 : Vec F S1x1024 .f32) :
    sout2_A_0 c i arg3 harg3 arg4 harg4 arg5 harg5 arg6 harg6 arg7 harg7 arg8 harg8 hc0 hc1 x0 x1 x2 x3 = k2_pay2 (k2_pay1 (F := F)) x0 x1 := by
  unfold sout2_A_0
  rw [View.read_writes_eq_canon _ _ _ (scover2_A_0 c i arg3 harg3 arg4 harg4 arg5 harg5 arg6 harg6 arg7 harg7 arg8 harg8 hc0 hc1 x0 x1 x2 x3)]
  unfold kernelRun2_A
  dsimp only
  sl_unfold_words
  rw [View.canon_cons_unit_zero (S := S1024x1024) hz2, View.readCov_unit_zero (S := S1024x1024) _ hz2]
  simp only [View.readAt_eq_ld, harg3.read_unread, harg4.read_unread, View.ld_unit_zero (S := S1024x1024) hz2]

/-- The case of the middle kind leaves, in the scratch, the product added to what it held. -/
theorem sout2_B_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1024x1024 .bf16) (x1 : Vec F S1024x1024 .bf16) (x2 : Vec F S1024x1 .f32) (x3 : Vec F S1x1024 .f32) (xs0 : Vec F S1024x1024 .f32) :
    sout2_B_0 c i arg3 harg3 arg4 harg4 arg5 harg5 arg6 harg6 arg7 harg7 arg8 harg8 hc0 hc1 x0 x1 x2 x3 xs0 = k2_pay2 xs0 x0 x1 := by
  unfold sout2_B_0
  rw [View.read_writes_eq_canon _ _ _ (scover2_B_0 c i arg3 harg3 arg4 harg4 arg5 harg5 arg6 harg6 arg7 harg7 arg8 harg8 hc0 hc1 x0 x1 x2 x3 xs0)]
  unfold kernelRun2_B
  dsimp only
  sl_unfold_words
  rw [View.canon_unit_zero (S := S1024x1024) hz2]
  simp only [View.readAt_eq_ld, harg3.read_unread, harg4.read_unread, harg8.read_unread, View.ld_unit_zero (S := S1024x1024) hz2]

/-- The case of the last kind leaves the same in the scratch, -/
theorem sout2_C_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs0 : Vec F S1024x1024 .f32) :
    sout2_C_0 c i arg3 harg3 arg4 harg4 arg5 harg5 arg6 harg6 arg7 harg7 arg8 harg8 hc0 hc1 x0 x1 x2 x3 xs0 = k2_pay2 xs0 x0 x1 := by
  unfold sout2_C_0
  rw [View.read_writes_eq_canon _ _ _ (scover2_C_0 c i arg3 harg3 arg4 harg4 arg5 harg5 arg6 harg6 arg7 harg7 arg8 harg8 hc0 hc1 x0 x1 x2 x3 xs0)]
  unfold kernelRun2_C
  dsimp only
  sl_unfold_words
  rw [View.canon_unit_zero (S := S1024x1024) hz2]
  simp only [View.readAt_eq_ld, harg3.read_unread, harg4.read_unread, harg8.read_unread, View.ld_unit_zero (S := S1024x1024) hz2]

/-- and, in the output's staging buffer, that scratch (read back: a covered load of the update's store) scaled by the
    two scale blocks. -/
theorem out2_C_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs0 : Vec F S1024x1024 .f32) :
    out2_C_4 c i arg3 harg3 arg4 harg4 arg5 harg5 arg6 harg6 arg7 harg7 arg8 harg8 hc0 hc1 x0 x1 x2 x3 xs0 = k2_pay3 (k2_pay2 xs0 x0 x1) x2 x3 := by
  unfold out2_C_4
  rw [View.read_writes_eq_canon _ _ _ (cover2_C_4 c i arg3 harg3 arg4 harg4 arg5 harg5 arg6 harg6 arg7 harg7 arg8 harg8 hc0 hc1 x0 x1 x2 x3 xs0)]
  unfold kernelRun2_C
  dsimp only
  sl_unfold_words
  rw [View.canon_unit_zero (S := S1024x1024) hz2]
  simp only [View.readAt_eq_ld, harg3.read_unread, harg4.read_unread, harg5.read_unread, harg6.read_unread, harg8.read_unread, View.ld_unit_zero (S := S1024x1024) hz2, View.ld_unit_zero (S := S1024x1) hz2, View.ld_unit_zero (S := S1x1024) hz2, View.readCov_unit_zero (S := S1024x1024) _ hz2]

/-! ## The value-facing facts: what the scratch and the output hold, over the payloads -/

/-- At a point of the first kind the scratch ends at the product of the two input blocks added to the zero block. -/
theorem acc2_first (c : Dev nD) (t : Fin cfg2.N) (h : t.val % 4 = 0) :
    (outsAt2 V c t.val t.isLt).2 = k2_pay2 (k2_pay1 (F := F)) (iblk2 V c 0 t) (iblk2 V c 1 t) := by
  have h0 : t.val % 4 = 0 := h
  have h1 : ¬t.val % 4 = 3 := by omega
  rw [outsAt2_A V c t h0 h1]; dsimp only
  exact sout2_A_eq c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)

/-- At any other point it ends at the product added to what the point before left. -/
theorem acc2_next (c : Dev nD) (t : Fin cfg2.N) (h : ¬ t.val % 4 = 0) :
    (outsAt2 V c t.val t.isLt).2 = k2_pay2 (outsAt2 V c (t.val - 1) (Nat.lt_of_le_of_lt (Nat.sub_le _ _) t.isLt)).2 (iblk2 V c 0 t) (iblk2 V c 1 t) := by
  have h0 : ¬t.val % 4 = 0 := h
  by_cases h1 : t.val % 4 = 3
  · rw [outsAt2_C V c t h0 h1]; dsimp only
    exact sout2_C_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2
  · rw [outsAt2_B V c t h0 h1]; dsimp only
    exact sout2_B_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2

/-- At a point of the last kind the output block is the scratch scaled by the two scale blocks. -/
theorem out2_last (c : Dev nD) (t : Fin cfg2.N) (h : t.val % 4 = 3) :
    (outsAt2 V c t.val t.isLt).1 = k2_pay3 (outsAt2 V c t.val t.isLt).2 (iblk2 V c 2 t) (iblk2 V c 3 t) := by
  have h1 : t.val % 4 = 3 := h
  have h0 : ¬t.val % 4 = 0 := by omega
  rw [outsAt2_C V c t h0 h1]; dsimp only
  rw [sout2_C_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2]
  exact out2_C_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2

end Cert.KernelIdeal.Fr

end
-- ==== Proof.KI.Inst.lean ====
/-
  The three regions' records put into the run of the whole program. Each region's proof data (the arrays it finds, what
  its body leaves in every staging buffer at every grid point, its invariant) satisfies what the run asks of it: the
  arrays are the contents at the region's entry, every share is whole, nothing is owed, the first two regions keep the
  plain invariant, the third enters and leaves its running-sum invariant from and to the plain one, and each body meets
  its obligation at every point. Two consequences are stated: every execution ends with the two argument arrays as
  launched (the frame), and with the result array at what the third region's write-backs leave, the third region having
  found the first two regions' outputs in its input arrays (the value run).
-/
import proofs.«147511_j60069412602522_1_alg».proof.Proof.KI.Main
import proofs.«147511_j60069412602522_1_alg».proof.Proof.KI.Reg0
import proofs.«147511_j60069412602522_1_alg».proof.Proof.KI.Reg1
import proofs.«147511_j60069412602522_1_alg».proof.Proof.KI.Reg2

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat BodyObligation)

variable {F : FTy → Type} [FloatOps F]
variable (m : (ℓ : Loc nD τ sig) → Buf (Elt F) ℓ) (ρ : Dev nD → PrngReg)

/-- The buffers' contents when the third region is entered: the launch contents with the first two regions' output
    arrays at what their write-backs leave. -/
abbrev entry2 : RunBufs F := V2 m (fun V c => dat0 V c) (fun V c => dat1 V c)

/-- The frame: every weakly fair execution terminates, nothing faults, and both argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame m ρ (fun V c => dat0 V c) (fun V c => dat1 V c) (fun V c => dat2 V c)
    (fun V c w => A_eq0 V c w) (fun V c w => A_eq1 V c w) (fun V c w => A_eq2 V c w)
    (fun V c w => by dsimp only [dat0]) (fun V c w => by dsimp only [dat1]) (fun V c w => by dsimp only [dat2])
    (fun V c t => by dsimp only [dat0]) (fun V c t => by dsimp only [dat1]) (fun V c t => by dsimp only [dat2])
    (fun V c => rfl) (fun V c => rfl) (fun V c => rfl)
    (fun V c t => by dsimp only [dat0]) (fun V c t => by dsimp only [dat1])
    (fun V c => hin2 V c) (fun V c => hout2 V c)
    (fun V c => body_obligation0 V c) (fun V c => body_obligation1 V c) (fun V c => body_obligation2 V c)

/-- The value run: besides the frame, the result array ends at what the third region's write-backs leave, the region
    having been entered at `entry2`. -/
theorem value_all : θ_run defs (onTc (τ := τ) (main (F := F))) ⟨m, fun _ => 0, ρ⟩ (fun r => ∀ c : Dev nD,
      r.2.mem ((c.tc : Thread nD τ).loc main_v2) = (dat2 (entry2 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  value_run m ρ (fun V c => dat0 V c) (fun V c => dat1 V c) (fun V c => dat2 V c)
    (fun V c w => A_eq0 V c w) (fun V c w => A_eq1 V c w) (fun V c w => A_eq2 V c w)
    (fun V c w => by dsimp only [dat0]) (fun V c w => by dsimp only [dat1]) (fun V c w => by dsimp only [dat2])
    (fun V c t => by dsimp only [dat0]) (fun V c t => by dsimp only [dat1]) (fun V c t => by dsimp only [dat2])
    (fun V c => rfl) (fun V c => rfl) (fun V c => rfl)
    (fun V c t => by dsimp only [dat0]) (fun V c t => by dsimp only [dat1])
    (fun V c => hin2 V c) (fun V c => hout2 V c)
    (fun V c => body_obligation0 V c) (fun V c => body_obligation1 V c) (fun V c => body_obligation2 V c)

/-- What the third region finds in its four input arrays: the first region's two outputs and the second region's two
    outputs, each at what that region's write-backs leave; and the first two regions found the argument arrays as
    launched. -/
theorem entry2_q_lhs (c : Dev nD) : entry2 m c main_v0_0 = (dat0 (V0 m) c).arrAt 1 cfg0.N :=
  V2_main_v0_0 m (fun V c => dat0 V c) (fun V c => dat1 V c) c
theorem entry2_s_lhs (c : Dev nD) : entry2 m c main_v0_1 = (dat0 (V0 m) c).arrAt 2 cfg0.N :=
  V2_main_v0_1 m (fun V c => dat0 V c) (fun V c => dat1 V c) c
theorem entry2_q_rhs (c : Dev nD) : entry2 m c main_v1_0 = (dat1 (V1 m (fun V c => dat0 V c)) c).arrAt 1 cfg1.N :=
  V2_main_v1_0 m (fun V c => dat0 V c) (fun V c => dat1 V c) c
theorem entry2_s_rhs (c : Dev nD) : entry2 m c main_v1_1 = (dat1 (V1 m (fun V c => dat0 V c)) c).arrAt 2 cfg1.N :=
  V2_main_v1_1 m (fun V c => dat0 V c) (fun V c => dat1 V c) c
theorem entry0_arg0 (c : Dev nD) : V0 m c main_arg0 = m ((c : Thread nD τ).loc main_arg0) := rfl
theorem entry1_arg1 (c : Dev nD) : V1 m (fun V c => dat0 V c) c main_arg1 = m ((c : Thread nD τ).loc main_arg1) :=
  V1_main_arg1 m (fun V c => dat0 V c) c

end Cert.KernelIdeal.Fr

end
-- ==== Proof.Spec.lean ====
/-
  The mathematics of the int8 fake-quantised matrix product, stated once over the extended reals and over no program.

  A row of the left matrix (a column of the right one) is scaled by `s = amax / 127`, where `amax` is the largest
  absolute value in the row (column) and `s = 1` when that is not positive; an entry `x` becomes the integer
  `q = roundeven (clip (x / s) (-127) 127)`. The product is taken in two ways:
  * blockwise: the contraction axis of length 4096 is cut into 4 blocks of 1024; a running sum starts at `0`, each block's
    partial product `Σ_k qL·qR` is added to it, and after the last block the sum is multiplied by the row scale and
    then by the column scale (`blockedOut`);
  * at once: the dequantised entries `qL·sL` and `qR·sR` are multiplied and summed over the whole axis (`wholeOut`).
  The clip makes every `q` a real number whatever `x` is; the scales are real when the inputs are; over the reals the two
  products agree by distributivity (proved in the module that imports this one).
-/
import Idealize.ShloMosaic.PureOps.Ideal
import Idealize.ShloMosaic.Lib.ValueIdx

noncomputable section

open scoped BigOperators

namespace Cert.Spec

open Idealize.ShloMosaic Idealize.ShloMosaic.ValueIdx

/-- The left matrix's shape, 8192 × 4096; the right one's, 4096 × 16384; the product's, 8192 × 16384. -/
abbrev SL : Shape := ⟨2, ![8192, 4096]⟩
abbrev SR : Shape := ⟨2, ![4096, 16384]⟩
abbrev SO : Shape := ⟨2, ![8192, 16384]⟩

/-- The literals both programs use, as the extended reals their words denote: `-∞` (the start of a maximum), `0`, `1`,
    `127` and `-127`. -/
abbrev wNegInf : EReal := Ideal.ofBits .f32 0xFF800000#32
abbrev wZero : EReal := Ideal.ofBits .f32 0x00000000#32
abbrev wOne : EReal := Ideal.ofBits .f32 0x3F800000#32
abbrev w127 : EReal := Ideal.ofBits .f32 0x42FE0000#32
abbrev wNeg127 : EReal := Ideal.ofBits .f32 0xC2FE0000#32

/-- The scale of a row or column from its largest absolute value `a`: `a / 127` where `a > 0`, else `1`. -/
def scaleOf (a : EReal) : EReal := Scalar.select (Ideal.cmp .ogt a wZero) (Ideal.div a w127) wOne

/-- An entry `x` quantised at the scale `s`: `x / s` clipped to `[-127, 127]` and rounded to the nearest integer, ties to
    even. -/
def quant (x s : EReal) : EReal := Ideal.liftRound Ideal.roundHalfEven (min w127 (max wNeg127 (Ideal.div x s)))

/-- The largest absolute value in row `r` of the left matrix: the fold of `max` from `-∞` over the row's 4096 entries. -/
def amaxRow (X : SL.Idx → EReal) (r : Fin 8192) : EReal :=
  (Finset.univ : Finset (Fin 4096)).fold max wNegInf (fun k => max (X (ix2 r k)) (-(X (ix2 r k))))

/-- The largest absolute value in column `j` of the right matrix. -/
def amaxCol (Y : SR.Idx → EReal) (j : Fin 16384) : EReal :=
  (Finset.univ : Finset (Fin 4096)).fold max wNegInf (fun k => max (Y (ix2 k j)) (-(Y (ix2 k j))))

/-- Row `r`'s scale, column `j`'s scale. -/
def sL (X : SL.Idx → EReal) (r : Fin 8192) : EReal := scaleOf (amaxRow X r)
def sR (Y : SR.Idx → EReal) (j : Fin 16384) : EReal := scaleOf (amaxCol Y j)

/-- The quantised left entry at `(r, k)` and right entry at `(k, j)`. -/
def qL (X : SL.Idx → EReal) (r : Fin 8192) (k : Fin 4096) : EReal := quant (X (ix2 r k)) (sL X r)
def qR (Y : SR.Idx → EReal) (k : Fin 4096) (j : Fin 16384) : EReal := quant (Y (ix2 k j)) (sR Y j)

/-- The shapes of the two scale arrays: one column of 8192 row scales, one row of 16384 column scales. -/
abbrev SCol : Shape := ⟨2, ![8192, 1]⟩
abbrev SRow : Shape := ⟨2, ![1, 16384]⟩

/-- Position `k` of block `b` on the contraction axis: `1024 b + k`. -/
def kAt (b : Fin 4) (k : Fin 1024) : Fin 4096 := ⟨1024 * b.val + k.val, by have := b.isLt; have := k.isLt; omega⟩

/-- Block `b`'s partial product of two matrices `A`, `B` at `(r, j)`: the sum over the block's 1024 positions of `A·B`. -/
def blockDot (A : SL.Idx → EReal) (B : SR.Idx → EReal) (r : Fin 8192) (j : Fin 16384) (b : Fin 4) : EReal :=
  ∑ k : Fin 1024, A (ix2 r (kAt b k)) * B (ix2 (kAt b k) j)

/-- The running sum at `(r, j)` after the first `n` blocks: `0`, then each block's partial product added on the right. -/
def accUpTo (A : SL.Idx → EReal) (B : SR.Idx → EReal) (r : Fin 8192) (j : Fin 16384) : (n : ℕ) → n ≤ 4 → EReal
  | 0, _ => wZero
  | n + 1, h => accUpTo A B r j n (Nat.le_of_succ_le h) + blockDot A B r j ⟨n, h⟩

/-- The blockwise product of `A` and `B` scaled by a column `s` of row factors and a row `t` of column factors: the running
    sum after all 4 blocks, times the row's factor, times the column's. -/
def blockedProd (A : SL.Idx → EReal) (B : SR.Idx → EReal) (s : SCol.Idx → EReal) (t : SRow.Idx → EReal) : SO.Idx → EReal :=
  fun i => accUpTo A B (i 0) (i 1) 4 (le_refl 4) * s (ix2 (i 0) 0) * t (ix2 0 (i 1))

/-- The four arrays the quantisation passes produce from the inputs: the quantised matrices and the two scale arrays. -/
def QL (X : SL.Idx → EReal) : SL.Idx → EReal := fun i => qL X (i 0) (i 1)
def QR (Y : SR.Idx → EReal) : SR.Idx → EReal := fun i => qR Y (i 0) (i 1)
def SLcol (X : SL.Idx → EReal) : SCol.Idx → EReal := fun i => sL X (i 0)
def SRrow (Y : SR.Idx → EReal) : SRow.Idx → EReal := fun i => sR Y (i 1)

/-- The blockwise product of the quantised matrices, scaled by the two scale arrays. -/
def blockedOut (X : SL.Idx → EReal) (Y : SR.Idx → EReal) : SO.Idx → EReal :=
  blockedProd (QL X) (QR Y) (SLcol X) (SRrow Y)

/-- The product at once: the dequantised entries multiplied and summed over the whole contraction axis. -/
def wholeOut (X : SL.Idx → EReal) (Y : SR.Idx → EReal) : SO.Idx → EReal :=
  fun i => ∑ k : Fin 4096, (qL X (i 0) k * sL X (i 0)) * (qR Y k (i 1) * sR Y (i 1))

end Cert.Spec

end
-- ==== Proof.Val01Pure.lean ====
/-
  The two values the row-quantisation kernel stores, read at one entry of a 512 × 4096 block over the extended reals:
  the scale of row `r` is the specification's scale of the largest absolute value in the row (the fold of `max` from -∞
  over the row's 4096 entries), and the quantised entry at `(r, k)` is the entry quantised at that scale.
-/
import proofs.«147511_j60069412602522_1_alg».proof.Proof.Gen.KernelIdeal.Skeleton
import proofs.«147511_j60069412602522_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx
open Cert.KernelIdeal Cert.KernelIdeal.Gen Cert.Spec

/-! ## Two layout operations read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The row maximum -/

/-- The largest absolute value in row `r` of a 512 × 4096 block: the fold of `max` from -∞ over the row. -/
def blkAmax0 (x : Vec Ideal S512x4096 .f32) (r : Fin 512) : EReal :=
  (Finset.univ : Finset (Fin 4096)).fold max Cert.Spec.wNegInf (fun k => max (x (ix2 r k)) (-(x (ix2 r k))))

/-- Row `r` of the block with column `k` put back on the reduced axis is `(r, k)`. -/
theorem lift_row0 (h : S512x4096.Reduces [1] S512) (r : Fin 512) (k : Fin (S512x4096.size 1)) :
    h.lift (ix1 r) k = ix2 r (⟨k.val, k.isLt⟩ : Fin 4096) := by
  funext c; apply Fin.ext
  match c with
  | ⟨0, _⟩ => rfl
  | ⟨1, _⟩ => rfl

/-- The maximum-reduction of the absolute values over the columns, at row `r`, is the row's largest absolute value. -/
theorem red0 (x : FVec Ideal S512x4096 .f32) (h : S512x4096.Reduces [1] S512) (r : Fin 512) :
    multiReduction (F := Ideal) .maximumf [1] S512 (absf x) 0xFF800000#32 h (.inl rfl) rfl (ix1 r) = blkAmax0 x r := by
  refine (Ideal.multiReduction_maximumf_single (φ := .f32) (s := S512x4096) (t := S512) (a := (1 : Fin 2)) (absf x) 0xFF800000#32 h (.inl rfl) rfl (ix1 r)).trans ?_
  have hf : ((absf x : FVec Ideal S512x4096 .f32) ∘ h.lift (ix1 r))
      = fun k : Fin 4096 => max (x (ix2 r k)) (-(x (ix2 r k))) :=
    funext fun k => by
      show max (x (h.lift (ix1 r) k)) (-(x (h.lift (ix1 r) k))) = _
      rw [lift_row0 h r k]; rfl
  exact congrArg (fun f => Finset.fold max wNegInf f (Finset.univ : Finset (Fin 4096))) hf

/-- The column of row maxima the kernel computes from its block: the reduction over the columns, as a 512 × 1 column. -/
def rowMax0 (x : FVec Ideal S512x4096 .f32) : FVec Ideal S512x1 .f32 :=
  shapeCast S512x1 (multiReduction (F := Ideal) .maximumf [1] S512 (absf x) 0xFF800000#32 Gen.reduces_S512x4096_S512 (.inl rfl) rfl)
    Gen.shapeCasts_S512_S512x1

theorem rowMax0_apply (x : FVec Ideal S512x4096 .f32) (r : Fin 512) (z : Fin 1) : rowMax0 x (ix2 r z) = blkAmax0 x r :=
  (shapeCast_a_a1_apply _ _ r z).trans (red0 x _ r)

/-! ## The scale -/

/-- The select of `a / 127` where `a > 0`, else `1`, at an index, is the specification's scale of the entry there. -/
theorem scale_of_col0 (v : FVec Ideal S512x1 .f32) (i : S512x1.Idx) :
    (select (cmpf .ogt v (broadcast S512x1 (Scalar.ofBits (F := Ideal) .f32 0x00000000#32)))
        (divf v (broadcast S512x1 (Scalar.ofBits (F := Ideal) .f32 0x42FE0000#32)))
        (broadcast S512x1 (Scalar.ofBits (F := Ideal) .f32 0x3F800000#32)) : FVec Ideal S512x1 .f32) i = scaleOf (v i) := rfl

/-- The kernel's scale column is that select of its column of row maxima. -/
theorem pay0_eq (x : FVec Ideal S512x4096 .f32) :
    k0_pay1 x = select (cmpf .ogt (rowMax0 x) (broadcast S512x1 (Scalar.ofBits (F := Ideal) .f32 0x00000000#32)))
        (divf (rowMax0 x) (broadcast S512x1 (Scalar.ofBits (F := Ideal) .f32 0x42FE0000#32)))
        (broadcast S512x1 (Scalar.ofBits (F := Ideal) .f32 0x3F800000#32)) := rfl

/-- The scale the kernel stores for row `r` of its block. -/
theorem pay0_scale (x : Vec Ideal S512x4096 .f32) (r : Fin 512) (z : Fin 1) :
    k0_pay1 x (ix2 r z) = Cert.Spec.scaleOf (blkAmax0 x r) := by
  rw [pay0_eq, scale_of_col0, rowMax0_apply]

/-! ## The quantised entry -/

/-- The clipped, rounded quotient at an index is the specification's quantised entry at the scale there. -/
theorem quant_of_scale0 (x s : FVec Ideal S512x4096 .f32) (i : S512x4096.Idx) :
    (truncf .bf16 (roundeven (minimumf (broadcast S512x4096 (Scalar.ofBits (F := Ideal) .f32 0x42FE0000#32))
        (maximumf (broadcast S512x4096 (Scalar.ofBits (F := Ideal) .f32 0xC2FE0000#32)) (divf x s)))) Gen.bitsLt_bf16_f32
      : FVec Ideal S512x4096 .bf16) i = quant (x i) (s i) := rfl

/-- The kernel's quantised block is that clipped, rounded quotient of its block by its scale column spread along the rows. -/
theorem pay0_quant_eq (x : FVec Ideal S512x4096 .f32) :
    k0_pay2 x = truncf .bf16 (roundeven (minimumf (broadcast S512x4096 (Scalar.ofBits (F := Ideal) .f32 0x42FE0000#32))
        (maximumf (broadcast S512x4096 (Scalar.ofBits (F := Ideal) .f32 0xC2FE0000#32))
          (divf x (broadcastTo S512x4096 (k0_pay1 x) Gen.broadcasts_S512x1_S512x4096))))) Gen.bitsLt_bf16_f32 := rfl

/-- The quantised entry the kernel stores at `(r, k)` of its block. -/
theorem pay0_quant (x : Vec Ideal S512x4096 .f32) (r : Fin 512) (k : Fin 4096) :
    k0_pay2 x (ix2 r k) = Cert.Spec.quant (x (ix2 r k)) (Cert.Spec.scaleOf (blkAmax0 x r)) := by
  rw [pay0_quant_eq, quant_of_scale0, broadcastTo_a1_ab_apply, pay0_scale]

end Cert.KernelIdeal.Val

end
-- ==== Proof.Val0.lean ====
/-
  What region 0 (the row quantisation of the left matrix) leaves in its two output arrays, at the extended reals:
  the quantised matrix is the specification's quantised left matrix of the region's input array, and the
  scale column is the specification's column of row scales.

  The body's two stored values at an index of a 512 × 4096 block are known: the scale of row r is the
  specification's scale of the fold of max over the row's 4096 absolute values, and the quantised entry at (r, k) is
  the entry quantised at that scale. Here: the block the input window holds at grid point t is rows
  512 t … 512 t + 511 of the input array, every row whole, so a block row's maximum is the array row's; hence what
  point t writes back is block t of the specification's arrays; and row R of either output array lies in the
  block of point R / 512, so the 16 blocks tile the arrays.
-/
import proofs.«147511_j60069412602522_1_alg».proof.Proof.Spec
import proofs.«147511_j60069412602522_1_alg».proof.Proof.Val01Pure
import proofs.«147511_j60069412602522_1_alg».proof.Proof.KI.Reg0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.Spec

/-! ## The input block at a grid point, and the blocks of the outputs -/

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the 16 grid points: every window's block index at point t is (t, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input window's block at point t is rows 512 t … 512 t + 511 of the input array: its entry (r, k) is
    the array's entry (512 t + r, k). -/
theorem iblk0_apply (c : Dev nD) (t : Fin cfg0.N) (r : Fin 512) (k : Fin 4096) (R : Fin 8192)
    (hR : R.val = 512 * t.val + r.val) :
    (iblk0 V c 0 t : Vec Ideal S512x4096 .f32) (ix2 r k) = (V c main_arg0 : SL.Idx → EReal) (ix2 R k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 512 + 1 * r.val = R.val; rw [e0, hR]; omega
  | ⟨1, _⟩ => show win0_0.index t 1 * 4096 + 1 * k.val = k.val; rw [e1]; omega

/-- A block row that is row R of an array has the array row's largest absolute value. -/
theorem blkAmax0_eq (X : SL.Idx → EReal) (x : Vec Ideal S512x4096 .f32) (R : Fin 8192) (r : Fin 512)
    (hx : ∀ k : Fin 4096, x (ix2 r k) = X (ix2 R k)) : blkAmax0 x r = amaxRow X R := by
  unfold blkAmax0 amaxRow
  simp only [hx]

/-- So the body's quantised entry at (r, k) of such a block is the specification's at (R, k), -/
theorem quant_blk0 (X : SL.Idx → EReal) (x : Vec Ideal S512x4096 .f32) (R : Fin 8192) (r : Fin 512)
    (hx : ∀ k : Fin 4096, x (ix2 r k) = X (ix2 R k)) (k : Fin 4096) :
    k0_pay2 x (ix2 r k) = QL X (ix2 R k) := by
  rw [pay0_quant, blkAmax0_eq X x R r hx, hx]
  rfl

/-- and its scale for row r is the specification's for row R. -/
theorem scale_blk0 (X : SL.Idx → EReal) (x : Vec Ideal S512x4096 .f32) (R : Fin 8192) (r : Fin 512)
    (hx : ∀ k : Fin 4096, x (ix2 r k) = X (ix2 R k)) (z : Fin 1) :
    k0_pay1 x (ix2 r z) = SLcol X (ix2 R z) := by
  rw [pay0_scale, blkAmax0_eq X x R r hx]
  rfl

/-- What point t writes back of the quantised matrix is block t of the specification's quantised matrix. -/
theorem flushed0_1_eq (c : Dev nD) (t : Fin cfg0.N) :
    (dat0 (F := Ideal) V c).flushed 1 t
      = ((cfg0.win 1).blk t).view.read (Elt Ideal) (QL (V c main_arg0) : SL.Idx → EReal) := by
  show (cfg0.win 1).cut (grid0.coords t) ((dat0 V c).after 1 t) = _
  rw [after0_1]
  unfold out0_1
  rw [View.canon_unit_zero hz0]
  simp only [View.ld_unit_zero (S := S512x4096) hz0]
  obtain ⟨e0, e1, e2, e3, e4, e5⟩ := idx_facts0 t
  have ht : t.val < 16 := lt_of_lt_of_eq t.isLt (N_0 : cfg0.N = 16)
  funext j
  obtain ⟨r, k, rfl⟩ : ∃ (r : Fin 512) (k : Fin 4096), j = ix2 r k := ⟨j 0, j 1, eq_ix2 j⟩
  have hR : 512 * t.val + r.val < 8192 := by have := r.isLt; omega
  have hemb : ((cfg0.win 1).blk t).view.emb (ix2 r k) = ix2 (⟨512 * t.val + r.val, hR⟩ : Fin 8192) k := by
    funext a; apply Fin.ext
    match a with
    | ⟨0, _⟩ => show win0_1.index t 0 * 512 + 1 * r.val = 512 * t.val + r.val; rw [e2]; omega
    | ⟨1, _⟩ => show win0_1.index t 1 * 4096 + 1 * k.val = k.val; rw [e3]; omega
  show k0_pay2 (iblk0 V c 0 t) (ix2 r k) = QL (V c main_arg0) (((cfg0.win 1).blk t).view.emb (ix2 r k))
  rw [hemb]
  exact quant_blk0 (V c main_arg0) (iblk0 V c 0 t) ⟨_, hR⟩ r (fun k' => iblk0_apply V c t r k' ⟨_, hR⟩ rfl) k

/-- What point t writes back of the scale column is block t of the specification's scale column. -/
theorem flushed0_2_eq (c : Dev nD) (t : Fin cfg0.N) :
    (dat0 (F := Ideal) V c).flushed 2 t
      = ((cfg0.win 2).blk t).view.read (Elt Ideal) (SLcol (V c main_arg0) : SCol.Idx → EReal) := by
  show (cfg0.win 2).cut (grid0.coords t) ((dat0 V c).after 2 t) = _
  rw [after0_2]
  unfold out0_2
  rw [View.canon_unit_zero hz0]
  simp only [View.ld_unit_zero (S := S512x4096) hz0]
  obtain ⟨e0, e1, e2, e3, e4, e5⟩ := idx_facts0 t
  have ht : t.val < 16 := lt_of_lt_of_eq t.isLt (N_0 : cfg0.N = 16)
  funext j
  obtain ⟨r, z, rfl⟩ : ∃ (r : Fin 512) (z : Fin 1), j = ix2 r z := ⟨j 0, j 1, eq_ix2 j⟩
  have hR : 512 * t.val + r.val < 8192 := by have := r.isLt; omega
  have hemb : ((cfg0.win 2).blk t).view.emb (ix2 r z) = ix2 (⟨512 * t.val + r.val, hR⟩ : Fin 8192) z := by
    funext a; apply Fin.ext
    match a with
    | ⟨0, _⟩ => show win0_2.index t 0 * 512 + 1 * r.val = 512 * t.val + r.val; rw [e4]; omega
    | ⟨1, _⟩ => show win0_2.index t 1 * 1 + 1 * z.val = z.val; rw [e5]; omega
  show k0_pay1 (iblk0 V c 0 t) (ix2 r z) = SLcol (V c main_arg0) (((cfg0.win 2).blk t).view.emb (ix2 r z))
  rw [hemb]
  exact scale_blk0 (V c main_arg0) (iblk0 V c 0 t) ⟨_, hR⟩ r (fun k' => iblk0_apply V c t r k' ⟨_, hR⟩ rfl) z

/-- An index of the quantised matrix is in point t's block iff each coordinate is in the block's range. -/
theorem mem_blk0_1 (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0_0).slice (win0_1.rect t)).set ↔ _
  rw [View.set_slice_whole, Rect.mem_set_unit]
  exact Iff.rfl

/-- The same for the scale column. -/
theorem mem_blk0_2 (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0_1).slice (win0_2.rect t)).set ↔ _
  rw [View.set_slice_whole, Rect.mem_set_unit]
  exact Iff.rfl

/-- Row R of the quantised matrix lies in the block of point R / 512. -/
theorem covered0_1 (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨e0, e1, e2, e3, e4, e5⟩ := idx_facts0 t
  refine ⟨t, flush0_1 t, ?_⟩
  rw [mem_blk0_1]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- Row R of the scale column lies in the block of point R / 512. -/
theorem covered0_2 (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨e0, e1, e2, e3, e4, e5⟩ := idx_facts0 t
  refine ⟨t, flush0_2 t, ?_⟩
  rw [mem_blk0_2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1 ≤ (i 1).val ∧ (i 1).val < win0_2.index t (1 : Fin 2) * 1 + 1; omega

/-! ## The arrays after the region -/

/-- The quantised left matrix: the region's first output array is the specification's QL of its input array. -/
theorem arr0_1 (c : Dev nD) :
    (dat0 (F := Ideal) V c).arrAt 1 cfg0.N = (Cert.Spec.QL (V c main_arg0) : SL.Idx → EReal) :=
  (dat0 (F := Ideal) V c).arrAt_eq_of_cover 1 (Cert.Spec.QL (V c main_arg0) : SL.Idx → EReal)
    (fun t _ => flushed0_1_eq V c t) covered0_1

/-- The scale column: the region's second output array is the specification's column of row scales. -/
theorem arr0_2 (c : Dev nD) :
    (dat0 (F := Ideal) V c).arrAt 2 cfg0.N = (Cert.Spec.SLcol (V c main_arg0) : SCol.Idx → EReal) :=
  (dat0 (F := Ideal) V c).arrAt_eq_of_cover 2 (Cert.Spec.SLcol (V c main_arg0) : SCol.Idx → EReal)
    (fun t _ => flushed0_2_eq V c t) covered0_2

end Cert.KernelIdeal.Val

end
-- ==== Proof.Val1.lean ====
/-
  What region 1 (the column quantisation of the right matrix) leaves in its two output arrays, at the extended
  reals: the quantised matrix is the specification's quantised right matrix of the region's input array, and
  the scale row is the specification's row of column scales.

  Three steps. (i) The body's two stored values at an index of a 4096 × 512 block: the scale of column j is
  the specification's scale of the fold of max over the column's 4096 absolute values, and the quantised entry
  at (k, j) is the entry quantised at that scale. (ii) The block the input window holds at grid point t is
  columns 512 t … 512 t + 511 of the input array, every column whole, so a block column's maximum is the array
  column's. (iii) Column J of either output array lies in the block of point J / 512; the 32 blocks tile the
  arrays.
-/
import proofs.«147511_j60069412602522_1_alg».proof.Proof.Spec
import proofs.«147511_j60069412602522_1_alg».proof.Proof.KI.Reg1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.Spec

/-! ## The body's stored values at an index of a block -/

/-- The largest absolute value in column j of a 4096 × 512 block: the fold of max from -∞ over the column. -/
def blkAmax1 (x : Vec Ideal S4096x512 .f32) (j : Fin 512) : EReal :=
  (Finset.univ : Finset (Fin 4096)).fold max wNegInf (fun k => max (x (ix2 k j)) (-(x (ix2 k j))))

/-- Column `j` of the block with row `k` put back on the reduced axis is (k, j). -/
theorem lift_col1 (h : S4096x512.Reduces [0] S512) (j : Fin 512) (k : Fin (S4096x512.size 0)) :
    h.lift (ix1 j) k = ix2 (⟨k.val, k.isLt⟩ : Fin 4096) j := by
  funext c; apply Fin.ext
  fin_cases c <;> rfl

/-- The maximum-reduction of the absolute values over the rows, at column `j`, is the column's largest absolute value. -/
theorem red1 (x : FVec Ideal S4096x512 .f32) (h : S4096x512.Reduces [0] S512) (j : Fin 512) :
    multiReduction (F := Ideal) .maximumf [0] S512 (absf x) 0xFF800000#32 h (.inl rfl) rfl (ix1 j) = blkAmax1 x j := by
  refine (Ideal.multiReduction_maximumf_single (absf x) 0xFF800000#32 h (.inl rfl) rfl (ix1 j)).trans ?_
  have hf : ((absf x : FVec Ideal S4096x512 .f32) ∘ h.lift (ix1 j))
      = fun k : Fin 4096 => max (x (ix2 k j)) (-(x (ix2 k j))) :=
    funext fun k => by
      show max (x (h.lift (ix1 j) k)) (-(x (h.lift (ix1 j) k))) = _
      rw [lift_col1 h j k]; rfl
  exact congrArg (fun f => Finset.fold max wNegInf f (Finset.univ : Finset (Fin 4096))) hf

/-- The row of column maxima the body computes from its block: the reduction over the rows, as a 1 × 512 row. -/
def colMax1 (x : FVec Ideal S4096x512 .f32) : FVec Ideal S1x512 .f32 :=
  shapeCast S1x512 (multiReduction (F := Ideal) .maximumf [0] S512 (absf x) 0xFF800000#32 Gen.reduces_S4096x512_S512 (.inl rfl) rfl)
    Gen.shapeCasts_S512_S1x512

theorem colMax1_apply (x : FVec Ideal S4096x512 .f32) (z : Fin 1) (j : Fin 512) : colMax1 x (ix2 z j) = blkAmax1 x j :=
  (shapeCast_a_1a_apply _ _ z j).trans (red1 x _ j)

/-- The select of `a / 127` where `a > 0`, else `1`, at an index, is the specification's scale of the entry there. -/
theorem scale_of_row1 (v : FVec Ideal S1x512 .f32) (i : S1x512.Idx) :
    (select (cmpf .ogt v (broadcast S1x512 (Scalar.ofBits (F := Ideal) .f32 0x00000000#32)))
        (divf v (broadcast S1x512 (Scalar.ofBits (F := Ideal) .f32 0x42FE0000#32)))
        (broadcast S1x512 (Scalar.ofBits (F := Ideal) .f32 0x3F800000#32)) : FVec Ideal S1x512 .f32) i = scaleOf (v i) := rfl

/-- The body's scale row is that select of its row of column maxima. -/
theorem pay1_eq (x : FVec Ideal S4096x512 .f32) :
    k1_pay1 x = select (cmpf .ogt (colMax1 x) (broadcast S1x512 (Scalar.ofBits (F := Ideal) .f32 0x00000000#32)))
        (divf (colMax1 x) (broadcast S1x512 (Scalar.ofBits (F := Ideal) .f32 0x42FE0000#32)))
        (broadcast S1x512 (Scalar.ofBits (F := Ideal) .f32 0x3F800000#32)) := rfl

/-- The scale the body stores for column j of its block. -/
theorem pay1_scale (x : Vec Ideal S4096x512 .f32) (z : Fin 1) (j : Fin 512) :
    k1_pay1 x (ix2 z j) = scaleOf (blkAmax1 x j) := by
  rw [pay1_eq, scale_of_row1, colMax1_apply]

/-- The clipped, rounded quotient at an index is the specification's quantised entry at the scale there. -/
theorem quant_of_scale1 (x s : FVec Ideal S4096x512 .f32) (i : S4096x512.Idx) :
    (truncf .bf16 (roundeven (minimumf (broadcast S4096x512 (Scalar.ofBits (F := Ideal) .f32 0x42FE0000#32))
        (maximumf (broadcast S4096x512 (Scalar.ofBits (F := Ideal) .f32 0xC2FE0000#32)) (divf x s)))) Gen.bitsLt_bf16_f32
      : FVec Ideal S4096x512 .bf16) i = quant (x i) (s i) := rfl

/-- The body's quantised block is that clipped, rounded quotient of its block by its scale row spread down the rows. -/
theorem pay2_eq (x : FVec Ideal S4096x512 .f32) :
    k1_pay2 x = truncf .bf16 (roundeven (minimumf (broadcast S4096x512 (Scalar.ofBits (F := Ideal) .f32 0x42FE0000#32))
        (maximumf (broadcast S4096x512 (Scalar.ofBits (F := Ideal) .f32 0xC2FE0000#32))
          (divf x (broadcastTo S4096x512 (k1_pay1 x) Gen.broadcasts_S1x512_S4096x512))))) Gen.bitsLt_bf16_f32 := rfl

/-- The quantised entry the body stores at (k, j) of its block. -/
theorem pay1_quant (x : Vec Ideal S4096x512 .f32) (k : Fin 4096) (j : Fin 512) :
    k1_pay2 x (ix2 k j) = quant (x (ix2 k j)) (scaleOf (blkAmax1 x j)) := by
  rw [pay2_eq, quant_of_scale1, broadcastTo_1b_ab_apply, pay1_scale]

/-! ## The arrays after the region -/

variable (V : (c : Dev nD) → (b : Ref sig .tc) → Buf (Elt Ideal) ((c : Thread nD τ).loc b))

theorem hz1 : (![0, 0] : Fin 2 → Nat) = fun _ => 0 := funext fun a => by fin_cases a <;> rfl

/-- The three index maps, decided over the 32 grid points: block row 0, block column the point's number. -/
theorem idx_facts1 : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- Column `q` of the block of point `t` is column `512 t + q` of the array. -/
def colAt1 (t : Fin cfg1.N) (q : Fin 512) : Fin 16384 :=
  ⟨512 * t.val + q.val, by have h : t.val < 32 := t.isLt; have := q.isLt; omega⟩

/-- What the body leaves in the two output windows' buffers: its two stored values. -/
theorem out1_1_eq (x0 : Vec Ideal S4096x512 .f32) : out1_1 x0 = k1_pay2 x0 := by
  unfold out1_1
  rw [View.canon_unit_zero hz1]
  simp only [View.ld_unit_zero (S := S4096x512) hz1]

theorem out1_2_eq (x0 : Vec Ideal S4096x512 .f32) : out1_2 x0 = k1_pay1 x0 := by
  unfold out1_2
  rw [View.canon_unit_zero hz1]
  simp only [View.ld_unit_zero (S := S4096x512) hz1]

/-- The input window's block at point `t`, at (k, q), is the array at (k, 512 t + q). -/
theorem iblk1_apply (c : Dev nD) (t : Fin cfg1.N) (k : Fin 4096) (q : Fin 512) :
    (iblk1 V c 0 t : Vec Ideal S4096x512 .f32) (ix2 k q) = (V c main_arg1 : SR.Idx → EReal) (ix2 k (colAt1 t q)) := by
  obtain ⟨e0, e1, -⟩ := idx_facts1 t
  unfold iblk1
  rw [View.read_apply]
  show V c main_arg1 _ = V c main_arg1 _
  congr 1
  funext a; apply Fin.ext
  match a with
  | ⟨0, _⟩ => show win1_0.index t (0 : Fin 2) * 4096 + 1 * k.val = k.val; rw [e0]; omega
  | ⟨1, _⟩ => show win1_0.index t (1 : Fin 2) * 512 + 1 * q.val = 512 * t.val + q.val; rw [e1]; omega

/-- A block column's largest absolute value is the array column's: the block holds the column whole. -/
theorem blkAmax1_iblk (c : Dev nD) (t : Fin cfg1.N) (q : Fin 512) :
    blkAmax1 (iblk1 V c 0 t) q = amaxCol (V c main_arg1 : SR.Idx → EReal) (colAt1 t q) := by
  unfold blkAmax1 amaxCol
  exact congrArg (fun f => Finset.fold max wNegInf f (Finset.univ : Finset (Fin 4096)))
    (funext fun k => by rw [iblk1_apply])

/-! ### The quantised matrix -/

/-- What point `t` writes back to the quantised matrix is block `t` of the specification's quantised right matrix. -/
theorem flushed1_1_eq (c : Dev nD) (t : Fin cfg1.N) :
    (dat1 (F := Ideal) V c).flushed 1 t
      = ((cfg1.win 1).blk t).view.read (Elt Ideal) (QR (V c main_arg1) : SR.Idx → EReal) := by
  show (cfg1.win 1).cut (grid1.coords t) ((dat1 V c).after 1 t) = _
  rw [after1_1, out1_1_eq]
  obtain ⟨-, -, e2, e3, -, -⟩ := idx_facts1 t
  refine funext fun (j : S4096x512.Idx) => ?_
  obtain ⟨k, q, rfl⟩ : ∃ (k : Fin 4096) (q : Fin 512), j = ix2 k q := ⟨j 0, j 1, eq_ix2 j⟩
  show k1_pay2 (iblk1 V c 0 t) (ix2 k q) = QR (V c main_arg1) (((cfg1.win 1).blk t).view.emb (ix2 k q))
  have hemb : ((cfg1.win 1).blk t).view.emb (ix2 k q) = (ix2 k (colAt1 t q) : SR.Idx) := by
    funext a; apply Fin.ext
    match a with
    | ⟨0, _⟩ => show win1_1.index t (0 : Fin 2) * 4096 + 1 * k.val = k.val; rw [e2]; omega
    | ⟨1, _⟩ => show win1_1.index t (1 : Fin 2) * 512 + 1 * q.val = 512 * t.val + q.val; rw [e3]; omega
  rw [hemb, pay1_quant, iblk1_apply, blkAmax1_iblk]
  rfl

/-- An index of the quantised matrix is in point `t`'s block iff each coordinate is in the block's range on its axis. -/
theorem mem_blk1_1 (t : Fin cfg1.N) (i : SR.Idx) :
    i ∈ ((cfg1.win 1).blk t).view.set ↔ ∀ a : Fin 2, win1_1.index t a * S4096x512.size a ≤ (i a).val
      ∧ (i a).val < win1_1.index t a * S4096x512.size a + S4096x512.size a := by
  show i ∈ ((View.whole main_v1_0).slice (win1_1.rect t)).set ↔ _
  rw [View.set_slice_whole, Rect.mem_set_unit]
  exact Iff.rfl

/-- Column J lies in the block of point J / 512. -/
theorem covered1_1 (i : SR.Idx) :
    ∃ t : Fin cfg1.N, (cfg1.win 1).flush t = true ∧ i ∈ ((cfg1.win 1).blk t).view.set := by
  have hi0 : (i 0).val < 4096 := (i 0).isLt
  have hi1 : (i 1).val < 16384 := (i 1).isLt
  obtain ⟨t, ht⟩ : ∃ t : Fin cfg1.N, t.val = (i 1).val / 512 :=
    ⟨⟨(i 1).val / 512, by show (i 1).val / 512 < 32; omega⟩, rfl⟩
  obtain ⟨-, -, e2, e3, -, -⟩ := idx_facts1 t
  refine ⟨t, flush1_1 t, ?_⟩
  rw [mem_blk1_1]
  intro a
  match a with
  | ⟨0, _⟩ =>
    show win1_1.index t (0 : Fin 2) * 4096 ≤ (i 0).val ∧ (i 0).val < win1_1.index t (0 : Fin 2) * 4096 + 4096
    rw [e2]; omega
  | ⟨1, _⟩ =>
    show win1_1.index t (1 : Fin 2) * 512 ≤ (i 1).val ∧ (i 1).val < win1_1.index t (1 : Fin 2) * 512 + 512
    rw [e3, ht]; omega

/-- The quantised right matrix: the region's first output array is the specification's QR of its input array. -/
theorem arr1_1 (c : Dev nD) :
    (dat1 (F := Ideal) V c).arrAt 1 cfg1.N = (Cert.Spec.QR (V c main_arg1) : SR.Idx → EReal) :=
  (dat1 (F := Ideal) V c).arrAt_eq_of_cover 1 (QR (V c main_arg1) : SR.Idx → EReal)
    (fun t _ => flushed1_1_eq V c t) covered1_1

/-! ### The scale row -/

/-- What point `t` writes back to the scale row is block `t` of the specification's row of column scales. -/
theorem flushed1_2_eq (c : Dev nD) (t : Fin cfg1.N) :
    (dat1 (F := Ideal) V c).flushed 2 t
      = ((cfg1.win 2).blk t).view.read (Elt Ideal) (SRrow (V c main_arg1) : SRow.Idx → EReal) := by
  show (cfg1.win 2).cut (grid1.coords t) ((dat1 V c).after 2 t) = _
  rw [after1_2, out1_2_eq]
  obtain ⟨-, -, -, -, e4, e5⟩ := idx_facts1 t
  refine funext fun (j : S1x512.Idx) => ?_
  obtain ⟨z, q, rfl⟩ : ∃ (z : Fin 1) (q : Fin 512), j = ix2 z q := ⟨j 0, j 1, eq_ix2 j⟩
  show k1_pay1 (iblk1 V c 0 t) (ix2 z q) = SRrow (V c main_arg1) (((cfg1.win 2).blk t).view.emb (ix2 z q))
  have hemb : ((cfg1.win 2).blk t).view.emb (ix2 z q) = (ix2 (0 : Fin 1) (colAt1 t q) : SRow.Idx) := by
    funext a; apply Fin.ext
    match a with
    | ⟨0, _⟩ => show win1_2.index t (0 : Fin 2) * 1 + 1 * z.val = 0; rw [e4]; have := z.isLt; omega
    | ⟨1, _⟩ => show win1_2.index t (1 : Fin 2) * 512 + 1 * q.val = 512 * t.val + q.val; rw [e5]; omega
  rw [hemb, pay1_scale, blkAmax1_iblk]
  rfl

/-- An index of the scale row is in point `t`'s block iff each coordinate is in the block's range on its axis. -/
theorem mem_blk1_2 (t : Fin cfg1.N) (i : SRow.Idx) :
    i ∈ ((cfg1.win 2).blk t).view.set ↔ ∀ a : Fin 2, win1_2.index t a * S1x512.size a ≤ (i a).val
      ∧ (i a).val < win1_2.index t a * S1x512.size a + S1x512.size a := by
  show i ∈ ((View.whole main_v1_1).slice (win1_2.rect t)).set ↔ _
  rw [View.set_slice_whole, Rect.mem_set_unit]
  exact Iff.rfl

/-- Column J of the scale row lies in the block of point J / 512. -/
theorem covered1_2 (i : SRow.Idx) :
    ∃ t : Fin cfg1.N, (cfg1.win 2).flush t = true ∧ i ∈ ((cfg1.win 2).blk t).view.set := by
  have hi0 : (i 0).val < 1 := (i 0).isLt
  have hi1 : (i 1).val < 16384 := (i 1).isLt
  obtain ⟨t, ht⟩ : ∃ t : Fin cfg1.N, t.val = (i 1).val / 512 :=
    ⟨⟨(i 1).val / 512, by show (i 1).val / 512 < 32; omega⟩, rfl⟩
  obtain ⟨-, -, -, -, e4, e5⟩ := idx_facts1 t
  refine ⟨t, flush1_2 t, ?_⟩
  rw [mem_blk1_2]
  intro a
  match a with
  | ⟨0, _⟩ =>
    show win1_2.index t (0 : Fin 2) * 1 ≤ (i 0).val ∧ (i 0).val < win1_2.index t (0 : Fin 2) * 1 + 1
    rw [e4]; omega
  | ⟨1, _⟩ =>
    show win1_2.index t (1 : Fin 2) * 512 ≤ (i 1).val ∧ (i 1).val < win1_2.index t (1 : Fin 2) * 512 + 512
    rw [e5, ht]; omega

/-- The scale row: the region's second output array is the specification's row of column scales. -/
theorem arr1_2 (c : Dev nD) :
    (dat1 (F := Ideal) V c).arrAt 2 cfg1.N = (Cert.Spec.SRrow (V c main_arg1) : SRow.Idx → EReal) :=
  (dat1 (F := Ideal) V c).arrAt_eq_of_cover 2 (SRrow (V c main_arg1) : SRow.Idx → EReal)
    (fun t _ => flushed1_2_eq V c t) covered1_2

end Cert.KernelIdeal.Val

end
-- ==== Proof.Val2Pure.lean ====
/-
  The three pure values the matrix-product kernel stores, read at one entry over the extended reals: the reset value of
  the running sum is the zero word; one step adds to the running sum the block's partial product, a sum of 1024 products;
  the final value multiplies the running sum by the row's factor and then by the column's factor.
-/
import proofs.«147511_j60069412602522_1_alg».proof.Proof.Gen.KernelIdeal.Skeleton
import proofs.«147511_j60069412602522_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Idealize.ShloMosaic Idealize.ShloMosaic.ValueIdx Cert.Spec

/-- A 1024 × 1024 block, a 1024 × 1 column and a 1 × 1024 row of extended reals. -/
abbrev Blk : Type := (⟨2, ![1024, 1024]⟩ : Shape).Idx → EReal
abbrev ColBlk : Type := (⟨2, ![1024, 1]⟩ : Shape).Idx → EReal
abbrev RowBlk : Type := (⟨2, ![1, 1024]⟩ : Shape).Idx → EReal

/-- The reset value of the running sum is the zero word at every entry. -/
theorem pay1_apply (p q : Fin 1024) : (Gen.k2_pay1 (F := Ideal) : Blk) (ix2 p q) = wZero := by
  unfold Gen.k2_pay1
  rw [shapeCast_self]
  rfl

/-- The left operand's index of the block product: the output's row, the contraction position. -/
theorem lhs_dot_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_dot_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand's index: the contraction position, the output's column. -/
theorem rhs_dot_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_dot_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- One step of the running sum at an entry: the sum so far plus the block's partial product, the sum over the block's 1024
    contraction positions of left entry times right entry (a product into the zero constant is just that sum). -/
theorem pay2_apply (acc a b : Blk) (p q : Fin 1024) :
    (Gen.k2_pay2 (F := Ideal) acc a b : Blk) (ix2 p q) = acc (ix2 p q) + ∑ k : Fin 1024, a (ix2 p k) * b (ix2 k q) := by
  unfold Gen.k2_pay2
  rw [shapeCast_self, shapeCast_self, shapeCast_self, addf_apply]
  simp only [matmul]
  rw [Ideal.matmul_constant_zero_apply,
    ← Equiv.sum_comp (contrEquiv1 dot_S1024x1024_S1024x1024_S1024x1024_1_0_0_1_n_n 1024 rfl rfl).symm]
  refine congrArg (acc (ix2 p q) + ·) (Finset.sum_congr rfl fun k _ => ?_)
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun ax => Fin.ext (by
    match ax with
    | ⟨0, _⟩ => exact lhs_dot_0 _ _
    | ⟨1, _⟩ => exact (lhs_dot_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun ax => Fin.ext (by
    match ax with
    | ⟨0, _⟩ => exact (rhs_dot_0 _ _).trans hk
    | ⟨1, _⟩ => exact rhs_dot_1 _ _)
  rw [el, er]

/-- A 1024 × 1 column broadcast over 1024 columns reads, at `(p, q)`, the column's entry `p`. -/
theorem broadcastTo_col_apply (v : ColBlk) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ =>
    show p.val = if (1024 : ℕ) = 1 then 0 else p.val
    rw [if_neg (by decide)]
  | ⟨1, _⟩ => rfl

/-- The value stored to the output at an entry: the running sum times the row's factor times the column's factor. -/
theorem pay3_apply (acc : Blk) (s : ColBlk) (t : RowBlk) (p q : Fin 1024) :
    (Gen.k2_pay3 (F := Ideal) acc s t : Blk) (ix2 p q) = acc (ix2 p q) * s (ix2 p (0 : Fin 1)) * t (ix2 (0 : Fin 1) q) := by
  unfold Gen.k2_pay3
  rw [shapeCast_self, shapeCast_self, mulf_apply, mulf_apply, broadcastTo_col_apply, broadcastTo_1b_ab_apply]

end Cert.KernelIdeal.Val

end
-- ==== Proof.Val2.lean ====
/-
  What the matrix-product region leaves in its output array, over the extended reals: the blockwise product of the two
  quantised matrices it reads, scaled by the two scale arrays it reads. The running sum the kernel carries between the
  grid's points is, after the point of block `k` on the contraction axis, the specification's running sum after `k + 1`
  blocks (by induction on `k` inside a group of four points); the block written back at a group's last point is that sum
  times the row's factor times the column's factor; and the written-back blocks tile the output array.
-/
import proofs.«147511_j60069412602522_1_alg».proof.Proof.KI.Reg2
import proofs.«147511_j60069412602522_1_alg».proof.Proof.Val2Pure
import Idealize.ShloMosaic.Lib.Pipeline.Value

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Cert.Spec
open Idealize.ShloMosaic.Pipeline (Dat)

-- the TensorCore's buffer contents when the region is entered, over the extended reals
variable (V : (c : Dev nD) → (b : Ref sig .tc) → Buf (Elt Ideal) ((c : Thread nD τ).loc b))

/-! ## The four arrays the region reads, and where a block's entry lies in them -/

/-- The quantised left matrix, the quantised right matrix, the column of row factors and the row of column factors, as the
    region finds them. -/
abbrev arrA (c : Dev nD) : S8192x4096.Idx → EReal := V c main_v0_0
abbrev arrB (c : Dev nD) : S4096x16384.Idx → EReal := V c main_v1_0
abbrev arrS (c : Dev nD) : S8192x1.Idx → EReal := V c main_v0_1
abbrev arrT (c : Dev nD) : S1x16384.Idx → EReal := V c main_v1_1

/-- Row `p` of row block `i`: `1024 i + p`; column `q` of column block `j`: `1024 j + q`. -/
def rowAt (i : Fin 8) (p : Fin 1024) : Fin 8192 := ⟨1024 * i.val + p.val, by have := i.isLt; have := p.isLt; omega⟩
def colAt (j : Fin 16) (q : Fin 1024) : Fin 16384 := ⟨1024 * j.val + q.val, by have := j.isLt; have := q.isLt; omega⟩

/-- The grid has 512 points. -/
theorem N_eq : cfg2.N = 512 := N_2

/-- The windows' block indices at point `t = 64 i + 4 j + k` of the grid `(8, 16, 4)`, decided over the grid: the left
    matrix's block is `(i, k)`, the right one's `(k, j)`, the row factors' `(i, 0)`, the column factors' `(0, j)`, the
    output's `(i, j)`. -/
theorem idx_facts : ∀ t : Fin cfg2.N,
    win2_0.index t (0 : Fin 2) = t.val / 64 ∧ win2_0.index t (1 : Fin 2) = t.val % 4
    ∧ win2_1.index t (0 : Fin 2) = t.val % 4 ∧ win2_1.index t (1 : Fin 2) = t.val / 4 % 16
    ∧ win2_2.index t (0 : Fin 2) = t.val / 64 ∧ win2_2.index t (1 : Fin 2) = 0
    ∧ win2_3.index t (0 : Fin 2) = 0 ∧ win2_3.index t (1 : Fin 2) = t.val / 4 % 16
    ∧ win2_4.index t (0 : Fin 2) = t.val / 64 ∧ win2_4.index t (1 : Fin 2) = t.val / 4 % 16 :=
  (by decide +kernel : ∀ t : Fin grid2.N, _)

/-- The left matrix's block at point `t`, read at `(p, k)`, is the matrix at row `1024 (t / 64) + p`, column
    `1024 (t % 4) + k`. -/
theorem blk0_apply (c : Dev nD) (t : Fin cfg2.N) (p k : Fin 1024) (r : Fin 8192) (kk : Fin 4096)
    (hr : r.val = 1024 * (t.val / 64) + p.val) (hk : kk.val = 1024 * (t.val % 4) + k.val) :
    (iblk2 V c 0 t : Blk) (ix2 p k) = arrA V c (ix2 r kk) := by
  obtain ⟨e0, e1, -⟩ := idx_facts t
  unfold iblk2
  rw [View.read_apply]
  show V c main_v0_0 (((cfg2.win 0).blk t).view.emb (ix2 p k)) = V c main_v0_0 (ix2 r kk)
  refine congrArg _ (funext fun a => Fin.ext ?_)
  match a with
  | ⟨0, _⟩ => show win2_0.index t (0 : Fin 2) * 1024 + 1 * p.val = r.val; omega
  | ⟨1, _⟩ => show win2_0.index t (1 : Fin 2) * 1024 + 1 * k.val = kk.val; omega

/-- The right matrix's block at point `t`, read at `(k, q)`, is the matrix at row `1024 (t % 4) + k`, column
    `1024 (t / 4 % 16) + q`. -/
theorem blk1_apply (c : Dev nD) (t : Fin cfg2.N) (k q : Fin 1024) (kk : Fin 4096) (cc : Fin 16384)
    (hk : kk.val = 1024 * (t.val % 4) + k.val) (hc : cc.val = 1024 * (t.val / 4 % 16) + q.val) :
    (iblk2 V c 1 t : Blk) (ix2 k q) = arrB V c (ix2 kk cc) := by
  obtain ⟨-, -, e0, e1, -⟩ := idx_facts t
  unfold iblk2
  rw [View.read_apply]
  show V c main_v1_0 (((cfg2.win 1).blk t).view.emb (ix2 k q)) = V c main_v1_0 (ix2 kk cc)
  refine congrArg _ (funext fun a => Fin.ext ?_)
  match a with
  | ⟨0, _⟩ => show win2_1.index t (0 : Fin 2) * 1024 + 1 * k.val = kk.val; omega
  | ⟨1, _⟩ => show win2_1.index t (1 : Fin 2) * 1024 + 1 * q.val = cc.val; omega

/-- The row factors' block at point `t`, read at `(p, 0)`, is the column at row `1024 (t / 64) + p`. -/
theorem blk2_apply (c : Dev nD) (t : Fin cfg2.N) (p : Fin 1024) (r : Fin 8192)
    (hr : r.val = 1024 * (t.val / 64) + p.val) :
    (iblk2 V c 2 t : ColBlk) (ix2 p (0 : Fin 1)) = arrS V c (ix2 r (0 : Fin 1)) := by
  obtain ⟨-, -, -, -, e0, e1, -⟩ := idx_facts t
  unfold iblk2
  rw [View.read_apply]
  show V c main_v0_1 (((cfg2.win 2).blk t).view.emb (ix2 p (0 : Fin 1))) = V c main_v0_1 (ix2 r (0 : Fin 1))
  refine congrArg _ (funext fun a => Fin.ext ?_)
  match a with
  | ⟨0, _⟩ => show win2_2.index t (0 : Fin 2) * 1024 + 1 * p.val = r.val; omega
  | ⟨1, _⟩ => show win2_2.index t (1 : Fin 2) * 1 + 1 * 0 = 0; omega

/-- The column factors' block at point `t`, read at `(0, q)`, is the row at column `1024 (t / 4 % 16) + q`. -/
theorem blk3_apply (c : Dev nD) (t : Fin cfg2.N) (q : Fin 1024) (cc : Fin 16384)
    (hc : cc.val = 1024 * (t.val / 4 % 16) + q.val) :
    (iblk2 V c 3 t : RowBlk) (ix2 (0 : Fin 1) q) = arrT V c (ix2 (0 : Fin 1) cc) := by
  obtain ⟨-, -, -, -, -, -, e0, e1, -⟩ := idx_facts t
  unfold iblk2
  rw [View.read_apply]
  show V c main_v1_1 (((cfg2.win 3).blk t).view.emb (ix2 (0 : Fin 1) q)) = V c main_v1_1 (ix2 (0 : Fin 1) cc)
  refine congrArg _ (funext fun a => Fin.ext ?_)
  match a with
  | ⟨0, _⟩ => show win2_3.index t (0 : Fin 2) * 1 + 1 * 0 = 0; omega
  | ⟨1, _⟩ => show win2_3.index t (1 : Fin 2) * 1024 + 1 * q.val = cc.val; omega

/-! ## The running sum the kernel carries is the specification's -/

/-- The carried contents depend on the position only. -/
theorem outs_congr (c : Dev nD) {n n' : ℕ} (e : n = n') (h : n < cfg2.N) (h' : n' < cfg2.N) :
    outsAt2 V c n h = outsAt2 V c n' h' := by
  subst e; rfl

/-- After the point of contraction block `k` in the group of row block `i` and column block `j`, the carried running sum
    at `(p, q)` is the specification's running sum after `k + 1` blocks at row `1024 i + p`, column `1024 j + q`: the
    group's first point starts from the zero word, every later one adds its block's partial product to what the point
    before left. -/
theorem acc_inv (c : Dev nD) (i : Fin 8) (j : Fin 16) (p q : Fin 1024) :
    ∀ (k : ℕ) (hk : k < 4) (hn : 64 * i.val + 4 * j.val + k < cfg2.N),
      ((outsAt2 V c (64 * i.val + 4 * j.val + k) hn).2 : Blk) (ix2 p q)
        = accUpTo (arrA V c) (arrB V c) (rowAt i p) (colAt j q) (k + 1) (by omega)
  | 0, hk, hn => by
    have hi := i.isLt
    have hj := j.isLt
    have h0 : (⟨64 * i.val + 4 * j.val + 0, hn⟩ : Fin cfg2.N).val % 4 = 0 := by
      show (64 * i.val + 4 * j.val + 0) % 4 = 0; omega
    refine (congrFun (acc2_first V c ⟨_, hn⟩ h0) (ix2 p q)).trans ?_
    rw [pay2_apply, pay1_apply]
    show wZero + _ = wZero + blockDot (arrA V c) (arrB V c) (rowAt i p) (colAt j q) ⟨0, _⟩
    refine congrArg (wZero + ·) (Finset.sum_congr rfl fun kk _ => ?_)
    rw [blk0_apply V c _ p kk (rowAt i p) (kAt ⟨0, by omega⟩ kk)
        (by show 1024 * i.val + p.val = 1024 * ((64 * i.val + 4 * j.val + 0) / 64) + p.val; omega)
        (by show 1024 * 0 + kk.val = 1024 * ((64 * i.val + 4 * j.val + 0) % 4) + kk.val; omega),
      blk1_apply V c _ kk q (kAt ⟨0, by omega⟩ kk) (colAt j q)
        (by show 1024 * 0 + kk.val = 1024 * ((64 * i.val + 4 * j.val + 0) % 4) + kk.val; omega)
        (by show 1024 * j.val + q.val = 1024 * ((64 * i.val + 4 * j.val + 0) / 4 % 16) + q.val; omega)]
  | k + 1, hk, hn => by
    have hi := i.isLt
    have hj := j.isLt
    have hlt : 64 * i.val + 4 * j.val + k < cfg2.N := by omega
    have ih := acc_inv c i j p q k (by omega) hlt
    have h0 : ¬ (⟨64 * i.val + 4 * j.val + (k + 1), hn⟩ : Fin cfg2.N).val % 4 = 0 := by
      show ¬ (64 * i.val + 4 * j.val + (k + 1)) % 4 = 0; omega
    refine (congrFun (acc2_next V c ⟨_, hn⟩ h0) (ix2 p q)).trans ?_
    rw [pay2_apply, outs_congr V c (show (⟨64 * i.val + 4 * j.val + (k + 1), hn⟩ : Fin cfg2.N).val - 1 = 64 * i.val + 4 * j.val + k from by
      show 64 * i.val + 4 * j.val + (k + 1) - 1 = 64 * i.val + 4 * j.val + k; omega) _ hlt, ih]
    show accUpTo (arrA V c) (arrB V c) (rowAt i p) (colAt j q) (k + 1) _ + _
      = accUpTo (arrA V c) (arrB V c) (rowAt i p) (colAt j q) (k + 1) _ + blockDot (arrA V c) (arrB V c) (rowAt i p) (colAt j q) ⟨k + 1, _⟩
    refine congrArg (accUpTo (arrA V c) (arrB V c) (rowAt i p) (colAt j q) (k + 1) _ + ·) (Finset.sum_congr rfl fun kk _ => ?_)
    rw [blk0_apply V c _ p kk (rowAt i p) (kAt ⟨k + 1, by omega⟩ kk)
        (by show 1024 * i.val + p.val = 1024 * ((64 * i.val + 4 * j.val + (k + 1)) / 64) + p.val; omega)
        (by show 1024 * (k + 1) + kk.val = 1024 * ((64 * i.val + 4 * j.val + (k + 1)) % 4) + kk.val; omega),
      blk1_apply V c _ kk q (kAt ⟨k + 1, by omega⟩ kk) (colAt j q)
        (by show 1024 * (k + 1) + kk.val = 1024 * ((64 * i.val + 4 * j.val + (k + 1)) % 4) + kk.val; omega)
        (by show 1024 * j.val + q.val = 1024 * ((64 * i.val + 4 * j.val + (k + 1)) / 4 % 16) + q.val; omega)]

/-! ## From the written-back blocks to the array -/

/-- The specification's product at an index whose coordinates are known. -/
theorem blockedProd_apply (A : S8192x4096.Idx → EReal) (B : S4096x16384.Idx → EReal) (S : S8192x1.Idx → EReal)
    (T : S1x16384.Idx → EReal) (x : S8192x16384.Idx) (r : Fin 8192) (cc : Fin 16384) (hr : x 0 = r) (hc : x 1 = cc) :
    blockedProd A B S T x = accUpTo A B r cc 4 (le_refl 4) * S (ix2 r (0 : Fin 1)) * T (ix2 (0 : Fin 1) cc) := by
  subst hr hc; rfl

/-- WHAT A POINT WRITES BACK (a group's last point, `t % 4 = 3`) is its block of the specification's product of the four
    arrays. -/
theorem flushed_eq (c : Dev nD) (t : Fin cfg2.N) (hf : (cfg2.win 4).flush t = true) :
    (dat2 (F := Ideal) V c).flushed 4 t
      = ((cfg2.win 4).blk t).view.read (Elt Ideal) (blockedProd (arrA V c) (arrB V c) (arrS V c) (arrT V c)) := by
  have h3 : t.val % 4 = 3 := (flush2_4 t).mp hf
  have hN : cfg2.N = 512 := N_eq
  have ht := t.isLt
  obtain ⟨-, -, -, -, -, -, -, -, e0, e1⟩ := idx_facts t
  show (cfg2.win 4).cut (grid2.coords t) ((dat2 (F := Ideal) V c).after 4 t) = _
  rw [after2_4, out2_last V c t h3]
  refine funext fun (y : S1024x1024.Idx) => ?_
  obtain ⟨p, q, rfl⟩ : ∃ (p q : Fin 1024), y = ix2 p q := ⟨y 0, y 1, eq_ix2 y⟩
  rw [View.read_apply]
  show (Gen.k2_pay3 (F := Ideal) _ _ _ : Blk) (ix2 p q) = _
  rw [pay3_apply]
  have hp := p.isLt
  have hq := q.isLt
  rw [blockedProd_apply (arrA V c) (arrB V c) (arrS V c) (arrT V c) _ (rowAt ⟨t.val / 64, by omega⟩ p) (colAt ⟨t.val / 4 % 16, by omega⟩ q)
      (Fin.ext (by show win2_4.index t (0 : Fin 2) * 1024 + 1 * p.val = 1024 * (t.val / 64) + p.val; omega))
      (Fin.ext (by show win2_4.index t (1 : Fin 2) * 1024 + 1 * q.val = 1024 * (t.val / 4 % 16) + q.val; omega)),
    blk2_apply V c t p (rowAt ⟨t.val / 64, by omega⟩ p) rfl,
    blk3_apply V c t q (colAt ⟨t.val / 4 % 16, by omega⟩ q) rfl,
    outs_congr V c (show t.val = 64 * (t.val / 64) + 4 * (t.val / 4 % 16) + 3 from by omega) t.isLt (by omega),
    acc_inv V c ⟨t.val / 64, by omega⟩ ⟨t.val / 4 % 16, by omega⟩ p q 3 (by omega) (by show 64 * (t.val / 64) + 4 * (t.val / 4 % 16) + 3 < cfg2.N; omega)]
  rfl

/-- An index of the output array is in point `t`'s block iff each coordinate is in the block's range on its axis. -/
theorem mem_blk (t : Fin cfg2.N) (x : S8192x16384.Idx) :
    x ∈ ((cfg2.win 4).blk t).view.set ↔ ∀ a : Fin 2, win2_4.index t a * S1024x1024.size a ≤ (x a).val ∧ (x a).val < win2_4.index t a * S1024x1024.size a + S1024x1024.size a := by
  show x ∈ ((View.whole main_v2).slice (win2_4.rect t)).set ↔ _
  rw [View.set_slice_whole, Rect.mem_set_unit]
  exact Iff.rfl

/-- Every index `(R, J)` of the output array lies in the block written back at the last point of the group of row block
    `R / 1024` and column block `J / 1024`. -/
theorem cover (x : S8192x16384.Idx) :
    ∃ t : Fin cfg2.N, (cfg2.win 4).flush t = true ∧ x ∈ ((cfg2.win 4).blk t).view.set := by
  have hN : cfg2.N = 512 := N_eq
  have h0 : (x 0).val < 8192 := (x 0).isLt
  have h1 : (x 1).val < 16384 := (x 1).isLt
  refine ⟨⟨64 * ((x 0).val / 1024) + 4 * ((x 1).val / 1024) + 3, by omega⟩, (flush2_4 _).mpr (by show (64 * ((x 0).val / 1024) + 4 * ((x 1).val / 1024) + 3) % 4 = 3; omega), ?_⟩
  obtain ⟨-, -, -, -, -, -, -, -, e0, e1⟩ := idx_facts ⟨64 * ((x 0).val / 1024) + 4 * ((x 1).val / 1024) + 3, by omega⟩
  rw [mem_blk]
  intro a
  match a with
  | ⟨0, _⟩ =>
    show win2_4.index _ (0 : Fin 2) * 1024 ≤ (x 0).val ∧ (x 0).val < win2_4.index _ (0 : Fin 2) * 1024 + 1024
    rw [e0]; show (64 * ((x 0).val / 1024) + 4 * ((x 1).val / 1024) + 3) / 64 * 1024 ≤ (x 0).val ∧ (x 0).val < (64 * ((x 0).val / 1024) + 4 * ((x 1).val / 1024) + 3) / 64 * 1024 + 1024
    omega
  | ⟨1, _⟩ =>
    show win2_4.index _ (1 : Fin 2) * 1024 ≤ (x 1).val ∧ (x 1).val < win2_4.index _ (1 : Fin 2) * 1024 + 1024
    rw [e1]; show (64 * ((x 0).val / 1024) + 4 * ((x 1).val / 1024) + 3) / 4 % 16 * 1024 ≤ (x 1).val ∧ (x 1).val < (64 * ((x 0).val / 1024) + 4 * ((x 1).val / 1024) + 3) / 4 % 16 * 1024 + 1024
    omega

/-- THE OUTPUT ARRAY after the region: the specification's blockwise product of the four arrays the region reads. -/
theorem arr2_4 (c : Dev nD) :
    (dat2 (F := Ideal) V c).arrAt 4 cfg2.N
      = (Cert.Spec.blockedProd (V c main_v0_0) (V c main_v1_0) (V c main_v0_1) (V c main_v1_1) : S8192x16384.Idx → EReal) :=
  (dat2 (F := Ideal) V c).arrAt_eq_of_cover 4 (blockedProd (arrA V c) (arrB V c) (arrS V c) (arrT V c)) (flushed_eq V c) cover

end Cert.KernelIdeal.Val

end
-- ==== Proof.Ref.lean ====
/-
  The reference's result, read off its run: every stage of its host program at an index, composed, is the product at once of
  the dequantised matrices (`Cert.Spec.wholeOut`).

  The stages, per argument: the largest absolute value of a row (a column) as the fold of `max` from `-∞` over the
  contraction axis; the scale read at (r, 0) (at (0, j)); the quantised entry; the dequantised entry `q · s`; and last the
  contraction of the two dequantised matrices over the 4096 positions.
-/
import proofs.«147511_j60069412602522_1_alg».proof.Defs
import proofs.«147511_j60069412602522_1_alg».proof.Proof.Gen.ReferenceIdeal.Run
import proofs.«147511_j60069412602522_1_alg».proof.Proof.Gen.ReferenceIdeal.Read
import proofs.«147511_j60069412602522_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-! ## Indices: the program's composed index functions are coordinates -/

theorem idx_v2 (r : Fin 8192) : idx_main_v2 (ix2 r (0 : Fin 1)) = ix1 r :=
  funext fun a => Fin.ext (by match a with | ⟨0, _⟩ => rfl)
theorem idx_v9 (r : Fin 8192) (k : Fin 4096) : idx_main_v9 (ix2 r k) = ix2 r (0 : Fin 1) :=
  funext fun a => Fin.ext (by match a with | ⟨0, _⟩ => rfl | ⟨1, _⟩ => rfl)
theorem idx_v13 (r : Fin 8192) (k : Fin 4096) : idx_main_v13 (ix2 r k) = ix2 r (0 : Fin 1) :=
  funext fun a => Fin.ext (by match a with | ⟨0, _⟩ => rfl | ⟨1, _⟩ => rfl)
theorem idx_v17 (j : Fin 16384) : idx_main_v17 (ix2 (0 : Fin 1) j) = ix1 j :=
  funext fun a => Fin.ext (by match a with | ⟨0, _⟩ => rfl)
theorem idx_v24 (k : Fin 4096) (j : Fin 16384) : idx_main_v24 (ix2 k j) = ix2 (0 : Fin 1) j :=
  funext fun a => Fin.ext (by match a with | ⟨0, _⟩ => rfl | ⟨1, _⟩ => rfl)
theorem idx_v28 (k : Fin 4096) (j : Fin 16384) : idx_main_v28 (ix2 k j) = ix2 (0 : Fin 1) j :=
  funext fun a => Fin.ext (by match a with | ⟨0, _⟩ => rfl | ⟨1, _⟩ => rfl)
theorem lidx_v30 (p : Fin 8192) (q : Fin 16384) (k : Fin 4096) : lidx_main_v30 (ix2 p q) k = ix2 p k :=
  funext fun a => Fin.ext (by match a with | ⟨0, _⟩ => rfl | ⟨1, _⟩ => rfl)
theorem ridx_v30 (p : Fin 8192) (q : Fin 16384) (k : Fin 4096) : ridx_main_v30 (ix2 p q) k = ix2 k q :=
  funext fun a => Fin.ext (by match a with | ⟨0, _⟩ => rfl | ⟨1, _⟩ => rfl)

/-- Row `r` with position `k` put back on the contraction axis is (r, k). -/
theorem lift_row (h : S8192x4096.Reduces [1] S8192) (r : Fin 8192) (k : Fin (S8192x4096.size 1)) :
    h.lift (ix1 r) k = ix2 r (⟨k.val, k.isLt⟩ : Fin 4096) := by
  funext c; apply Fin.ext
  fin_cases c <;> rfl

/-- Column `j` with position `k` put back on the contraction axis is (k, j). -/
theorem lift_col (h : S4096x16384.Reduces [0] S16384) (j : Fin 16384) (k : Fin (S4096x16384.size 0)) :
    h.lift (ix1 j) k = ix2 (⟨k.val, k.isLt⟩ : Fin 4096) j := by
  funext c; apply Fin.ext
  fin_cases c <;> rfl

/-! ## The left argument: rows -/

/-- The reduce over axis 1 at row `r` is the row's largest absolute value. -/
theorem amaxRow_read (X : SL.Idx → EReal) (r : Fin 8192) :
    val_main_v1 (F := Ideal) X (ix1 r) = amaxRow X r := by
  have h : S8192x4096.Reduces [1] S8192 := by decide
  unfold val_main_v1
  rw [Host.reduce_eq_fold_single FloatOps.maximumf _ _ _ h]
  have hf : (val_main_v0 (F := Ideal) X ∘ h.lift (ix1 r))
      = fun k : Fin 4096 => max (X (ix2 r k)) (-(X (ix2 r k))) :=
    funext fun k => by
      show max (X (h.lift (ix1 r) k)) (-(X (h.lift (ix1 r) k))) = _
      rw [lift_row h r k]; rfl
  exact congrArg (fun f => Finset.fold max wNegInf f (Finset.univ : Finset (Fin 4096))) hf

/-- The selected scale at (r, 0) is the row's scale. -/
theorem sL_read (X : SL.Idx → EReal) (r : Fin 8192) :
    val_main_v8 (F := Ideal) X (ix2 r 0) = sL X r := by
  rw [val_main_v8_apply, val_main_v4_apply, val_main_v6_apply, val_main_v2_apply, idx_v2, amaxRow_read,
    val_main_v3_apply, val_main_v5_apply, val_main_v7_apply, val_main_cst_0_apply, val_main_cst_1_apply,
    val_main_cst_2_apply]
  rfl

/-- The rounded, clipped quotient at (r, k) is the quantised left entry. -/
theorem qL_read (X : SL.Idx → EReal) (r : Fin 8192) (k : Fin 4096) :
    val_main_v12 (F := Ideal) X (ix2 r k) = qL X r k := by
  rw [val_main_v12_apply, val_main_v11_apply, val_main_call1_v4_apply, val_main_call1_v3_apply, val_main_cst_4_apply,
    val_main_call1_v2_apply, val_main_call1_v1_apply, val_main_call1_v0_apply, val_main_cst_3_apply,
    val_main_v10_apply, val_main_v9_apply, idx_v9, sL_read]
  rfl

/-- The dequantised left entry at (r, k). -/
theorem deqL_read (X : SL.Idx → EReal) (r : Fin 8192) (k : Fin 4096) :
    val_main_v14 (F := Ideal) X (ix2 r k) = qL X r k * sL X r := by
  rw [val_main_v14_apply, val_main_v13_apply, idx_v13, sL_read, qL_read]
  rfl

/-! ## The right argument: columns -/

/-- The reduce over axis 0 at column `j` is the column's largest absolute value. -/
theorem amaxCol_read (Y : SR.Idx → EReal) (j : Fin 16384) :
    val_main_v16 (F := Ideal) Y (ix1 j) = amaxCol Y j := by
  have h : S4096x16384.Reduces [0] S16384 := by decide
  unfold val_main_v16
  rw [Host.reduce_eq_fold_single FloatOps.maximumf _ _ _ h]
  have hf : (val_main_v15 (F := Ideal) Y ∘ h.lift (ix1 j))
      = fun k : Fin 4096 => max (Y (ix2 k j)) (-(Y (ix2 k j))) :=
    funext fun k => by
      show max (Y (h.lift (ix1 j) k)) (-(Y (h.lift (ix1 j) k))) = _
      rw [lift_col h j k]; rfl
  exact congrArg (fun f => Finset.fold max wNegInf f (Finset.univ : Finset (Fin 4096))) hf

/-- The selected scale at (0, j) is the column's scale. -/
theorem sR_read (Y : SR.Idx → EReal) (j : Fin 16384) :
    val_main_v23 (F := Ideal) Y (ix2 0 j) = sR Y j := by
  rw [val_main_v23_apply, val_main_v19_apply, val_main_v21_apply, val_main_v17_apply, idx_v17, amaxCol_read,
    val_main_v18_apply, val_main_v20_apply, val_main_v22_apply, val_main_cst_6_apply, val_main_cst_7_apply,
    val_main_cst_8_apply]
  rfl

/-- The rounded, clipped quotient at (k, j) is the quantised right entry. -/
theorem qR_read (Y : SR.Idx → EReal) (k : Fin 4096) (j : Fin 16384) :
    val_main_v27 (F := Ideal) Y (ix2 k j) = qR Y k j := by
  rw [val_main_v27_apply, val_main_v26_apply, val_main_call4_v4_apply, val_main_call4_v3_apply, val_main_cst_10_apply,
    val_main_call4_v2_apply, val_main_call4_v1_apply, val_main_call4_v0_apply, val_main_cst_9_apply,
    val_main_v25_apply, val_main_v24_apply, idx_v24, sR_read]
  rfl

/-- The dequantised right entry at (k, j). -/
theorem deqR_read (Y : SR.Idx → EReal) (k : Fin 4096) (j : Fin 16384) :
    val_main_v29 (F := Ideal) Y (ix2 k j) = qR Y k j * sR Y j := by
  rw [val_main_v29_apply, val_main_v28_apply, idx_v28, sR_read, qR_read]
  rfl

/-! ## The product -/

/-- The contraction of the two dequantised matrices is the product at once. -/
theorem whole_read (X : SL.Idx → EReal) (Y : SR.Idx → EReal) :
    val_main_v30 (F := Ideal) X Y = wholeOut X Y := by
  refine funext fun (i : SO.Idx) => ?_
  obtain ⟨p, q, rfl⟩ : ∃ (p : Fin 8192) (q : Fin 16384), i = ix2 p q := ⟨i 0, i 1, eq_ix2 i⟩
  rw [val_main_v30_apply]
  refine Finset.sum_congr rfl fun k _ => ?_
  rw [lidx_v30, ridx_v30, deqL_read, deqR_read]

/-- Every weakly fair execution of the reference ends with its result at `wholeOut` of the two arguments' launch
    contents, the arguments unchanged. -/
theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30)
          = (Cert.Spec.wholeOut (m ((c.tc : Thread nD τ).loc main_arg0)) (m ((c.tc : Thread nD τ).loc main_arg1)) : _)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v30_eq (F := Ideal) _ _).trans (whole_read _ _)), (h c).2⟩)
    (Cert.ReferenceIdeal.Value.run (F := Ideal) m ρ)

end Cert.ReferenceIdeal.RefValue

end
-- ==== Proof.SpecLaw.lean ====
/-
  The law of the int8 fake-quantised matrix product: on real inputs the blockwise product and the product at once are
  one function. Every quantised entry is a real number (the clip bounds it), both scales are real (a maximum of
  finitely many reals over 127, or 1), and over the reals a common factor moves across a finite sum and the four
  blocks' sums make up the whole sum.
-/
import proofs.«147511_j60069412602522_1_alg».proof.Proof.Spec

noncomputable section

open scoped BigOperators

namespace Cert.Spec

open Idealize.ShloMosaic Idealize.ShloMosaic.ValueIdx

/-! ## The five literals as extended reals -/

theorem wZero_eq : wZero = 0 := by simp [Ideal.ofBits, Ideal.ieee]
theorem wNegInf_eq : wNegInf = ⊥ := by simp [Ideal.ofBits, Ideal.ieee]
theorem wOne_eq : wOne = 1 := by simp [Ideal.ofBits, Ideal.ieee, -EReal.coe_mul]; norm_num
theorem w127_eq : w127 = ((127 : ℝ) : EReal) := by simp [Ideal.ofBits, Ideal.ieee, -EReal.coe_mul]; norm_num
theorem wNeg127_eq : wNeg127 = ((-127 : ℝ) : EReal) := by simp [Ideal.ofBits, Ideal.ieee, -EReal.coe_mul]; norm_num

/-! ## Real numbers among the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- An extended real that is neither infinity is a real. -/
theorem real_of_ne {z : EReal} (hb : z ≠ ⊥) (ht : z ≠ ⊤) : ∃ r : ℝ, z = (r : EReal) :=
  ⟨z.toReal, (EReal.coe_toReal ht hb).symm⟩

/-- An extended real between two reals is a real. -/
theorem real_of_between {z : EReal} {lo hi : ℝ} (h1 : (lo : EReal) ≤ z) (h2 : z ≤ (hi : EReal)) :
    ∃ r : ℝ, z = (r : EReal) :=
  real_of_ne (fun e => absurd (e ▸ h1) (not_le.2 (EReal.bot_lt_coe lo)))
    (fun e => absurd (e ▸ h2) (not_le.2 (EReal.coe_lt_top hi)))

/-- The clip to `[-127, 127]` makes a real of anything, and rounding keeps it real: a quantised entry is a real
    whatever the entry and the scale are. -/
theorem quant_real (x s : EReal) : ∃ r : ℝ, quant x s = (r : EReal) := by
  unfold quant
  rw [w127_eq, wNeg127_eq]
  obtain ⟨z, hz⟩ := real_of_between (z := min ((127 : ℝ) : EReal) (max ((-127 : ℝ) : EReal) (Ideal.div x s)))
    (lo := -127) (hi := 127)
    (le_min (EReal.coe_le_coe_iff.2 (by norm_num)) (le_max_left _ _)) (min_le_left _ _)
  rw [hz]
  exact ⟨_, Ideal.liftRound_coe z _⟩

/-- The scale made from a real is a real: the real over 127, or 1. -/
theorem scaleOf_real (r : ℝ) : ∃ s : ℝ, scaleOf (r : EReal) = (s : EReal) := by
  unfold scaleOf Scalar.select
  split_ifs
  · refine ⟨r * (1 / 127), ?_⟩
    rw [w127_eq, Ideal.div_coe (by norm_num : (127 : ℝ) ≠ 0), EReal.coe_mul]
  · exact ⟨1, by rw [wOne_eq, EReal.coe_one]⟩

/-- The fold of `max` from `-∞` over a nonempty family of reals is a real. -/
theorem fold_max_real {n : ℕ} (f : Fin (n + 1) → EReal) (hf : ∀ k, ∃ r : ℝ, f k = (r : EReal)) :
    ∃ r : ℝ, (Finset.univ : Finset (Fin (n + 1))).fold max wNegInf f = (r : EReal) := by
  rw [wNegInf_eq]
  refine real_of_ne (ne_of_gt ?_) (ne_of_lt ?_)
  · rw [Finset.lt_fold_max]
    refine Or.inr ⟨0, Finset.mem_univ _, ?_⟩
    obtain ⟨r, hr⟩ := hf 0
    rw [hr]; exact EReal.bot_lt_coe r
  · rw [Finset.fold_max_lt]
    refine ⟨bot_lt_top, fun k _ => ?_⟩
    obtain ⟨r, hr⟩ := hf k
    rw [hr]; exact EReal.coe_lt_top r

/-- The larger of a real and its negative is a real. -/
theorem abs_real {x : EReal} (hx : ∃ r : ℝ, x = (r : EReal)) : ∃ r : ℝ, max x (-x) = (r : EReal) := by
  obtain ⟨r, rfl⟩ := hx
  exact ⟨max r (-r), by rw [EReal.coe_strictMono.monotone.map_max, EReal.coe_neg]⟩

theorem sL_real (X : SL.Idx → EReal) (hX : ∀ i, ∃ x : ℝ, X i = (x : EReal)) (r : Fin 8192) :
    ∃ s : ℝ, sL X r = (s : EReal) := by
  unfold sL amaxRow
  obtain ⟨a, ha⟩ := fold_max_real (n := 4095) (fun k => max (X (ix2 r k)) (-(X (ix2 r k)))) (fun k => abs_real (hX _))
  rw [ha]; exact scaleOf_real a

theorem sR_real (Y : SR.Idx → EReal) (hY : ∀ i, ∃ y : ℝ, Y i = (y : EReal)) (j : Fin 16384) :
    ∃ s : ℝ, sR Y j = (s : EReal) := by
  unfold sR amaxCol
  obtain ⟨a, ha⟩ := fold_max_real (n := 4095) (fun k => max (Y (ix2 k j)) (-(Y (ix2 k j)))) (fun k => abs_real (hY _))
  rw [ha]; exact scaleOf_real a

/-! ## The contraction axis as four blocks of 1024 -/

/-- A position on the axis is a block and a position inside it. -/
def kEquiv : Fin 4 × Fin 1024 ≃ Fin 4096 where
  toFun p := kAt p.1 p.2
  invFun k := (⟨k.val / 1024, by have := k.isLt; omega⟩, ⟨k.val % 1024, by omega⟩)
  left_inv := by
    rintro ⟨b, k⟩
    have hb := b.isLt
    have hk := k.isLt
    refine Prod.ext (Fin.ext ?_) (Fin.ext ?_)
    · show (1024 * b.val + k.val) / 1024 = b.val
      omega
    · show (1024 * b.val + k.val) % 1024 = k.val
      omega
  right_inv := by
    intro k
    refine Fin.ext ?_
    show 1024 * (k.val / 1024) + k.val % 1024 = k.val
    omega

/-- A sum over the axis is the sum over the blocks of the sums inside each. -/
theorem sum_blocks (f : Fin 4096 → ℝ) :
    ∑ k : Fin 4096, f k = ∑ b : Fin 4, ∑ k : Fin 1024, f (kAt b k) := by
  rw [← Equiv.sum_comp kEquiv f, Fintype.sum_prod_type]
  rfl

/-- Over the reals: the four blocks' partial products, summed from zero and scaled by `s` then `t`, are the whole
    sum of the products of the scaled entries. -/
theorem real_law (a b : Fin 4096 → ℝ) (s t : ℝ) :
    (0 + (∑ k : Fin 1024, a (kAt 0 k) * b (kAt 0 k)) + (∑ k : Fin 1024, a (kAt 1 k) * b (kAt 1 k))
        + (∑ k : Fin 1024, a (kAt 2 k) * b (kAt 2 k)) + (∑ k : Fin 1024, a (kAt 3 k) * b (kAt 3 k))) * s * t
      = ∑ k : Fin 4096, (a k * s) * (b k * t) := by
  have hb : ∀ bb : Fin 4, ∑ k : Fin 1024, (a (kAt bb k) * s) * (b (kAt bb k) * t)
      = (∑ k : Fin 1024, a (kAt bb k) * b (kAt bb k)) * s * t := by
    intro bb
    rw [Finset.sum_mul, Finset.sum_mul]
    exact Finset.sum_congr rfl (fun k _ => by ring)
  rw [sum_blocks (fun k => (a k * s) * (b k * t)), Fin.sum_univ_four]
  simp only [hb]
  ring

/-- The law at one entry, over arrays whose row `r` and column `j` are the reals `a`, `b`. -/
theorem entry_law (A : SL.Idx → EReal) (B : SR.Idx → EReal) (r : Fin 8192) (j : Fin 16384)
    (a b : Fin 4096 → ℝ) (s t : ℝ)
    (hA : ∀ k, A (ix2 r k) = (a k : EReal)) (hB : ∀ k, B (ix2 k j) = (b k : EReal)) :
    accUpTo A B r j 4 (le_refl 4) * (s : EReal) * (t : EReal)
      = ∑ k : Fin 4096, ((a k : EReal) * (s : EReal)) * ((b k : EReal) * (t : EReal)) := by
  have hbd : ∀ bb : Fin 4, blockDot A B r j bb = ((∑ k : Fin 1024, a (kAt bb k) * b (kAt bb k) : ℝ) : EReal) := by
    intro bb
    unfold blockDot
    rw [coe_sum]
    exact Finset.sum_congr rfl (fun k _ => by rw [hA, hB, EReal.coe_mul])
  have hacc : accUpTo A B r j 4 (le_refl 4)
      = wZero + blockDot A B r j 0 + blockDot A B r j 1 + blockDot A B r j 2 + blockDot A B r j 3 := rfl
  rw [hacc, hbd, hbd, hbd, hbd, wZero_eq, ← EReal.coe_zero]
  simp only [← EReal.coe_add, ← EReal.coe_mul]
  rw [real_law a b s t, coe_sum]

/-- On real inputs the blockwise product and the product at once are one function. -/
theorem blocked_eq_whole' (X : SL.Idx → EReal) (Y : SR.Idx → EReal)
    (hX : ∀ i, ∃ x : ℝ, X i = (x : EReal)) (hY : ∀ i, ∃ y : ℝ, Y i = (y : EReal)) :
    blockedOut X Y = wholeOut X Y := by
  choose s hs using sL_real X hX
  choose t ht using sR_real Y hY
  choose a ha using fun (r : Fin 8192) (k : Fin 4096) => quant_real (X (ix2 r k)) (sL X r)
  choose b hb using fun (k : Fin 4096) (j : Fin 16384) => quant_real (Y (ix2 k j)) (sR Y j)
  funext i
  obtain ⟨r, j, rfl⟩ : ∃ (r : Fin 8192) (j : Fin 16384), i = ix2 r j := ⟨i 0, i 1, eq_ix2 i⟩
  show accUpTo (QL X) (QR Y) r j 4 (le_refl 4) * sL X r * sR Y j
    = ∑ k : Fin 4096, (qL X r k * sL X r) * (qR Y k j * sR Y j)
  rw [hs, ht, entry_law (QL X) (QR Y) r j (fun k => a r k) (fun k => b k j) (s r) (t j)
    (fun k => ha r k) (fun k => hb k j)]
  refine Finset.sum_congr rfl (fun k _ => ?_)
  show _ = (quant (X (ix2 r k)) (sL X r) * _) * (quant (Y (ix2 k j)) (sR Y j) * _)
  rw [ha, hb]

end Cert.Spec

end
-- ==== Proof.Finite.lean ====
/-
  From the printed precondition (every entry of both inputs has absolute value below +∞) to the fact the law uses:
  every entry of both input arrays is a real number.
-/
import proofs.«147511_j60069412602522_1_alg».proof.Defs
import proofs.«147511_j60069412602522_1_alg».proof.Proof.Gen.Pre_finite_inputs
import Idealize.ShloMosaic.Lib.ReduceAll
import Idealize.ShloMosaic.Lib.ValueIdx

noncomputable section

namespace Cert.Finite

open Idealize.ShloMosaic

/-- The word the predicate compares against denotes `+∞`. -/
theorem posInf_eq : Ideal.ofBits .f32 0x7F800000#32 = (⊤ : EReal) := by simp [Ideal.ofBits, Ideal.ieee]

/-- An extended real whose absolute value (the larger of it and its negative) is below `+∞` is a real: at either
    infinity that larger one is `+∞`. -/
theorem real_of_abs_lt (x : EReal)
    (h : Ideal.cmp .olt (max x (-x)) (Ideal.ofBits .f32 0x7F800000#32) = 1#1) : ∃ r : ℝ, x = (r : EReal) := by
  rw [posInf_eq] at h
  induction x using EReal.rec with
  | bot => simp [Ideal.cmp] at h
  | coe r => exact ⟨r, rfl⟩
  | top => simp [Ideal.cmp] at h

/-- The predicate's result has one index. -/
instance : Subsingleton Cert.Pre_finite_inputs.S_.Idx := ⟨fun a b => funext fun d => d.elim0⟩

/-- Under the precondition every entry of both inputs is a real number: the predicate is the conjunction of two
    `all`s, each an `and`-reduction of the comparisons `|x| < +∞` over a whole array. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread _ _).loc Cert.KernelIdeal.main_arg0) i = (x : EReal)) ∧
    (∀ i, ∃ y : ℝ, m ((c.tc : Thread _ _).loc Cert.KernelIdeal.main_arg1) i = (y : EReal)) := by
  have h0 := congrFun (h c) ValueIdx.ix0
  dsimp only [Cert.Pre_finite_inputs.fn] at h0
  obtain ⟨h3, h7⟩ := IntOp.andi_eq_one.1 h0
  refine ⟨fun i => ?_, fun i => ?_⟩
  · exact real_of_abs_lt _ (Host.reduce_andi_all _ _ _ _ _ h3 i)
  · exact real_of_abs_lt _ (Host.reduce_andi_all _ _ _ _ _ h7 i)

end Cert.Finite

end
-- ==== Proof.lean ====
/-
  The int8 fake-quantised matrix product, kernel against reference, over the extended reals.

  The kernel runs three grids: per block of 512 rows of the left matrix it takes each row's largest absolute value, the
  row's scale (that value over 127, or 1 when it is not positive) and the row's entries divided by the scale, clipped to
  [-127, 127] and rounded to even; per block of 512 columns of the right matrix the same by column; and per (row block,
  column block) of the product it carries a running sum over the four blocks of the contraction axis — reset at the first,
  each block's partial product added — and at the last block writes the sum times the row scale times the column scale.
  The reference multiplies every quantised entry by its scale first and contracts the two dequantised matrices at once.

  Frames: each program's run is composed region by region, every boundary's buffer contents named, so that the arguments
  are read back unchanged at the end (the word-level program and the idealized one by the same text, the reference by its
  straight-line run). The idealization rewrote nothing, so there is nothing for it to preserve beyond the text itself.
  Values: the running sum after block k is the specification's partial sum (induction inside a group of four grid
  points), the written-back blocks tile the product, and the first two grids' write-backs tile the quantised matrices
  and the scale arrays; the reference's stages read at an index are the same entries. Under the precondition every input
  entry is real, hence every scale and every quantised entry is real, and over the reals the two products agree: a
  common factor moves across a finite sum and four blocks' sums make up the whole sum.
-/
import proofs.«147511_j60069412602522_1_alg».proof.Defs
import proofs.«147511_j60069412602522_1_alg».proof.Proof.Gen.Kernel
import proofs.«147511_j60069412602522_1_alg».proof.Proof.Gen.KernelIdeal
import proofs.«147511_j60069412602522_1_alg».proof.Proof.Gen.ReferenceIdeal
import proofs.«147511_j60069412602522_1_alg».proof.Proof.Gen.Pre_finite_inputs
import proofs.«147511_j60069412602522_1_alg».proof.Proof.K.Inst
import proofs.«147511_j60069412602522_1_alg».proof.Proof.KI.Inst
import proofs.«147511_j60069412602522_1_alg».proof.Proof.Val0
import proofs.«147511_j60069412602522_1_alg».proof.Proof.Val1
import proofs.«147511_j60069412602522_1_alg».proof.Proof.Val2
import proofs.«147511_j60069412602522_1_alg».proof.Proof.Ref
import proofs.«147511_j60069412602522_1_alg».proof.Proof.SpecLaw
import proofs.«147511_j60069412602522_1_alg».proof.Proof.Finite
import Idealize.ShloMosaic.Adequacy
import Idealize.ShloMosaic.Init

noncomputable section

namespace Cert.Proof

open Idealize.ShloMosaic Idealize.ShloMosaic.TcCoe Idealize.SL.Sem

/-- The word-level program runs to the end and leaves both arguments as launched. -/
theorem frame_k : Cert.frame_Kernel := fun m ρ _ => Cert.Kernel.Fr.frame_all (F := Bits) m ρ

/-- So does the idealized program. -/
theorem frame_ki : Cert.frame_KernelIdeal := fun m ρ _ => Cert.KernelIdeal.Fr.frame_all (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run_whole m ρ)

/-- The idealization rewrote no operation. -/
theorem preserves : Cert.preserves_Kernel_KernelIdeal := trivial

open Cert.KernelIdeal Cert.KernelIdeal.Fr in
/-- What the kernel's third grid leaves in the result array, when the inputs are finite: the blockwise product of the
    quantised matrices scaled by the scale arrays (the third grid's value over what the first two grids left), which on
    real inputs is the product at once of the dequantised matrices. -/
theorem kernel_value (m : (ℓ : Loc nD τ sig) → Buf (Elt Ideal) ℓ) (hpre : Cert.Pre_KernelIdeal m) (c : Dev nD) :
    (dat2 (F := Ideal) (entry2 m) c).arrAt 4 cfg2.N
      = (Cert.Spec.wholeOut (m ((c.tc : Thread nD τ).loc main_arg0)) (m ((c.tc : Thread nD τ).loc main_arg1)) : Cert.Spec.SO.Idx → EReal) := by
  rw [Cert.KernelIdeal.Val.arr2_4, entry2_q_lhs, entry2_q_rhs, entry2_s_lhs, entry2_s_rhs,
    Cert.KernelIdeal.Val.arr0_1, Cert.KernelIdeal.Val.arr0_2, Cert.KernelIdeal.Val.arr1_1, Cert.KernelIdeal.Val.arr1_2,
    entry0_arg0, entry1_arg1]
  exact Cert.Spec.blocked_eq_whole' _ _ (Cert.Finite.real_of_pre m hpre c).1 (Cert.Finite.real_of_pre m hpre c).2

/-- Run from memories that agree on the arguments, both idealized programs end with the product at once of the dequantised
    matrices in their result arrays. -/
theorem algebraic : Cert.algebraic_KernelIdeal_ReferenceIdeal := by
  intro m ρ m' ρ' hpre hagree
  refine ⟨fun c => Cert.Spec.wholeOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (kernel_value m hpre c), (h c).2⟩)
      (Cert.KernelIdeal.Fr.value_all (F := Ideal) m ρ)
  · refine (θ_run Cert.ReferenceIdeal.defs _ _).mono (fun _ h c => ⟨(h c).1.trans ?_, (h c).2⟩)
      (Cert.ReferenceIdeal.RefValue.run_whole m' ρ')
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
